-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S512x10 : Shape := ⟨2, ![512, 10]⟩
abbrev S10 : Shape := ⟨1, ![10]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg20 : FVec F S10 .f32) (main_v83 : IVec S_ 1) (main_v84 : FVec F S512x10 .f32) (main_cst_32 : FVec F S_ .f32) : IVec S_ 1 :=
  let main_v85 : FVec F S512x10 .f32 := broadcastInDim S512x10 ![] bcast_S_S512x10 main_cst_32
  let main_v86 : IVec S512x10 1 := cmpf .olt main_v84 main_v85
  let main_c_33 : IVec S_ 1 := constantI S_ 1 1#1
  let main_v87 : IVec S_ 1 := (fun x v => Host.reduce IntOp.andi x v reducesTo_S512x10_S_d0_1 h_S_) main_v86 main_c_33
  let main_v88 : IVec S_ 1 := andi main_v83 main_v87
  let main_v89 : FVec F S10 .f32 := Host.absf main_arg20
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg16 : FVec F S256 .f32) (main_arg17 : FVec F S256 .f32) (main_arg18 : FVec F S256 .f32) (main_arg19 : FVec F S512x10 .f32) (main_arg20 : FVec F S10 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S512x10 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S512x10 .f32) (main_arg20 : FVec F S10 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_arg19 main_arg20 main_v63 main_v67

def fn_part2 {F : FTy → Type} [FloatOps F] (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S512x10 .f32) (main_arg20 : FVec F S10 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_v48 main_v49 main_v50

def fn_part1 {F : FTy → Type} [FloatOps F] (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S512x10 .f32) (main_arg20 : FVec F S10 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S40000x128 .f32) (main_arg1 : IVec S2x640000 32) (main_arg2 : IVec S40000 32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_arg19 : FVec F S512x10 .f32) (main_arg20 : FVec F S10 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S512x10 : Shape := ⟨2, ![512, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S40000x1 : Shape := ⟨2, ![40000, 1]⟩
abbrev S64x1 : Shape := ⟨2, ![64, 1]⟩
abbrev S64 : Shape := ⟨1, ![64]⟩
abbrev S1x64 : Shape := ⟨2, ![1, 64]⟩
abbrev S40000x64 : Shape := ⟨2, ![40000, 64]⟩
abbrev S640000x1 : Shape := ⟨2, ![640000, 1]⟩
abbrev S640000x128 : Shape := ⟨2, ![640000, 128]⟩
abbrev S1x256 : Shape := ⟨2, ![1, 256]⟩
abbrev S40000x256 : Shape := ⟨2, ![40000, 256]⟩
abbrev S2000x128 : Shape := ⟨2, ![2000, 128]⟩
abbrev S2000x256 : Shape := ⟨2, ![2000, 256]⟩
abbrev S64x256 : Shape := ⟨2, ![64, 256]⟩
abbrev S4000x64 : Shape := ⟨2, ![4000, 64]⟩
abbrev S4000x256 : Shape := ⟨2, ![4000, 256]⟩
abbrev S640000x256 : Shape := ⟨2, ![640000, 256]⟩
abbrev S64x512 : Shape := ⟨2, ![64, 512]⟩
abbrev S64x10 : Shape := ⟨2, ![64, 10]⟩
abbrev S1x10 : Shape := ⟨2, ![1, 10]⟩

abbrev nBuf : Space → Nat
  | .hbm => 92
  | .vmem => 38
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S512x10, .f32⟩
  | .hbm, ⟨20, _⟩ => ⟨S10, .f32⟩
  | .hbm, ⟨21, _⟩ => ⟨S1x640000, .i32⟩
  | .hbm, ⟨22, _⟩ => ⟨S640000, .i32⟩
  | .hbm, ⟨23, _⟩ => ⟨S1x640000, .i32⟩
  | .hbm, ⟨24, _⟩ => ⟨S640000, .i32⟩
  | .hbm, ⟨25, _⟩ => ⟨S_, .f32⟩
  | .hbm, ⟨26, _⟩ => ⟨S40000x1, .f32⟩
  | .hbm, ⟨27, _⟩ => ⟨S_, .f32⟩
  | .hbm, ⟨28, _⟩ => ⟨S64x1, .f32⟩
  | .hbm, ⟨29, _⟩ => ⟨S40000x1, .i32⟩
  | .hbm, ⟨30, _⟩ => ⟨S64x1, .f32⟩
  | .hbm, ⟨31, _⟩ => ⟨S_, .f32⟩
  | .hbm, ⟨32, _⟩ => ⟨S64x1, .f32⟩
  | .hbm, ⟨33, _⟩ => ⟨S64x1, .f32⟩
  | .hbm, ⟨34, _⟩ => ⟨S40000x1, .i32⟩
  | .hbm, ⟨35, _⟩ => ⟨S64, .i32⟩
  | .hbm, ⟨36, _⟩ => ⟨S1x64, .i32⟩
  | .hbm, ⟨37, _⟩ => ⟨S40000x64, .i32⟩
  | .hbm, ⟨38, _⟩ => ⟨S40000x64, .i32⟩
  | .hbm, ⟨39, _⟩ => ⟨S40000x64, .i1⟩
  | .hbm, ⟨40, _⟩ => ⟨S40000x64, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .f32⟩
  | .hbm, ⟨50, _⟩ => ⟨S_, .f32⟩
  | .hbm, ⟨51, _⟩ => ⟨S40000x128, .f32⟩
  | .hbm, ⟨52, _⟩ => ⟨S640000x1, .i32⟩
  | .hbm, ⟨53, _⟩ => ⟨S40000x128, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S1x256, .f32⟩
  | .hbm, ⟨59, _⟩ => ⟨S1x256, .f32⟩
  | .hbm, ⟨60, _⟩ => ⟨S40000x256, .f32⟩
  | .hbm, ⟨61, _⟩ => ⟨S64x256, .f32⟩
  | .hbm, ⟨62, _⟩ => ⟨S64x256, .f32⟩
  | .hbm, ⟨63, _⟩ => ⟨S64x256, .f32⟩
  | .hbm, ⟨64, _⟩ => ⟨S_, .i32⟩
  | .hbm, ⟨65, _⟩ => ⟨S640000, .i32⟩
  | .hbm, ⟨66, _⟩ => ⟨S640000, .i1⟩
  | .hbm, ⟨67, _⟩ => ⟨S_, .i32⟩
  | .hbm, ⟨68, _⟩ => ⟨S640000, .i32⟩
  | .hbm, ⟨69, _⟩ => ⟨S640000, .i32⟩
  | .hbm, ⟨70, _⟩ => ⟨S640000, .i32⟩
  | .hbm, ⟨71, _⟩ => ⟨S640000x1, .i32⟩
  | .hbm, ⟨72, _⟩ => ⟨S640000x256, .f32⟩
  | .hbm, ⟨73, _⟩ => ⟨S_, .f32⟩
  | .hbm, ⟨74, _⟩ => ⟨S40000x256, .f32⟩
  | .hbm, ⟨75, _⟩ => ⟨S640000x1, .i32⟩
  | .hbm, ⟨76, _⟩ => ⟨S40000x256, .f32⟩
  | .hbm, ⟨77, _⟩ => ⟨S1x256, .f32⟩
  | .hbm, ⟨78, _⟩ => ⟨S1x256, .f32⟩
  | .hbm, ⟨79, _⟩ => ⟨S1x256, .f32⟩
  | .hbm, ⟨80, _⟩ => ⟨S1x256, .f32⟩
  | .hbm, ⟨81, _⟩ => ⟨S1x256, .f32⟩
  | .hbm, ⟨82, _⟩ => ⟨S1x256, .f32⟩
  | .hbm, ⟨83, _⟩ => ⟨S40000x256, .f32⟩
  | .hbm, ⟨84, _⟩ => ⟨S64x256, .f32⟩
  | .hbm, ⟨85, _⟩ => ⟨S64x256, .f32⟩
  | .hbm, ⟨86, _⟩ => ⟨S64x256, .f32⟩
  | .hbm, ⟨87, _⟩ => ⟨S64x512, .f32⟩
  | .hbm, ⟨88, _⟩ => ⟨S64x10, .f32⟩
  | .hbm, ⟨89, _⟩ => ⟨S1x10, .f32⟩
  | .hbm, ⟨90, _⟩ => ⟨S64x10, .f32⟩
  | .hbm, ⟨91, _⟩ => ⟨S64x10, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S256x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S4000x64, .bf16⟩
  | .local _ .vmem, ⟨15, _⟩ => ⟨S4000x64, .bf16⟩
  | .local _ .vmem, ⟨16, _⟩ => ⟨S4000x256, .f32⟩
  | .local _ .vmem, ⟨17, _⟩ => ⟨S4000x256, .f32⟩
  | .local _ .vmem, ⟨18, _⟩ => ⟨S64x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S256x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S2000x256, .f32⟩
  | .local _ .vmem, ⟨32, _⟩ => ⟨S2000x256, .f32⟩
  | .local _ .vmem, ⟨33, _⟩ => ⟨S4000x64, .bf16⟩
  | .local _ .vmem, ⟨34, _⟩ => ⟨S4000x64, .bf16⟩
  | .local _ .vmem, ⟨35, _⟩ => ⟨S4000x256, .f32⟩
  | .local _ .vmem, ⟨36, _⟩ => ⟨S4000x256, .f32⟩
  | .local _ .vmem, ⟨37, _⟩ => ⟨S64x256, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_3 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_c_4 : Ref sig .tc := ⟨.hbm, 64, rfl⟩
abbrev main_v37 : Ref sig .tc := ⟨.hbm, 65, rfl⟩
abbrev main_v38 : Ref sig .tc := ⟨.hbm, 66, rfl⟩
abbrev main_c_5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg8_0 : Ref sig .tc := ⟨.vmem, 29, rfl⟩
abbrev cc2_stg9_0 : Ref sig .tc := ⟨.vmem, 30, rfl⟩
abbrev cc2_stg10_0 : Ref sig .tc := ⟨.vmem, 31, rfl⟩
abbrev cc2_stg10_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem8_0 : DmaSem sig := 29
abbrev cc2_sem9_0 : DmaSem sig := 30
abbrev cc2_sem10_0 : DmaSem sig := 31
abbrev cc2_sem10_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2000x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S4000x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000x1 : S_.BroadcastsInDim S40000x1 (![] : Fin 0 → Fin S40000x1.rank)
  bcast_S_S64x1 : S_.BroadcastsInDim S64x1 (![] : Fin 0 → Fin S64x1.rank)
  bcast_S40000_S40000x1_0 : S40000.BroadcastsInDim S40000x1 (![0] : Fin 1 → Fin S40000x1.rank)
  bcast_S64_S1x64_1 : S64.BroadcastsInDim S1x64 (![1] : Fin 1 → Fin S1x64.rank)
  bcast_S40000x1_S40000x64_0_1 : S40000x1.BroadcastsInDim S40000x64 (![0, 1] : Fin 2 → Fin S40000x64.rank)
  bcast_S1x64_S40000x64_0_1 : S1x64.BroadcastsInDim S40000x64 (![0, 1] : Fin 2 → Fin S40000x64.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  inb_S64x256_S64x256_0_0 : ∀ a, (![0, 0] : Fin 2 → Nat) a + S64x256.size a ≤ S64x256.size a
  h_S64x256 : 0 < S64x256.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  shapeCasts_S64x256_S64x256 : S64x256.ShapeCasts S64x256
  bcast_S64x1_S64x256_0_1 : S64x1.BroadcastsInDim S64x256 (![0, 1] : Fin 2 → Fin S64x256.rank)
  bcast_S_S40000x256 : S_.BroadcastsInDim S40000x256 (![] : Fin 0 → Fin S40000x256.rank)
  shapeCasts_S2000x256_S2000x256 : S2000x256.ShapeCasts S2000x256
  concatenates_S64x256_S64x256_S64x512_d1 : Shape.Concatenates [S64x256, S64x256] S64x512 1
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S64x1_S40000x1_S40000x1_1_0_0_1_wf : ScatterDims.WF S64x1 S40000x1 S40000x1 [1] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  dot_S4000x64_S4000x256_S64x256_0_0_1_1_n_n_wf : DotDims.WF S4000x64 S4000x256 S64x256 [0] [0] [1] [1] [] []
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S64x512_S512x10_S64x10_1_0_0_1_n_n_wf : DotDims.WF S64x512 S512x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S40000x128.size a
  hwx0_0 : ∀ i : grid0.Coords, EltTy.bits .f32 = 32 ∨ (Rect.block (s := S40000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S40000x128.size a
  hwx0_1 : ∀ i : grid0.Coords, EltTy.bits .f32 = 32 ∨ (Rect.block (s := S40000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x256.size a ≤ S40000x256.size a
  hwx0_10 : ∀ i : grid0.Coords, EltTy.bits .f32 = 32 ∨ (Rect.block (s := S40000x256) S2000x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S40000x64.size a
  hwx1_0 : ∀ i : grid1.Coords, EltTy.bits .bf16 = 32 ∨ (Rect.block (s := S40000x64) S4000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S40000x256.size a
  hwx1_1 : ∀ i : grid1.Coords, EltTy.bits .f32 = 32 ∨ (Rect.block (s := S40000x256) S4000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x256.size a ≤ S64x256.size a
  hwx1_2 : ∀ i : grid1.Coords, EltTy.bits .f32 = 32 ∨ (Rect.block (s := S64x256) S64x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S40000x256.size a
  hwx2_0 : ∀ i : grid2.Coords, EltTy.bits .f32 = 32 ∨ (Rect.block (s := S40000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S40000x256.size a
  hwx2_1 : ∀ i : grid2.Coords, EltTy.bits .f32 = 32 ∨ (Rect.block (s := S40000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x256.size a ≤ S1x256.size a
  hwx2_8 : ∀ i : grid2.Coords, EltTy.bits .f32 = 32 ∨ (Rect.block (s := S1x256) S1x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x256.size a ≤ S40000x256.size a
  hwx2_10 : ∀ i : grid2.Coords, EltTy.bits .f32 = 32 ∨ (Rect.block (s := S40000x256) S2000x256.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S40000x64.size a
  hwx3_0 : ∀ i : grid3.Coords, EltTy.bits .bf16 = 32 ∨ (Rect.block (s := S40000x64) S4000x64.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x256.size a ≤ S40000x256.size a
  hwx3_1 : ∀ i : grid3.Coords, EltTy.bits .f32 = 32 ∨ (Rect.block (s := S40000x256) S4000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x256.size a ≤ S64x256.size a
  hwx3_2 : ∀ i : grid3.Coords, EltTy.bits .f32 = 32 ∨ (Rect.block (s := S64x256) S64x256.size (cc3_transform_2 i) (hinb3_2 i)).WholeWords (EltTy.packing .f32)

variable [Facts₀]

def scatter_S64x1_S40000x1_S40000x1_1_0_0_1 : ScatterDims S64x1 S40000x1 S40000x1 where
  updateWindowDims := [1]
  insertedWindowDims := [0]
  scatterDimsToOperandDims := [0]
  indexVectorDim := 1
  wf := scatter_S64x1_S40000x1_S40000x1_1_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S4000x64_S4000x256_S64x256_0_0_1_1_n_n : DotDims S4000x64 S4000x256 S64x256 where
  lhsContracting := [0]
  rhsContracting := [0]
  lhsNonContracting := [1]
  rhsNonContracting := [1]
  lhsBatch := []
  rhsBatch := []
  wf := dot_S4000x64_S4000x256_S64x256_0_0_1_1_n_n_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v33) S2000x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v16) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64x256.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v33) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v50) S1x256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v51) S1x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v52) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v53) S2000x256.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v16) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S4000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S64x256.size cc3_transform_2 reads3_2 true true 1 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S128x256 : Shape := ⟨2, ![128, 256]⟩
abbrev S256 : Shape := ⟨1, ![256]⟩
abbrev S256x256 : Shape := ⟨2, ![256, 256]⟩
abbrev S512x10 : Shape := ⟨2, ![512, 10]⟩
abbrev S10 : Shape := ⟨1, ![10]⟩
abbrev S1x640000 : Shape := ⟨2, ![1, 640000]⟩
abbrev S640000 : Shape := ⟨1, ![640000]⟩
abbrev S_ : Shape := ⟨0, ![]⟩
abbrev S40000x1 : Shape := ⟨2, ![40000, 1]⟩
abbrev S64x1 : Shape := ⟨2, ![64, 1]⟩
abbrev S640000x1 : Shape := ⟨2, ![640000, 1]⟩
abbrev S640000x128 : Shape := ⟨2, ![640000, 128]⟩
abbrev S40000x256 : Shape := ⟨2, ![40000, 256]⟩
abbrev S1x256 : Shape := ⟨2, ![1, 256]⟩
abbrev S64x256 : Shape := ⟨2, ![64, 256]⟩
abbrev S640000x256 : Shape := ⟨2, ![640000, 256]⟩
abbrev S64x512 : Shape := ⟨2, ![64, 512]⟩
abbrev S64x10 : Shape := ⟨2, ![64, 10]⟩
abbrev S1x10 : Shape := ⟨2, ![1, 10]⟩

abbrev nBuf : Space → Nat
  | .hbm => 143
  | .vmem => 0
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S512x10, .f32⟩
  | 20 => ⟨S10, .f32⟩
  | 21 => ⟨S1x640000, .i32⟩
  | 22 => ⟨S640000, .i32⟩
  | 23 => ⟨S1x640000, .i32⟩
  | 24 => ⟨S640000, .i32⟩
  | 25 => ⟨S_, .f32⟩
  | 26 => ⟨S40000x1, .f32⟩
  | 27 => ⟨S_, .f32⟩
  | 28 => ⟨S64x1, .f32⟩
  | 29 => ⟨S40000x1, .i32⟩
  | 30 => ⟨S64x1, .f32⟩
  | 31 => ⟨S_, .f32⟩
  | 32 => ⟨S64x1, .f32⟩
  | 33 => ⟨S64x1, .f32⟩
  | 34 => ⟨S_, .i32⟩
  | 35 => ⟨S640000, .i32⟩
  | 36 => ⟨S640000, .i1⟩
  | 37 => ⟨S_, .i32⟩
  | 38 => ⟨S640000, .i32⟩
  | 39 => ⟨S640000, .i32⟩
  | 40 => ⟨S640000, .i32⟩
  | 41 => ⟨S640000x1, .i32⟩
  | 42 => ⟨S640000x128, .f32⟩
  | 43 => ⟨S_, .f32⟩
  | 44 => ⟨S40000x128, .f32⟩
  | 45 => ⟨S640000x1, .i32⟩
  | 46 => ⟨S40000x128, .f32⟩
  | 47 => ⟨S40000x128, .f32⟩
  | 48 => ⟨S40000x256, .f32⟩
  | 49 => ⟨S1x256, .f32⟩
  | 50 => ⟨S40000x256, .f32⟩
  | 51 => ⟨S40000x256, .f32⟩
  | 52 => ⟨S_, .f32⟩
  | 53 => ⟨S40000x256, .f32⟩
  | 54 => ⟨S40000x256, .f32⟩
  | 55 => ⟨S1x256, .f32⟩
  | 56 => ⟨S40000x256, .f32⟩
  | 57 => ⟨S40000x256, .f32⟩
  | 58 => ⟨S1x256, .f32⟩
  | 59 => ⟨S40000x256, .f32⟩
  | 60 => ⟨S40000x256, .f32⟩
  | 61 => ⟨S_, .f32⟩
  | 62 => ⟨S40000x256, .f32⟩
  | 63 => ⟨S40000x256, .f32⟩
  | 64 => ⟨S40000x256, .f32⟩
  | 65 => ⟨S1x256, .f32⟩
  | 66 => ⟨S40000x256, .f32⟩
  | 67 => ⟨S40000x256, .f32⟩
  | 68 => ⟨S_, .f32⟩
  | 69 => ⟨S40000x256, .f32⟩
  | 70 => ⟨S40000x256, .f32⟩
  | 71 => ⟨S1x256, .f32⟩
  | 72 => ⟨S40000x256, .f32⟩
  | 73 => ⟨S40000x256, .f32⟩
  | 74 => ⟨S1x256, .f32⟩
  | 75 => ⟨S40000x256, .f32⟩
  | 76 => ⟨S40000x256, .f32⟩
  | 77 => ⟨S_, .f32⟩
  | 78 => ⟨S40000x256, .f32⟩
  | 79 => ⟨S40000x256, .f32⟩
  | 80 => ⟨S_, .f32⟩
  | 81 => ⟨S64x256, .f32⟩
  | 82 => ⟨S40000x1, .i32⟩
  | 83 => ⟨S64x256, .f32⟩
  | 84 => ⟨S64x256, .f32⟩
  | 85 => ⟨S64x256, .f32⟩
  | 86 => ⟨S_, .i32⟩
  | 87 => ⟨S640000, .i32⟩
  | 88 => ⟨S640000, .i1⟩
  | 89 => ⟨S_, .i32⟩
  | 90 => ⟨S640000, .i32⟩
  | 91 => ⟨S640000, .i32⟩
  | 92 => ⟨S640000, .i32⟩
  | 93 => ⟨S640000x1, .i32⟩
  | 94 => ⟨S640000x256, .f32⟩
  | 95 => ⟨S_, .f32⟩
  | 96 => ⟨S40000x256, .f32⟩
  | 97 => ⟨S640000x1, .i32⟩
  | 98 => ⟨S40000x256, .f32⟩
  | 99 => ⟨S40000x256, .f32⟩
  | 100 => ⟨S40000x256, .f32⟩
  | 101 => ⟨S1x256, .f32⟩
  | 102 => ⟨S40000x256, .f32⟩
  | 103 => ⟨S40000x256, .f32⟩
  | 104 => ⟨S_, .f32⟩
  | 105 => ⟨S40000x256, .f32⟩
  | 106 => ⟨S40000x256, .f32⟩
  | 107 => ⟨S1x256, .f32⟩
  | 108 => ⟨S40000x256, .f32⟩
  | 109 => ⟨S40000x256, .f32⟩
  | 110 => ⟨S1x256, .f32⟩
  | 111 => ⟨S40000x256, .f32⟩
  | 112 => ⟨S40000x256, .f32⟩
  | 113 => ⟨S_, .f32⟩
  | 114 => ⟨S40000x256, .f32⟩
  | 115 => ⟨S40000x256, .f32⟩
  | 116 => ⟨S40000x256, .f32⟩
  | 117 => ⟨S1x256, .f32⟩
  | 118 => ⟨S40000x256, .f32⟩
  | 119 => ⟨S40000x256, .f32⟩
  | 120 => ⟨S_, .f32⟩
  | 121 => ⟨S40000x256, .f32⟩
  | 122 => ⟨S40000x256, .f32⟩
  | 123 => ⟨S1x256, .f32⟩
  | 124 => ⟨S40000x256, .f32⟩
  | 125 => ⟨S40000x256, .f32⟩
  | 126 => ⟨S1x256, .f32⟩
  | 127 => ⟨S40000x256, .f32⟩
  | _ => ⟨S40000x128, .f32⟩

abbrev hbmTy0_1 (i : Nat) : BufTy := match i % 128 with
  | 0 => ⟨S40000x256, .f32⟩
  | 1 => ⟨S_, .f32⟩
  | 2 => ⟨S40000x256, .f32⟩
  | 3 => ⟨S40000x256, .f32⟩
  | 4 => ⟨S_, .f32⟩
  | 5 => ⟨S64x256, .f32⟩
  | 6 => ⟨S40000x1, .i32⟩
  | 7 => ⟨S64x256, .f32⟩
  | 8 => ⟨S64x256, .f32⟩
  | 9 => ⟨S64x256, .f32⟩
  | 10 => ⟨S64x512, .f32⟩
  | 11 => ⟨S64x10, .f32⟩
  | 12 => ⟨S1x10, .f32⟩
  | 13 => ⟨S64x10, .f32⟩
  | 14 => ⟨S64x10, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_cst : Ref sig .tc := ⟨.hbm, 25, rfl⟩
abbrev main_v4 : Ref sig .tc := ⟨.hbm, 26, rfl⟩
abbrev main_cst_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_1 : Ref sig .tc := ⟨.hbm, 31, rfl⟩
abbrev main_v8 : Ref sig .tc := ⟨.hbm, 32, rfl⟩
abbrev main_v9 : Ref sig .tc := ⟨.hbm, 33, rfl⟩
abbrev main_c : Ref sig .tc := ⟨.hbm, 34, rfl⟩
abbrev main_v10 : Ref sig .tc := ⟨.hbm, 35, rfl⟩
abbrev main_v11 : Ref sig .tc := ⟨.hbm, 36, rfl⟩
abbrev main_c_2 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_cst_3 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_call0_cst : Ref sig .tc := ⟨.hbm, 61, rfl⟩
abbrev main_call0_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_5 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_call1_cst : Ref sig .tc := ⟨.hbm, 77, rfl⟩
abbrev main_call1_v0 : Ref sig .tc := ⟨.hbm, 78, rfl⟩
abbrev main_v46 : Ref sig .tc := ⟨.hbm, 79, rfl⟩
abbrev main_cst_6 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_7 : Ref sig .tc := ⟨.hbm, 86, rfl⟩
abbrev main_v52 : Ref sig .tc := ⟨.hbm, 87, rfl⟩
abbrev main_v53 : Ref sig .tc := ⟨.hbm, 88, rfl⟩
abbrev main_c_8 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_cst_9 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_10 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call2_cst : Ref sig .tc := ⟨.hbm, 113, rfl⟩
abbrev main_call2_v0 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_11 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call3_cst : Ref sig .tc := ⟨.hbm, 129, rfl⟩
abbrev main_call3_v0 : Ref sig .tc := ⟨.hbm, 130, rfl⟩
abbrev main_v88 : Ref sig .tc := ⟨.hbm, 131, rfl⟩
abbrev main_cst_12 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S40000x1 : S_.BroadcastsInDim S40000x1 (![] : Fin 0 → Fin S40000x1.rank)
  bcast_S_S64x1 : S_.BroadcastsInDim S64x1 (![] : Fin 0 → Fin S64x1.rank)
  bcast_S40000_S40000x1_0 : S40000.BroadcastsInDim S40000x1 (![0] : Fin 1 → Fin S40000x1.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S256_S1x256_1 : S256.BroadcastsInDim S1x256 (![1] : Fin 1 → Fin S1x256.rank)
  bcast_S1x256_S40000x256_0_1 : S1x256.BroadcastsInDim S40000x256 (![0, 1] : Fin 2 → Fin S40000x256.rank)
  bcast_S_S40000x256 : S_.BroadcastsInDim S40000x256 (![] : Fin 0 → Fin S40000x256.rank)
  bcast_S_S64x256 : S_.BroadcastsInDim S64x256 (![] : Fin 0 → Fin S64x256.rank)
  bcast_S64x1_S64x256_0_1 : S64x1.BroadcastsInDim S64x256 (![0, 1] : Fin 2 → Fin S64x256.rank)
  concatenates_S64x256_S64x256_S64x512_d1 : Shape.Concatenates [S64x256, S64x256] S64x512 1
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S64x1_S40000x1_S40000x1_1_0_0_1_wf : ScatterDims.WF S64x1 S40000x1 S40000x1 [1] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x256_S40000x256_1_0_0_1_n_n_wf : DotDims.WF S40000x128 S128x256 S40000x256 [1] [0] [0] [1] [] []
  dot_S40000x256_S256x256_S40000x256_1_0_0_1_n_n_wf : DotDims.WF S40000x256 S256x256 S40000x256 [1] [0] [0] [1] [] []
  scatter_S64x256_S40000x1_S40000x256_1_0_0_1_wf : ScatterDims.WF S64x256 S40000x1 S40000x256 [1] [0] [0] 1
  gather_S40000x256_S640000x1_S640000x256_1_0_n_n_0_1_1256_wf : GatherDims.WF S40000x256 S640000x1 S640000x256 [1] [0] [] [0] [] 1 ![1, 256]
  scatter_S40000x256_S640000x1_S640000x256_1_0_0_1_wf : ScatterDims.WF S40000x256 S640000x1 S640000x256 [1] [0] [0] 1
  dot_S64x512_S512x10_S64x10_1_0_0_1_n_n_wf : DotDims.WF S64x512 S512x10 S64x10 [1] [0] [0] [1] [] []

variable [Facts₀]

def scatter_S64x1_S40000x1_S40000x1_1_0_0_1 : ScatterDims S64x1 S40000x1 S40000x1 where
  updateWindowDims := [1]
  insertedWindowDims := [0]
  scatterDimsToOperandDims := [0]
  indexVectorDim := 1
  wf := scatter_S64x1_S40000x1_S40000x1_1_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x256_S40000x256_1_0_0_1_n_n : DotDims S40000x128 S128x256 S40000x256 where
  lhsContracting := [1]
  rhsContracting := [0]
  lhsNonContracting := [0]
  rhsNonContracting := [1]
  lhsBatch := []
  rhsBatch := []
  wf := dot_S40000x128_S128x256_S40000x256_1_0_0_1_n_n_wf
def dot_S40000x256_S256x256_S40000x256_1_0_0_1_n_n : DotDims S40000x256 S256x256 S40000x256 where
  lhsContracting := [1]
  rhsContracting := [0]
  lhsNonContracting := [0]
  rhsNonContracting := [1]
  lhsBatch := []
  rhsBatch := []
  wf := dot_S40000x256_S256x256_S40000x256_1_0_0_1_n_n_wf
def scatter_S64x256_S40000x1_S40000x256_1_0_0_1 : ScatterDims S64x256 S40000x1 S40000x256 where
  updateWindowDims := [1]
  insertedWindowDims := [0]
  scatterDimsToOperandDims := [0]
  indexVectorDim := 1
  wf := scatter_S64x256_S40000x1_S40000x256_1_0_0_1_wf
def gather_S40000x256_S640000x1_S640000x256_1_0_n_n_0_1_1256 : GatherDims S40000x256 S640000x1 S640000x256 where
  offsetDims := [1]
  collapsedSliceDims := [0]
  operandBatchingDims := []
  startIndicesBatchingDims := []
  startIndexMap := [0]
  indexVectorDim := 1
  sliceSizes := ![1, 256]
  wf := gather_S40000x256_S640000x1_S640000x256_1_0_n_n_0_1_1256_wf
def scatter_S40000x256_S640000x1_S640000x256_1_0_0_1 : ScatterDims S40000x256 S640000x1 S640000x256 where
  updateWindowDims := [1]
  insertedWindowDims := [0]
  scatterDimsToOperandDims := [0]
  indexVectorDim := 1
  wf := scatter_S40000x256_S640000x1_S640000x256_1_0_0_1_wf
def dot_S64x512_S512x10_S64x10_1_0_0_1_n_n : DotDims S64x512 S512x10 S64x10 where
  lhsContracting := [1]
  rhsContracting := [0]
  lhsNonContracting := [0]
  rhsNonContracting := [1]
  lhsBatch := []
  rhsBatch := []
  wf := dot_S64x512_S512x10_S64x10_1_0_0_1_n_n_wf

class Facts : Prop extends Facts₀ where

variable [Facts]
-- ==== Proof.Spec.lean ====
/-
  THE SPECIFICATION: what one graph-isomorphism layer and one mean-pooling step compute, on the extended reals.

  A layer sends a node's row h (its own features plus the sum of its in-neighbours') through two dense layers, each
  followed by the evaluation-mode normalisation g * ((h W + b) * c) + be with the folded constant
  c = float32 (1 / sqrt (1 + 1e-5)), and a rectifier after each: mlpRow. Only row p of the input enters row p of the
  output, so a block of rows and the whole array give the same value at a node.

  Pooling sums a column of node values over the nodes of one graph. Written with a 0/1 membership factor
  (a product with a one-hot matrix) it is  sum over i of onehot i g * h i ; written as a segment sum it is
  0 + the sum of h e over the nodes e whose signed graph id is g. On the extended reals 1 * x = x and 0 * x = 0 for every
  x, infinities included, so the two are one number: pool_onehot_eq_filter. A graph id outside 0..63 matches no
  one-hot column and no segment, on both sides.
-/
import Idealize.ShloMosaic.PureOps.Ideal
import Idealize.ShloMosaic.Lib.ValueIdx
import Mathlib.Data.EReal.Operations

noncomputable section

namespace GinSpec

open Idealize.ShloMosaic Idealize.ShloMosaic.ValueIdx
open scoped BigOperators

/-- The folded normalisation constant, the float32 nearest 1 / sqrt (1 + 1e-5), as the extended real its word denotes. -/
def cN : EReal := Ideal.ofBits .f32 0x3F7FFFAC#32

/-- A dense layer and its normalisation at output column k, from one input row h. -/
def dense {ι κ : Type} [Fintype ι] (h : ι → EReal) (W : ι → κ → EReal) (b g be : κ → EReal) (k : κ) : EReal :=
  g k * (((∑ j, h j * W j k) + b k) * cN) + be k

/-- The two-layer perceptron of one node, a rectifier after each normalised layer, at output column q. -/
def mlpRow {ι : Type} [Fintype ι] (h : ι → EReal) (W1 : ι → Fin 256 → EReal) (b1 g1 be1 : Fin 256 → EReal)
    (W2 : Fin 256 → Fin 256 → EReal) (b2 g2 be2 : Fin 256 → EReal) (q : Fin 256) : EReal :=
  max (dense (fun k => max (dense h W1 b1 g1 be1 k) 0) W2 b2 g2 be2 q) 0

/-- The membership factor of node word b in graph g: 1 when the word is g's, else 0. -/
def member (b : BitVec 32) (g : Fin 64) : EReal := if b = BitVec.ofNat 32 g.val then 1 else 0

/-- Sum pooling as a product with the 0/1 membership matrix. -/
def poolOnehot (batch : Fin 40000 → BitVec 32) (h : Fin 40000 → EReal) (g : Fin 64) : EReal :=
  ∑ i, member (batch i) g * h i

/-- The word of a graph number below 64 reads back, as a signed integer, as that number. -/
theorem toInt_ofNat_graph (g : Fin 64) : (BitVec.ofNat 32 g.val).toInt = (g.val : ℤ) := by
  have hg := g.isLt
  have hn : (BitVec.ofNat 32 g.val).toNat = g.val := by
    rw [BitVec.toNat_ofNat]; exact Nat.mod_eq_of_lt (Nat.lt_of_lt_of_le hg (by decide))
  rw [BitVec.toInt_eq_toNat_of_lt (by rw [hn]; omega), hn]

/-- A 32-bit word read as a signed integer is g (below 64) exactly when it is g's word. -/
theorem toInt_eq_iff (b : BitVec 32) (g : Fin 64) : b.toInt = (g.val : ℤ) ↔ b = BitVec.ofNat 32 g.val := by
  constructor
  · intro h
    exact BitVec.eq_of_toInt_eq (h.trans (toInt_ofNat_graph g).symm)
  · rintro rfl
    exact toInt_ofNat_graph g

/-- The one-hot product is the segment sum: the zero plus the values of the nodes whose signed id is g. -/
theorem pool_onehot_eq_filter (batch : Fin 40000 → BitVec 32) (h : Fin 40000 → EReal) (g : Fin 64) :
    poolOnehot batch h g
      = 0 + ∑ e ∈ Finset.univ.filter (fun e : Fin 40000 => (batch e).toInt = (g.val : ℤ)), h e := by
  unfold poolOnehot member
  rw [zero_add, Finset.sum_filter]
  refine Finset.sum_congr rfl fun i _ => ?_
  by_cases hb : batch i = BitVec.ofNat 32 g.val
  · rw [if_pos hb, if_pos ((toInt_eq_iff _ g).mpr hb), one_mul]
  · rw [if_neg hb, if_neg (fun h' => hb ((toInt_eq_iff _ g).mp h')), zero_mul]

end GinSpec

end
-- ==== Proof.KEntry.lean ====
/-
  WHAT THE FIRST REGION FINDS. The host operations before the first perceptron region compute, from the launch
  contents: the edge lists (the two rows of edge_index), the aggregated neighbour features (a gather of x at the wrapped
  source ids, scatter-added at the destination ids), the graph sizes clamped below by one, the 0/1 membership matrix
  (batch id against 0..63, converted to a float), and the bias / scale / shift vectors kept as [1, 256] rows. Each is
  read here off the fold of those operations as the SAME operations' term of the launch contents; the aggregated
  features, the sizes and the edge lists are exactly the reference program's stages of the same arguments (the two
  programs apply the same host operations to them), so they are named by those stages and never opened.
  The membership matrix is read at an entry: 1 when the node's id word is the graph's, else 0. A bias row is read at
  (0, k) as the vector at k.
-/
import proofs.«420224_j87299505258672_1_alg».proof.Proof.Gen.KernelIdeal.Frame
import proofs.«420224_j87299505258672_1_alg».proof.Proof.Gen.ReferenceIdeal.Read
import proofs.«420224_j87299505258672_1_alg».proof.Proof.Spec
import Idealize.ShloMosaic.Lib.StableHlo.Run
import Idealize.ShloMosaic.Lib.StableHlo.Predicate
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open scoped BigOperators

namespace Cert.KernelIdeal.Entry

open Cert.KernelIdeal Cert.KernelIdeal.Gen
open Cert.ReferenceIdeal.Read (val_main_v1 val_main_v3 val_main_v9 val_main_v19)

variable (m : (ℓ : Loc nD τ sig) → Buf (Elt Ideal) ℓ) (ρ : Dev nD → PrngReg)

/-! ## The first region's entry contents: the first host stretch folded over the launch memory -/

/-- The node features are as launched. -/
theorem x_at_entry (c : Dev nD) : V1 m ρ c main_arg0 = m ((c.tc : Thread nD τ).loc main_arg0) := by
  show StableHlo.after hostOps0 (W0 m ρ c) (Proc.devRef .tc main_arg0) = _
  after_results_simp <;> rfl

/-- The first weight matrix is as launched. -/
theorem w1_at_entry (c : Dev nD) : V1 m ρ c main_arg3 = m ((c.tc : Thread nD τ).loc main_arg3) := by
  show StableHlo.after hostOps0 (W0 m ρ c) (Proc.devRef .tc main_arg3) = _
  after_results_simp <;> rfl

/-- The second weight matrix is as launched. -/
theorem w2_at_entry (c : Dev nD) : V1 m ρ c main_arg7 = m ((c.tc : Thread nD τ).loc main_arg7) := by
  show StableHlo.after hostOps0 (W0 m ρ c) (Proc.devRef .tc main_arg7) = _
  after_results_simp <;> rfl

/-- The aggregated neighbour features are the reference's stage of the same arguments. -/
theorem agg_at_entry (c : Dev nD) :
    V1 m ρ c main_v26 = val_main_v19 (F := Ideal) (m ((c.tc : Thread nD τ).loc main_arg0)) (m ((c.tc : Thread nD τ).loc main_arg1)) := by
  show StableHlo.after hostOps0 (W0 m ρ c) (Proc.devRef .tc main_v26) = _
  after_results_simp <;> rfl

/-- The clamped graph sizes are the reference's stage of the same argument. -/
theorem cnt_at_entry (c : Dev nD) : V1 m ρ c main_v9 = val_main_v9 (F := Ideal) (m ((c.tc : Thread nD τ).loc main_arg2)) := by
  show StableHlo.after hostOps0 (W0 m ρ c) (Proc.devRef .tc main_v9) = _
  after_results_simp <;> rfl

/-- The source ids are the reference's stage of the same argument. -/
theorem src_at_entry (c : Dev nD) : V1 m ρ c main_v1 = val_main_v1 (F := Ideal) (m ((c.tc : Thread nD τ).loc main_arg1)) := by
  show StableHlo.after hostOps0 (W0 m ρ c) (Proc.devRef .tc main_v1) = _
  after_results_simp <;> rfl

/-- The destination ids are the reference's stage of the same argument. -/
theorem dst_at_entry (c : Dev nD) : V1 m ρ c main_v3 = val_main_v3 (F := Ideal) (m ((c.tc : Thread nD τ).loc main_arg1)) := by
  show StableHlo.after hostOps0 (W0 m ρ c) (Proc.devRef .tc main_v3) = _
  after_results_simp <;> rfl

/-- The first bias vector, kept as a [1, 256] row. -/
theorem b1_at_entry (c : Dev nD) :
    V1 m ρ c main_v27 = shapeCast S1x256 (m ((c.tc : Thread nD τ).loc main_arg4)) shapeCasts_S256_S1x256 := by
  show StableHlo.after hostOps0 (W0 m ρ c) (Proc.devRef .tc main_v27) = _
  after_results_simp <;> rfl

/-- The first scale vector, kept as a [1, 256] row. -/
theorem g1_at_entry (c : Dev nD) :
    V1 m ρ c main_v28 = shapeCast S1x256 (m ((c.tc : Thread nD τ).loc main_arg5)) shapeCasts_S256_S1x256 := by
  show StableHlo.after hostOps0 (W0 m ρ c) (Proc.devRef .tc main_v28) = _
  after_results_simp <;> rfl

/-- The first shift vector, kept as a [1, 256] row. -/
theorem be1_at_entry (c : Dev nD) :
    V1 m ρ c main_v29 = shapeCast S1x256 (m ((c.tc : Thread nD τ).loc main_arg6)) shapeCasts_S256_S1x256 := by
  show StableHlo.after hostOps0 (W0 m ρ c) (Proc.devRef .tc main_v29) = _
  after_results_simp <;> rfl

/-- The second bias vector, kept as a [1, 256] row. -/
theorem b2_at_entry (c : Dev nD) :
    V1 m ρ c main_v30 = shapeCast S1x256 (m ((c.tc : Thread nD τ).loc main_arg8)) shapeCasts_S256_S1x256 := by
  show StableHlo.after hostOps0 (W0 m ρ c) (Proc.devRef .tc main_v30) = _
  after_results_simp <;> rfl

/-- The second scale vector, kept as a [1, 256] row. -/
theorem g2_at_entry (c : Dev nD) :
    V1 m ρ c main_v31 = shapeCast S1x256 (m ((c.tc : Thread nD τ).loc main_arg9)) shapeCasts_S256_S1x256 := by
  show StableHlo.after hostOps0 (W0 m ρ c) (Proc.devRef .tc main_v31) = _
  after_results_simp <;> rfl

/-- The second shift vector, kept as a [1, 256] row. -/
theorem be2_at_entry (c : Dev nD) :
    V1 m ρ c main_v32 = shapeCast S1x256 (m ((c.tc : Thread nD τ).loc main_arg10)) shapeCasts_S256_S1x256 := by
  show StableHlo.after hostOps0 (W0 m ρ c) (Proc.devRef .tc main_v32) = _
  after_results_simp <;> rfl

/-- The membership matrix: the id column against the row 0..63, compared for equality, converted to a float. -/
theorem onehot_at_entry (c : Dev nD) :
    V1 m ρ c main_v16 = uitofp (F := Ideal) .bf16 (cmpi .eq
      (broadcastInDim S40000x64 ![0, 1] bcast_S40000x1_S40000x64_0_1
        (broadcastInDim S40000x1 ![0] bcast_S40000_S40000x1_0 (m ((c.tc : Thread nD τ).loc main_arg2))))
      (broadcastInDim S40000x64 ![0, 1] bcast_S1x64_S40000x64_0_1
        (broadcastInDim S1x64 ![1] bcast_S64_S1x64_1 (iotaInDim S64 32 0)))) := by
  show StableHlo.after hostOps0 (W0 m ρ c) (Proc.devRef .tc main_v16) = _
  after_results_simp <;> rfl

/-- The second layer's first weight matrix is as launched. -/
theorem w3_at_entry (c : Dev nD) : V1 m ρ c main_arg11 = m ((c.tc : Thread nD τ).loc main_arg11) := by
  show StableHlo.after hostOps0 (W0 m ρ c) (Proc.devRef .tc main_arg11) = _
  after_results_simp <;> rfl

/-- The second layer's first bias vector is as launched. -/
theorem b3_at_entry (c : Dev nD) : V1 m ρ c main_arg12 = m ((c.tc : Thread nD τ).loc main_arg12) := by
  show StableHlo.after hostOps0 (W0 m ρ c) (Proc.devRef .tc main_arg12) = _
  after_results_simp <;> rfl

/-- The second layer's first scale vector is as launched. -/
theorem g3_at_entry (c : Dev nD) : V1 m ρ c main_arg13 = m ((c.tc : Thread nD τ).loc main_arg13) := by
  show StableHlo.after hostOps0 (W0 m ρ c) (Proc.devRef .tc main_arg13) = _
  after_results_simp <;> rfl

/-- The second layer's first shift vector is as launched. -/
theorem be3_at_entry (c : Dev nD) : V1 m ρ c main_arg14 = m ((c.tc : Thread nD τ).loc main_arg14) := by
  show StableHlo.after hostOps0 (W0 m ρ c) (Proc.devRef .tc main_arg14) = _
  after_results_simp <;> rfl

/-- The second layer's second weight matrix is as launched. -/
theorem w4_at_entry (c : Dev nD) : V1 m ρ c main_arg15 = m ((c.tc : Thread nD τ).loc main_arg15) := by
  show StableHlo.after hostOps0 (W0 m ρ c) (Proc.devRef .tc main_arg15) = _
  after_results_simp <;> rfl

/-- The second layer's second bias vector is as launched. -/
theorem b4_at_entry (c : Dev nD) : V1 m ρ c main_arg16 = m ((c.tc : Thread nD τ).loc main_arg16) := by
  show StableHlo.after hostOps0 (W0 m ρ c) (Proc.devRef .tc main_arg16) = _
  after_results_simp <;> rfl

/-- The second layer's second scale vector is as launched. -/
theorem g4_at_entry (c : Dev nD) : V1 m ρ c main_arg17 = m ((c.tc : Thread nD τ).loc main_arg17) := by
  show StableHlo.after hostOps0 (W0 m ρ c) (Proc.devRef .tc main_arg17) = _
  after_results_simp <;> rfl

/-- The second layer's second shift vector is as launched. -/
theorem be4_at_entry (c : Dev nD) : V1 m ρ c main_arg18 = m ((c.tc : Thread nD τ).loc main_arg18) := by
  show StableHlo.after hostOps0 (W0 m ρ c) (Proc.devRef .tc main_arg18) = _
  after_results_simp <;> rfl

/-- The readout's weight matrix is as launched. -/
theorem wout_at_entry (c : Dev nD) : V1 m ρ c main_arg19 = m ((c.tc : Thread nD τ).loc main_arg19) := by
  show StableHlo.after hostOps0 (W0 m ρ c) (Proc.devRef .tc main_arg19) = _
  after_results_simp <;> rfl

/-- The readout's bias vector is as launched. -/
theorem bout_at_entry (c : Dev nD) : V1 m ρ c main_arg20 = m ((c.tc : Thread nD τ).loc main_arg20) := by
  show StableHlo.after hostOps0 (W0 m ρ c) (Proc.devRef .tc main_arg20) = _
  after_results_simp <;> rfl

/-! ## Reads at an entry -/

/-- A vector kept as a [1, 256] row reads, at (0, k), the vector at k. -/
theorem row_apply (v : S256.Idx → EReal) (k : Fin 256) :
    shapeCast S1x256 v shapeCasts_S256_S1x256 (ix2 (0 : Fin 1) k) = v (ix1 k) :=
  shapeCast_apply v shapeCasts_S256_S1x256 (ix2 (0 : Fin 1) k) (ix1 k)
    (by rewrite [Shape.rowMajor_val_two, Shape.rowMajor_val_one]; show k.val = 0 * 256 + k.val; omega)

/-- A 0/1 bit converted to a float is 1 for the set bit and 0 for the clear one. -/
theorem uitofp_bit (b : BitVec 1) : (FloatOps.uitofp (F := Ideal) .bf16 b : EReal) = if b = 1#1 then 1 else 0 := by
  have hb : b = 0#1 ∨ b = 1#1 := by
    have := b.isLt
    rcases Nat.lt_or_ge b.toNat 1 with h | h
    · left; apply BitVec.eq_of_toNat_eq; simp only [BitVec.toNat_ofNat]; omega
    · right; apply BitVec.eq_of_toNat_eq; simp only [BitVec.toNat_ofNat]; omega
  rcases hb with rfl | rfl
  · show (((0#1 : BitVec 1).toNat : ℝ) : EReal) = _
    rw [if_neg (by decide)]; simp
  · show (((1#1 : BitVec 1).toNat : ℝ) : EReal) = _
    rw [if_pos rfl]; simp

/-- The membership matrix at (i, g): 1 when node i's id word is graph g's word, else 0. -/
theorem onehot_apply (c : Dev nD) (i : Fin 40000) (g : Fin 64) :
    (V1 m ρ c main_v16 : S40000x64.Idx → EReal) (ix2 i g)
      = GinSpec.member (m ((c.tc : Thread nD τ).loc main_arg2) (ix1 i)) g := by
  rw [onehot_at_entry]
  show FloatOps.uitofp (F := Ideal) .bf16 (IntOp.cmpi .eq
      (broadcastInDim S40000x64 ![0, 1] bcast_S40000x1_S40000x64_0_1 (broadcastInDim S40000x1 ![0] bcast_S40000_S40000x1_0 (m ((c.tc : Thread nD τ).loc main_arg2))) (ix2 i g))
      (broadcastInDim S40000x64 ![0, 1] bcast_S1x64_S40000x64_0_1 (broadcastInDim S1x64 ![1] bcast_S64_S1x64_1 (iotaInDim S64 32 0)) (ix2 i g))) = _
  rw [show broadcastInDim S40000x64 ![0, 1] bcast_S40000x1_S40000x64_0_1 (broadcastInDim S40000x1 ![0] bcast_S40000_S40000x1_0 (m ((c.tc : Thread nD τ).loc main_arg2))) (ix2 i g)
        = m ((c.tc : Thread nD τ).loc main_arg2) (ix1 i) from
      (StableHlo.Predicate.bcast_rows bcast_S40000_S40000x1_0 bcast_S40000x1_S40000x64_0_1 _ i g).trans
        (congrArg _ (funext fun d => by match d with | ⟨0, _⟩ => exact Fin.ext rfl)),
    show broadcastInDim S40000x64 ![0, 1] bcast_S1x64_S40000x64_0_1 (broadcastInDim S1x64 ![1] bcast_S64_S1x64_1 (iotaInDim S64 32 0)) (ix2 i g)
        = BitVec.ofNat 32 g.val from
      (StableHlo.Predicate.bcast_cols bcast_S64_S1x64_1 bcast_S1x64_S40000x64_0_1 _ i g).trans (StableHlo.Predicate.iota_apply g)]
  rw [uitofp_bit]
  unfold GinSpec.member
  by_cases hb : m ((c.tc : Thread nD τ).loc main_arg2) (ix1 i) = BitVec.ofNat 32 g.val
  · rw [if_pos (StableHlo.Predicate.cmpi_eq_iff.mpr hb), if_pos hb]
  · rw [if_neg (fun h => hb (StableHlo.Predicate.cmpi_eq_iff.mp h)), if_neg hb]

end Cert.KernelIdeal.Entry

end
-- ==== Proof.LibMatmulAt.lean ====
/-
  A PLAIN MATRIX PRODUCT READ AT AN INDEX. A tpu.matmul of an M x K block with a K x N matrix into the zero splat,
  at the ideal instance, read at (p, q): the sum over k of l (p, k) * r (k, q).

  The lemma takes the dimension numbers d as given and asks for the four facts that say which operand coordinate an
  output index j and a contraction index k are sent to (left: (j 0, k); right: (k, j 1)) and that the contraction
  shape has one axis of extent K. For a printed record with contracting dims [1] x [0] and no batch axes each is one
  line: the two non-contracting ones by unfolding DotDims.lhsIdx / rhsIdx at the literal axis (dif_neg on the batch
  list, dif_pos on the non-contracting list, both decided), the two contracting ones by
  DotDims.lhsIdx_val_of_single rfl / rhsIdx_val_of_single rfl, the contraction shape's by rfl.
-/
import Idealize.ShloMosaic.PureOps.Ideal.Laws
import Idealize.ShloMosaic.Lib.ValueIdx

noncomputable section

namespace Idealize.ShloMosaic.MatmulAt

open Idealize.ShloMosaic Idealize.ShloMosaic.ValueIdx

/-- A product of an M x K block with a K x N matrix into a zero accumulator, at (p, q): the sum over k of the
    entries' products, given where the dimension numbers send an output index and a contraction index. -/
theorem matmul_at {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (l0 : ∀ (j : (⟨2, ![M, N]⟩ : Shape).Idx) (q : d.contr.Idx), (d.lhsIdx j q 0).val = (j 0).val)
    (l1 : ∀ (j : (⟨2, ![M, N]⟩ : Shape).Idx) (q : d.contr.Idx), (d.lhsIdx j q 1).val = (q ⟨0, by omega⟩).val)
    (r0 : ∀ (j : (⟨2, ![M, N]⟩ : Shape).Idx) (q : d.contr.Idx), (d.rhsIdx j q 0).val = (q ⟨0, by omega⟩).val)
    (r1 : ∀ (j : (⟨2, ![M, N]⟩ : Shape).Idx) (q : d.contr.Idx), (d.rhsIdx j q 1).val = (j 1).val)
    (prec : Option ContractPrecision) (l : FVec Ideal ⟨2, ![M, K]⟩ φ₁) (r : FVec Ideal ⟨2, ![K, N]⟩ φ₂)
    (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact l0 _ _
    | ⟨1, _⟩ => exact (l1 _ _).trans hk)
  have er : d.rhsIdx (ix2 p q) ((contrEquiv1 d K hr hs).symm k) = ix2 k q := funext fun a => Fin.ext (by
    match a with
    | ⟨0, _⟩ => exact (r0 _ _).trans hk
    | ⟨1, _⟩ => exact r1 _ _)
  rw [el, er]

end Idealize.ShloMosaic.MatmulAt

end
-- ==== Proof.LibDotAt.lean ====
/-
  A PLAIN DOT PRODUCT ON THE HOST READ AT AN INDEX, and the axis facts of plain dimension numbers.

  For dimension numbers of an M x K by K x N product with no batch axes — contracting [1] x [0], free axes [0] and [1] —
  the operand indices at an output index j and a contraction index k are (j 0, k) on the left and (k, j 1) on the right
  (`plain_l0` … `plain_r1`, each from the lists alone). With them a host dot_general at the ideal instance, read at (p, q),
  is the sum over k of l (p, k) * r (k, q) (`dotGeneral_plain`), and so is a matrix product into the zero splat
  (`matmul_plain`): the two are one function of their operands.
-/
import Idealize.ShloMosaic.PureOps.Ideal.Laws
import Idealize.ShloMosaic.Lib.ValueIdx
import proofs.«420224_j87299505258672_1_alg».proof.Proof.LibMatmulAt

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

/-- The left operand's free axis follows the output's axis 0. -/
theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand's free axis follows the output's axis 1. -/
theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A host dot_general with plain dimension numbers, at the ideal instance, read at (p, q). -/
theorem dotGeneral_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

/-- A matrix product with plain dimension numbers into the zero splat, at the ideal instance, read at (p, q). -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) :=
  MatmulAt.matmul_at d hr hs (plain_l0 d hlb hln) (fun j q => d.lhsIdx_val_of_single hlc j q)
    (fun j q => d.rhsIdx_val_of_single hrc j q) (plain_r1 d hlb hrb hln hrn) prec l r p q

end Idealize.ShloMosaic.DotAt

end
-- ==== Proof.KMlp0.lean ====
/-
  THE FIRST PERCEPTRON REGION, READ AS A WHOLE ARRAY.

  The region walks 20 grid points. At point t it holds rows 2000 t … 2000 t + 1999 of the node features x and of the
  summed neighbour features agg, and the whole of the two weight matrices and of the six [1, 256] rows (bias, scale and
  shift of each layer). On that block the body computes

      relu (g2 * ((relu (g1 * (((x + agg) W1 + b1) * c) + be1) W2 + b2) * c) + be2),   c the folded normalisation constant.

  On the extended reals the casts to the narrower format are the identity and each product into the zero splat is the
  plain sum over the contracted axis, so entry (r, q) of the block's result is the perceptron of row r of the block
  (block_value): no other row enters. Row r of block t is row 2000 t + r of the arrays (bX_at, bAgg_at, out_emb) and
  the weight and row windows are the whole arrays at every point (bW1_eq … bBe2_eq), so what point t writes back is
  block t of ONE function of the arrays (flushed_eq). The 20 blocks tile the 40000 rows, row p lying in block p / 2000
  (covered); hence the array left behind is that function (out_eq), which is the statement (value).
-/
import proofs.«420224_j87299505258672_1_alg».proof.Proof.Gen.KernelIdeal.Frame
import proofs.«420224_j87299505258672_1_alg».proof.Proof.Spec
import proofs.«420224_j87299505258672_1_alg».proof.Proof.LibDotAt
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Mlp0

open Cert.KernelIdeal Cert.KernelIdeal.Gen

variable (V : (c : Dev nD) → (b : Ref sig .tc) → Buf (Elt Ideal) ((c : Thread nD τ).loc b))

/-- The region's arrays as it finds them, each at its literal type. -/
abbrev aX (c : Dev nD) : FVec Ideal S40000x128 .f32 := V c main_arg0
abbrev aAgg (c : Dev nD) : FVec Ideal S40000x128 .f32 := V c main_v26
abbrev aW1 (c : Dev nD) : FVec Ideal S128x256 .f32 := V c main_arg3
abbrev aB1 (c : Dev nD) : FVec Ideal S1x256 .f32 := V c main_v27
abbrev aG1 (c : Dev nD) : FVec Ideal S1x256 .f32 := V c main_v28
abbrev aBe1 (c : Dev nD) : FVec Ideal S1x256 .f32 := V c main_v29
abbrev aW2 (c : Dev nD) : FVec Ideal S256x256 .f32 := V c main_arg7
abbrev aB2 (c : Dev nD) : FVec Ideal S1x256 .f32 := V c main_v30
abbrev aG2 (c : Dev nD) : FVec Ideal S1x256 .f32 := V c main_v31
abbrev aBe2 (c : Dev nD) : FVec Ideal S1x256 .f32 := V c main_v32
/-- The region's output array when the region is left. -/
abbrev aOut (c : Dev nD) : FVec Ideal S40000x256 .f32 := (dat0 (F := Ideal) V c).arrAt 10 cfg0.N

/-! ## One block -/

/-- The offsets of a whole-buffer access are zero on both axes. -/
theorem zero_offsets : (![0, 0] : Fin 2 → Nat) = fun _ => 0 := funext fun a => by fin_cases a <;> rfl

/-- A [1, 256] row broadcast over 2000 rows, read at (r, q): the row's entry at q. -/
theorem row_at (v : FVec Ideal S1x256 .f32) (h : S1x256.Broadcasts S2000x256) (r : Fin 2000) (q : Fin 256) :
    broadcastTo S2000x256 v h (ix2 r q) = v (ix2 0 q) :=
  broadcastTo_1b_ab_apply v h r q

/-- The first product, a block of 2000 rows by the 128 x 256 weights into the zero splat, at (r, q). -/
theorem mm1_at {φ₁ φ₂ : FTy} (l : FVec Ideal S2000x128 φ₁) (w : FVec Ideal S128x256 φ₂) (r : Fin 2000) (q : Fin 256) :
    matmul dot_S2000x128_S128x256_S2000x256_1_0_0_1_n_n none l w (constant S2000x256 .f32 0x00000000#32) (ix2 r q)
      = ∑ k : Fin 128, l (ix2 r k) * w (ix2 k q) :=
  DotAt.matmul_plain dot_S2000x128_S128x256_S2000x256_1_0_0_1_n_n rfl rfl rfl rfl rfl rfl rfl rfl none l w r q

/-- The second product, a block of 2000 rows by the 256 x 256 weights into the zero splat, at (r, q). -/
theorem mm2_at {φ₁ φ₂ : FTy} (l : FVec Ideal S2000x256 φ₁) (w : FVec Ideal S256x256 φ₂) (r : Fin 2000) (q : Fin 256) :
    matmul dot_S2000x256_S256x256_S2000x256_1_0_0_1_n_n none l w (constant S2000x256 .f32 0x00000000#32) (ix2 r q)
      = ∑ k : Fin 256, l (ix2 r k) * w (ix2 k q) :=
  DotAt.matmul_plain dot_S2000x256_S256x256_S2000x256_1_0_0_1_n_n rfl rfl rfl rfl rfl rfl rfl rfl none l w r q

/-- One block: the value the body stores at row r and column q of the block is the perceptron of row r of the input
    blocks. -/
theorem block_value (x0 x1 : FVec Ideal S2000x128 .f32) (x2 : FVec Ideal S128x256 .f32) (x3 x4 x5 : FVec Ideal S1x256 .f32)
    (x6 : FVec Ideal S256x256 .f32) (x7 x8 x9 : FVec Ideal S1x256 .f32) (r : Fin 2000) (q : Fin 256) :
    out0_10 (F := Ideal) x0 x1 x2 x3 x4 x5 x6 x7 x8 x9 (ix2 r q)
      = GinSpec.mlpRow (fun j : Fin 128 => x0 (ix2 r j) + x1 (ix2 r j))
          (fun j k => x2 (ix2 j k))
          (fun k => x3 (ix2 0 k)) (fun k => x4 (ix2 0 k)) (fun k => x5 (ix2 0 k))
          (fun k q' => x6 (ix2 k q'))
          (fun k => x7 (ix2 0 k)) (fun k => x8 (ix2 0 k)) (fun k => x9 (ix2 0 k)) q := by
  unfold out0_10
  rw [View.canon_unit_zero zero_offsets]
  simp only [View.ld_unit_zero (S := S2000x128) zero_offsets, View.ld_unit_zero (S := S128x256) zero_offsets,
    View.ld_unit_zero (S := S1x256) zero_offsets, View.ld_unit_zero (S := S256x256) zero_offsets]
  unfold k0_pay1 k0_pay2 k0_pay3
  simp only [maximumf_apply, addf_apply, mulf_apply, broadcast_apply, row_at, mm1_at, mm2_at, truncf_apply, shapeCast_self,
    Ideal.ofBits_def, Ideal.ofBits_zero_f32]
  unfold GinSpec.mlpRow GinSpec.dense GinSpec.cN
  rfl

/-! ## From the blocks to the array -/

/-- The perceptron of node p's row of the region's arrays, at column q. -/
abbrev nodeValue (c : Dev nD) (p : Fin 40000) (q : Fin 256) : EReal :=
  GinSpec.mlpRow (fun j : Fin 128 => aX V c (ix2 p j) + aAgg V c (ix2 p j))
    (fun j k => aW1 V c (ix2 j k))
    (fun k => aB1 V c (ix2 0 k)) (fun k => aG1 V c (ix2 0 k)) (fun k => aBe1 V c (ix2 0 k))
    (fun k q' => aW2 V c (ix2 k q'))
    (fun k => aB2 V c (ix2 0 k)) (fun k => aG2 V c (ix2 0 k)) (fun k => aBe2 V c (ix2 0 k)) q

/-- The whole output array as one function of the input arrays: entry (p, q) is node p's perceptron at q. -/
abbrev wholeValue (c : Dev nD) : FVec Ideal S40000x256 .f32 := fun i => nodeValue V c (i 0) (i 1)

/-- The input blocks at a grid point, each at its literal type. -/
abbrev bX (c : Dev nD) (t : Fin cfg0.N) : FVec Ideal S2000x128 .f32 := iblk0 V c 0 t
abbrev bAgg (c : Dev nD) (t : Fin cfg0.N) : FVec Ideal S2000x128 .f32 := iblk0 V c 1 t
abbrev bW1 (c : Dev nD) (t : Fin cfg0.N) : FVec Ideal S128x256 .f32 := iblk0 V c 2 t
abbrev bB1 (c : Dev nD) (t : Fin cfg0.N) : FVec Ideal S1x256 .f32 := iblk0 V c 3 t
abbrev bG1 (c : Dev nD) (t : Fin cfg0.N) : FVec Ideal S1x256 .f32 := iblk0 V c 4 t
abbrev bBe1 (c : Dev nD) (t : Fin cfg0.N) : FVec Ideal S1x256 .f32 := iblk0 V c 5 t
abbrev bW2 (c : Dev nD) (t : Fin cfg0.N) : FVec Ideal S256x256 .f32 := iblk0 V c 6 t
abbrev bB2 (c : Dev nD) (t : Fin cfg0.N) : FVec Ideal S1x256 .f32 := iblk0 V c 7 t
abbrev bG2 (c : Dev nD) (t : Fin cfg0.N) : FVec Ideal S1x256 .f32 := iblk0 V c 8 t
abbrev bBe2 (c : Dev nD) (t : Fin cfg0.N) : FVec Ideal S1x256 .f32 := iblk0 V c 9 t

/-- The printed index maps over the grid: the three row-blocked windows sit at block row t, column block 0; the
    weight and bias windows at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0 :=
  (by decide +kernel : ∀ t : Fin grid0.N, _)

/-- Row r of block t of the node features is row 2000 t + r of the array. -/
theorem bX_at (c : Dev nD) (t : Fin cfg0.N) (r : Fin 2000) (j : Fin 128) (p : Fin 40000) (hp : p.val = 2000 * t.val + r.val) :
    bX V c t (ix2 r j) = aX V c (ix2 p j) := by
  obtain ⟨e0, e1, -⟩ := index_facts t
  show V c main_arg0 (((cfg0.win 0).blk t).view.emb (ix2 r j)) = V c main_arg0 (ix2 p j)
  congr 1
  funext a; apply Fin.ext
  match a with
  | ⟨0, _⟩ => show win0_0.index t (0 : Fin 2) * 2000 + 1 * r.val = p.val; omega
  | ⟨1, _⟩ => show win0_0.index t (1 : Fin 2) * 128 + 1 * j.val = j.val; omega

/-- Row r of block t of the aggregated neighbour features is row 2000 t + r of the array. -/
theorem bAgg_at (c : Dev nD) (t : Fin cfg0.N) (r : Fin 2000) (j : Fin 128) (p : Fin 40000) (hp : p.val = 2000 * t.val + r.val) :
    bAgg V c t (ix2 r j) = aAgg V c (ix2 p j) := by
  obtain ⟨-, -, e0, e1, -⟩ := index_facts t
  show V c main_v26 (((cfg0.win 1).blk t).view.emb (ix2 r j)) = V c main_v26 (ix2 p j)
  congr 1
  funext a; apply Fin.ext
  match a with
  | ⟨0, _⟩ => show win0_1.index t (0 : Fin 2) * 2000 + 1 * r.val = p.val; omega
  | ⟨1, _⟩ => show win0_1.index t (1 : Fin 2) * 128 + 1 * j.val = j.val; omega

/-- The weight and bias windows are the whole arrays at every point. -/
theorem bW1_eq (c : Dev nD) (t : Fin cfg0.N) : bW1 V c t = aW1 V c := by
  obtain ⟨-, -, -, -, -, -, e0, e1, -⟩ := index_facts t
  funext y
  show V c main_arg3 (((cfg0.win 2).blk t).view.emb y) = V c main_arg3 y
  congr 1
  funext a; apply Fin.ext
  match a with
  | ⟨0, _⟩ => show win0_2.index t (0 : Fin 2) * 128 + 1 * (y 0).val = (y 0).val; omega
  | ⟨1, _⟩ => show win0_2.index t (1 : Fin 2) * 256 + 1 * (y 1).val = (y 1).val; omega

theorem bB1_eq (c : Dev nD) (t : Fin cfg0.N) : bB1 V c t = aB1 V c := by
  obtain ⟨-, -, -, -, -, -, -, -, e0, e1, -⟩ := index_facts t
  funext y
  show V c main_v27 (((cfg0.win 3).blk t).view.emb y) = V c main_v27 y
  congr 1
  funext a; apply Fin.ext
  match a with
  | ⟨0, _⟩ => show win0_3.index t (0 : Fin 2) * 1 + 1 * (y 0).val = (y 0).val; omega
  | ⟨1, _⟩ => show win0_3.index t (1 : Fin 2) * 256 + 1 * (y 1).val = (y 1).val; omega

theorem bG1_eq (c : Dev nD) (t : Fin cfg0.N) : bG1 V c t = aG1 V c := by
  obtain ⟨-, -, -, -, -, -, -, -, -, -, e0, e1, -⟩ := index_facts t
  funext y
  show V c main_v28 (((cfg0.win 4).blk t).view.emb y) = V c main_v28 y
  congr 1
  funext a; apply Fin.ext
  match a with
  | ⟨0, _⟩ => show win0_4.index t (0 : Fin 2) * 1 + 1 * (y 0).val = (y 0).val; omega
  | ⟨1, _⟩ => show win0_4.index t (1 : Fin 2) * 256 + 1 * (y 1).val = (y 1).val; omega

theorem bBe1_eq (c : Dev nD) (t : Fin cfg0.N) : bBe1 V c t = aBe1 V c := by
  obtain ⟨-, -, -, -, -, -, -, -, -, -, -, -, e0, e1, -⟩ := index_facts t
  funext y
  show V c main_v29 (((cfg0.win 5).blk t).view.emb y) = V c main_v29 y
  congr 1
  funext a; apply Fin.ext
  match a with
  | ⟨0, _⟩ => show win0_5.index t (0 : Fin 2) * 1 + 1 * (y 0).val = (y 0).val; omega
  | ⟨1, _⟩ => show win0_5.index t (1 : Fin 2) * 256 + 1 * (y 1).val = (y 1).val; omega

theorem bW2_eq (c : Dev nD) (t : Fin cfg0.N) : bW2 V c t = aW2 V c := by
  obtain ⟨-, -, -, -, -, -, -, -, -, -, -, -, -, -, e0, e1, -⟩ := index_facts t
  funext y
  show V c main_arg7 (((cfg0.win 6).blk t).view.emb y) = V c main_arg7 y
  congr 1
  funext a; apply Fin.ext
  match a with
  | ⟨0, _⟩ => show win0_6.index t (0 : Fin 2) * 256 + 1 * (y 0).val = (y 0).val; omega
  | ⟨1, _⟩ => show win0_6.index t (1 : Fin 2) * 256 + 1 * (y 1).val = (y 1).val; omega

theorem bB2_eq (c : Dev nD) (t : Fin cfg0.N) : bB2 V c t = aB2 V c := by
  obtain ⟨-, -, -, -, -, -, -, -, -, -, -, -, -, -, -, -, e0, e1, -⟩ := index_facts t
  funext y
  show V c main_v30 (((cfg0.win 7).blk t).view.emb y) = V c main_v30 y
  congr 1
  funext a; apply Fin.ext
  match a with
  | ⟨0, _⟩ => show win0_7.index t (0 : Fin 2) * 1 + 1 * (y 0).val = (y 0).val; omega
  | ⟨1, _⟩ => show win0_7.index t (1 : Fin 2) * 256 + 1 * (y 1).val = (y 1).val; omega

theorem bG2_eq (c : Dev nD) (t : Fin cfg0.N) : bG2 V c t = aG2 V c := by
  obtain ⟨-, -, -, -, -, -, -, -, -, -, -, -, -, -, -, -, -, -, e0, e1, -⟩ := index_facts t
  funext y
  show V c main_v31 (((cfg0.win 8).blk t).view.emb y) = V c main_v31 y
  congr 1
  funext a; apply Fin.ext
  match a with
  | ⟨0, _⟩ => show win0_8.index t (0 : Fin 2) * 1 + 1 * (y 0).val = (y 0).val; omega
  | ⟨1, _⟩ => show win0_8.index t (1 : Fin 2) * 256 + 1 * (y 1).val = (y 1).val; omega

theorem bBe2_eq (c : Dev nD) (t : Fin cfg0.N) : bBe2 V c t = aBe2 V c := by
  obtain ⟨-, -, -, -, -, -, -, -, -, -, -, -, -, -, -, -, -, -, -, -, e0, e1⟩ := index_facts t
  funext y
  show V c main_v32 (((cfg0.win 9).blk t).view.emb y) = V c main_v32 y
  congr 1
  funext a; apply Fin.ext
  match a with
  | ⟨0, _⟩ => show win0_9.index t (0 : Fin 2) * 1 + 1 * (y 0).val = (y 0).val; omega
  | ⟨1, _⟩ => show win0_9.index t (1 : Fin 2) * 256 + 1 * (y 1).val = (y 1).val; omega

/-- Entry (r, q) of the output's block t sits at row 2000 t + r, column q of the array. -/
theorem out_emb (t : Fin cfg0.N) (r : Fin 2000) (q : Fin 256) (p : Fin 40000) (hp : p.val = 2000 * t.val + r.val) :
    ((cfg0.win 10).blk t).view.emb (ix2 r q) = (ix2 p q : S40000x256.Idx) := by
  obtain ⟨-, -, -, -, e0, e1, -⟩ := index_facts t
  funext a; apply Fin.ext
  match a with
  | ⟨0, _⟩ => show win0_10.index t (0 : Fin 2) * 2000 + 1 * r.val = p.val; omega
  | ⟨1, _⟩ => show win0_10.index t (1 : Fin 2) * 256 + 1 * q.val = q.val; omega

/-- What point t writes back is block t of the whole-array function. -/
theorem flushed_eq (c : Dev nD) (t : Fin cfg0.N) :
    (dat0 (F := Ideal) V c).flushed 10 t = ((cfg0.win 10).blk t).view.read (Elt Ideal) (wholeValue V c) := by
  show (cfg0.win 10).cut (grid0.coords t) ((dat0 (F := Ideal) V c).after 10 t) = _
  rw [after0_10]
  funext y
  obtain ⟨r, q, rfl⟩ : ∃ (r : Fin 2000) (q : Fin 256), y = ix2 r q := ⟨y 0, y 1, eq_ix2 y⟩
  have ht : t.val < 20 := Nat.lt_of_lt_of_eq t.isLt N_0
  have hp : 2000 * t.val + r.val < 40000 := by have := r.isLt; omega
  refine (block_value (bX V c t) (bAgg V c t) (bW1 V c t) (bB1 V c t) (bG1 V c t) (bBe1 V c t) (bW2 V c t) (bB2 V c t)
    (bG2 V c t) (bBe2 V c t) r q).trans ?_
  show _ = wholeValue V c (((cfg0.win 10).blk t).view.emb (ix2 r q))
  rw [out_emb t r q ⟨2000 * t.val + r.val, hp⟩ rfl, bW1_eq, bB1_eq, bG1_eq, bBe1_eq, bW2_eq, bB2_eq, bG2_eq, bBe2_eq]
  show GinSpec.mlpRow _ _ _ _ _ _ _ _ _ q = GinSpec.mlpRow _ _ _ _ _ _ _ _ _ q
  congr 1
  funext j
  rw [bX_at V c t r j ⟨2000 * t.val + r.val, hp⟩ rfl, bAgg_at V c t r j ⟨2000 * t.val + r.val, hp⟩ rfl]

/-- An index of the array is in point t's block iff each coordinate is in the block's range on its axis. -/
theorem mem_block (t : Fin cfg0.N) (i : S40000x256.Idx) :
    i ∈ ((cfg0.win 10).blk t).view.set ↔ ∀ a : Fin 2, win0_10.index t a * S2000x256.size a ≤ (i a).val
      ∧ (i a).val < win0_10.index t a * S2000x256.size a + S2000x256.size a := by
  show i ∈ ((View.whole main_v33).slice (win0_10.rect t)).set ↔ _
  rw [View.set_slice_whole, Rect.mem_set_unit]
  exact Iff.rfl

/-- Every entry of the array is written back by some point: row p by point p / 2000. -/
theorem covered (i : S40000x256.Idx) :
    ∃ t : Fin cfg0.N, (cfg0.win 10).flush t = true ∧ i ∈ ((cfg0.win 10).blk t).view.set := by
  have h0 : (i 0).val < 40000 := (i 0).isLt
  have h1 : (i 1).val < 256 := (i 1).isLt
  have hN : cfg0.N = 20 := N_0
  refine ⟨⟨(i 0).val / 2000, by rw [hN]; omega⟩, flush0_10 _, ?_⟩
  rw [mem_block]
  obtain ⟨-, -, -, -, e0, e1, -⟩ := index_facts ⟨(i 0).val / 2000, by rw [hN]; omega⟩
  intro a
  match a with
  | ⟨0, _⟩ =>
    show win0_10.index _ (0 : Fin 2) * 2000 ≤ (i 0).val ∧ (i 0).val < win0_10.index _ (0 : Fin 2) * 2000 + 2000
    rw [e0]; show (i 0).val / 2000 * 2000 ≤ (i 0).val ∧ (i 0).val < (i 0).val / 2000 * 2000 + 2000; omega
  | ⟨1, _⟩ =>
    show win0_10.index _ (1 : Fin 2) * 256 ≤ (i 1).val ∧ (i 1).val < win0_10.index _ (1 : Fin 2) * 256 + 256
    rw [e1]; omega

/-- The output array when the region is left is the whole-array function. -/
theorem out_eq (c : Dev nD) : aOut V c = wholeValue V c :=
  (dat0 (F := Ideal) V c).arrAt_eq_of_cover 10 (wholeValue V c) (fun t _ => flushed_eq V c t) covered

/-- Region 0's output array when the region is left, read at node p and column q: the perceptron of that node's row. -/
theorem value (c : Dev nD) (p : Fin 40000) (q : Fin 256) :
    aOut V c (ix2 p q)
      = GinSpec.mlpRow (fun j : Fin 128 => aX V c (ix2 p j) + aAgg V c (ix2 p j))
          (fun j k => aW1 V c (ix2 j k))
          (fun k => aB1 V c (ix2 0 k)) (fun k => aG1 V c (ix2 0 k)) (fun k => aBe1 V c (ix2 0 k))
          (fun k q' => aW2 V c (ix2 k q'))
          (fun k => aB2 V c (ix2 0 k)) (fun k => aG2 V c (ix2 0 k)) (fun k => aBe2 V c (ix2 0 k)) q :=
  congrFun (out_eq V c) (ix2 p q)

end Cert.KernelIdeal.Mlp0

end
-- ==== Proof.KMlp2.lean ====
/- THE SECOND PERCEPTRON REGION, READ AS A WHOLE ARRAY.

  The same perceptron one layer later: the node features are now the first region's 256 columns, the neighbour sums
  are taken of those, and both weight matrices are 256 x 256. The region walks 20 grid points; at point t it holds rows
  2000 t … 2000 t + 1999 of x and agg and the whole of the weights and of the six [1, 256] rows, and on that block the
  body computes

      relu (g2 * ((relu (g1 * (((x + agg) W1 + b1) * c) + be1) W2 + b2) * c) + be2),   c the folded normalisation constant.

  On the extended reals the casts to the narrower format are the identity and each product into the zero splat is the
  plain sum over the contracted axis, so entry (r, q) of the block's result is the perceptron of row r of the block
  (block_value). Row r of block t is row 2000 t + r of the arrays (bX_at, bAgg_at, out_emb), the weight and row
  windows are the whole arrays at every point (bW1_eq … bBe2_eq), so what point t writes back is block t of ONE
  function of the arrays (flushed_eq); the 20 blocks tile the 40000 rows, row p lying in block p / 2000 (covered);
  hence the array left behind is that function (out_eq), which is the statement (value).
-/
import proofs.«420224_j87299505258672_1_alg».proof.Proof.Gen.KernelIdeal.Frame
import proofs.«420224_j87299505258672_1_alg».proof.Proof.Spec
import proofs.«420224_j87299505258672_1_alg».proof.Proof.LibDotAt
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Mlp2

open Cert.KernelIdeal Cert.KernelIdeal.Gen

variable (V : (c : Dev nD) → (b : Ref sig .tc) → Buf (Elt Ideal) ((c : Thread nD τ).loc b))

/-- The region's arrays as it finds them, each at its literal type. -/
abbrev aX (c : Dev nD) : FVec Ideal S40000x256 .f32 := V c main_v33
abbrev aAgg (c : Dev nD) : FVec Ideal S40000x256 .f32 := V c main_v46
abbrev aW1 (c : Dev nD) : FVec Ideal S256x256 .f32 := V c main_arg11
abbrev aB1 (c : Dev nD) : FVec Ideal S1x256 .f32 := V c main_v47
abbrev aG1 (c : Dev nD) : FVec Ideal S1x256 .f32 := V c main_v48
abbrev aBe1 (c : Dev nD) : FVec Ideal S1x256 .f32 := V c main_v49
abbrev aW2 (c : Dev nD) : FVec Ideal S256x256 .f32 := V c main_arg15
abbrev aB2 (c : Dev nD) : FVec Ideal S1x256 .f32 := V c main_v50
abbrev aG2 (c : Dev nD) : FVec Ideal S1x256 .f32 := V c main_v51
abbrev aBe2 (c : Dev nD) : FVec Ideal S1x256 .f32 := V c main_v52
/-- The region's output array when the region is left. -/
abbrev aOut (c : Dev nD) : FVec Ideal S40000x256 .f32 := (dat2 (F := Ideal) V c).arrAt 10 cfg2.N

/-! ## One block -/

/-- The offsets of a whole-buffer access are zero on both axes. -/
theorem zero_offsets : (![0, 0] : Fin 2 → Nat) = fun _ => 0 := funext fun a => by fin_cases a <;> rfl

/-- A [1, 256] row broadcast over 2000 rows, read at (r, q): the row's entry at q. -/
theorem row_at (v : FVec Ideal S1x256 .f32) (h : S1x256.Broadcasts S2000x256) (r : Fin 2000) (q : Fin 256) :
    broadcastTo S2000x256 v h (ix2 r q) = v (ix2 0 q) :=
  broadcastTo_1b_ab_apply v h r q

/-- Either product, a block of 2000 rows by 256 x 256 weights into the zero splat, at (r, q). -/
theorem mm_at {φ₁ φ₂ : FTy} (l : FVec Ideal S2000x256 φ₁) (w : FVec Ideal S256x256 φ₂) (r : Fin 2000) (q : Fin 256) :
    matmul dot_S2000x256_S256x256_S2000x256_1_0_0_1_n_n none l w (constant S2000x256 .f32 0x00000000#32) (ix2 r q)
      = ∑ k : Fin 256, l (ix2 r k) * w (ix2 k q) :=
  DotAt.matmul_plain dot_S2000x256_S256x256_S2000x256_1_0_0_1_n_n rfl rfl rfl rfl rfl rfl rfl rfl none l w r q

/-- One block: the value the body stores at row r and column q of the block is the perceptron of row r of the input
    blocks. -/
theorem block_value (x0 x1 : FVec Ideal S2000x256 .f32) (x2 : FVec Ideal S256x256 .f32) (x3 x4 x5 : FVec Ideal S1x256 .f32)
    (x6 : FVec Ideal S256x256 .f32) (x7 x8 x9 : FVec Ideal S1x256 .f32) (r : Fin 2000) (q : Fin 256) :
    out2_10 (F := Ideal) x0 x1 x2 x3 x4 x5 x6 x7 x8 x9 (ix2 r q)
      = GinSpec.mlpRow (fun j : Fin 256 => x0 (ix2 r j) + x1 (ix2 r j))
          (fun j k => x2 (ix2 j k))
          (fun k => x3 (ix2 0 k)) (fun k => x4 (ix2 0 k)) (fun k => x5 (ix2 0 k))
          (fun k q' => x6 (ix2 k q'))
          (fun k => x7 (ix2 0 k)) (fun k => x8 (ix2 0 k)) (fun k => x9 (ix2 0 k)) q := by
  unfold out2_10
  rw [View.canon_unit_zero zero_offsets]
  simp only [View.ld_unit_zero (S := S2000x256) zero_offsets, View.ld_unit_zero (S := S256x256) zero_offsets,
    View.ld_unit_zero (S := S1x256) zero_offsets]
  unfold k2_pay1 k2_pay2 k2_pay3 k2_pay4
  simp only [maximumf_apply, addf_apply, mulf_apply, broadcast_apply, row_at, mm_at, truncf_apply, shapeCast_self,
    Ideal.ofBits_def, Ideal.ofBits_zero_f32]
  unfold GinSpec.mlpRow GinSpec.dense GinSpec.cN
  rfl

/-! ## From the blocks to the array -/

/-- The perceptron of node p's row of the region's arrays, at column q. -/
abbrev nodeValue (c : Dev nD) (p : Fin 40000) (q : Fin 256) : EReal :=
  GinSpec.mlpRow (fun j : Fin 256 => aX V c (ix2 p j) + aAgg V c (ix2 p j))
    (fun j k => aW1 V c (ix2 j k))
    (fun k => aB1 V c (ix2 0 k)) (fun k => aG1 V c (ix2 0 k)) (fun k => aBe1 V c (ix2 0 k))
    (fun k q' => aW2 V c (ix2 k q'))
    (fun k => aB2 V c (ix2 0 k)) (fun k => aG2 V c (ix2 0 k)) (fun k => aBe2 V c (ix2 0 k)) q

/-- The whole output array as one function of the input arrays: entry (p, q) is node p's perceptron at q. -/
abbrev wholeValue (c : Dev nD) : FVec Ideal S40000x256 .f32 := fun i => nodeValue V c (i 0) (i 1)

/-- The input blocks at a grid point, each at its literal type. -/
abbrev bX (c : Dev nD) (t : Fin cfg2.N) : FVec Ideal S2000x256 .f32 := iblk2 V c 0 t
abbrev bAgg (c : Dev nD) (t : Fin cfg2.N) : FVec Ideal S2000x256 .f32 := iblk2 V c 1 t
abbrev bW1 (c : Dev nD) (t : Fin cfg2.N) : FVec Ideal S256x256 .f32 := iblk2 V c 2 t
abbrev bB1 (c : Dev nD) (t : Fin cfg2.N) : FVec Ideal S1x256 .f32 := iblk2 V c 3 t
abbrev bG1 (c : Dev nD) (t : Fin cfg2.N) : FVec Ideal S1x256 .f32 := iblk2 V c 4 t
abbrev bBe1 (c : Dev nD) (t : Fin cfg2.N) : FVec Ideal S1x256 .f32 := iblk2 V c 5 t
abbrev bW2 (c : Dev nD) (t : Fin cfg2.N) : FVec Ideal S256x256 .f32 := iblk2 V c 6 t
abbrev bB2 (c : Dev nD) (t : Fin cfg2.N) : FVec Ideal S1x256 .f32 := iblk2 V c 7 t
abbrev bG2 (c : Dev nD) (t : Fin cfg2.N) : FVec Ideal S1x256 .f32 := iblk2 V c 8 t
abbrev bBe2 (c : Dev nD) (t : Fin cfg2.N) : FVec Ideal S1x256 .f32 := iblk2 V c 9 t

/-- The printed index maps over the grid: the three row-blocked windows sit at block row t, column block 0; the
    weight and bias windows at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_10.index t (0 : Fin 2) = t.val ∧ win2_10.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = 0 ∧ win2_9.index t (1 : Fin 2) = 0 :=
  (by decide +kernel : ∀ t : Fin grid2.N, _)

/-- Row r of block t of the node features is row 2000 t + r of the array. -/
theorem bX_at (c : Dev nD) (t : Fin cfg2.N) (r : Fin 2000) (j : Fin 256) (p : Fin 40000) (hp : p.val = 2000 * t.val + r.val) :
    bX V c t (ix2 r j) = aX V c (ix2 p j) := by
  obtain ⟨e0, e1, -⟩ := index_facts t
  show V c main_v33 (((cfg2.win 0).blk t).view.emb (ix2 r j)) = V c main_v33 (ix2 p j)
  congr 1
  funext a; apply Fin.ext
  match a with
  | ⟨0, _⟩ => show win2_0.index t (0 : Fin 2) * 2000 + 1 * r.val = p.val; omega
  | ⟨1, _⟩ => show win2_0.index t (1 : Fin 2) * 256 + 1 * j.val = j.val; omega

/-- Row r of block t of the aggregated neighbour features is row 2000 t + r of the array. -/
theorem bAgg_at (c : Dev nD) (t : Fin cfg2.N) (r : Fin 2000) (j : Fin 256) (p : Fin 40000) (hp : p.val = 2000 * t.val + r.val) :
    bAgg V c t (ix2 r j) = aAgg V c (ix2 p j) := by
  obtain ⟨-, -, e0, e1, -⟩ := index_facts t
  show V c main_v46 (((cfg2.win 1).blk t).view.emb (ix2 r j)) = V c main_v46 (ix2 p j)
  congr 1
  funext a; apply Fin.ext
  match a with
  | ⟨0, _⟩ => show win2_1.index t (0 : Fin 2) * 2000 + 1 * r.val = p.val; omega
  | ⟨1, _⟩ => show win2_1.index t (1 : Fin 2) * 256 + 1 * j.val = j.val; omega

/-- The weight and bias windows are the whole arrays at every point. -/
theorem bW1_eq (c : Dev nD) (t : Fin cfg2.N) : bW1 V c t = aW1 V c := by
  obtain ⟨-, -, -, -, -, -, e0, e1, -⟩ := index_facts t
  funext y
  show V c main_arg11 (((cfg2.win 2).blk t).view.emb y) = V c main_arg11 y
  congr 1
  funext a; apply Fin.ext
  match a with
  | ⟨0, _⟩ => show win2_2.index t (0 : Fin 2) * 256 + 1 * (y 0).val = (y 0).val; omega
  | ⟨1, _⟩ => show win2_2.index t (1 : Fin 2) * 256 + 1 * (y 1).val = (y 1).val; omega

theorem bB1_eq (c : Dev nD) (t : Fin cfg2.N) : bB1 V c t = aB1 V c := by
  obtain ⟨-, -, -, -, -, -, -, -, e0, e1, -⟩ := index_facts t
  funext y
  show V c main_v47 (((cfg2.win 3).blk t).view.emb y) = V c main_v47 y
  congr 1
  funext a; apply Fin.ext
  match a with
  | ⟨0, _⟩ => show win2_3.index t (0 : Fin 2) * 1 + 1 * (y 0).val = (y 0).val; omega
  | ⟨1, _⟩ => show win2_3.index t (1 : Fin 2) * 256 + 1 * (y 1).val = (y 1).val; omega

theorem bG1_eq (c : Dev nD) (t : Fin cfg2.N) : bG1 V c t = aG1 V c := by
  obtain ⟨-, -, -, -, -, -, -, -, -, -, e0, e1, -⟩ := index_facts t
  funext y
  show V c main_v48 (((cfg2.win 4).blk t).view.emb y) = V c main_v48 y
  congr 1
  funext a; apply Fin.ext
  match a with
  | ⟨0, _⟩ => show win2_4.index t (0 : Fin 2) * 1 + 1 * (y 0).val = (y 0).val; omega
  | ⟨1, _⟩ => show win2_4.index t (1 : Fin 2) * 256 + 1 * (y 1).val = (y 1).val; omega

theorem bBe1_eq (c : Dev nD) (t : Fin cfg2.N) : bBe1 V c t = aBe1 V c := by
  obtain ⟨-, -, -, -, -, -, -, -, -, -, -, -, e0, e1, -⟩ := index_facts t
  funext y
  show V c main_v49 (((cfg2.win 5).blk t).view.emb y) = V c main_v49 y
  congr 1
  funext a; apply Fin.ext
  match a with
  | ⟨0, _⟩ => show win2_5.index t (0 : Fin 2) * 1 + 1 * (y 0).val = (y 0).val; omega
  | ⟨1, _⟩ => show win2_5.index t (1 : Fin 2) * 256 + 1 * (y 1).val = (y 1).val; omega

theorem bW2_eq (c : Dev nD) (t : Fin cfg2.N) : bW2 V c t = aW2 V c := by
  obtain ⟨-, -, -, -, -, -, -, -, -, -, -, -, -, -, e0, e1, -⟩ := index_facts t
  funext y
  show V c main_arg15 (((cfg2.win 6).blk t).view.emb y) = V c main_arg15 y
  congr 1
  funext a; apply Fin.ext
  match a with
  | ⟨0, _⟩ => show win2_6.index t (0 : Fin 2) * 256 + 1 * (y 0).val = (y 0).val; omega
  | ⟨1, _⟩ => show win2_6.index t (1 : Fin 2) * 256 + 1 * (y 1).val = (y 1).val; omega

theorem bB2_eq (c : Dev nD) (t : Fin cfg2.N) : bB2 V c t = aB2 V c := by
  obtain ⟨-, -, -, -, -, -, -, -, -, -, -, -, -, -, -, -, e0, e1, -⟩ := index_facts t
  funext y
  show V c main_v50 (((cfg2.win 7).blk t).view.emb y) = V c main_v50 y
  congr 1
  funext a; apply Fin.ext
  match a with
  | ⟨0, _⟩ => show win2_7.index t (0 : Fin 2) * 1 + 1 * (y 0).val = (y 0).val; omega
  | ⟨1, _⟩ => show win2_7.index t (1 : Fin 2) * 256 + 1 * (y 1).val = (y 1).val; omega

theorem bG2_eq (c : Dev nD) (t : Fin cfg2.N) : bG2 V c t = aG2 V c := by
  obtain ⟨-, -, -, -, -, -, -, -, -, -, -, -, -, -, -, -, -, -, e0, e1, -⟩ := index_facts t
  funext y
  show V c main_v51 (((cfg2.win 8).blk t).view.emb y) = V c main_v51 y
  congr 1
  funext a; apply Fin.ext
  match a with
  | ⟨0, _⟩ => show win2_8.index t (0 : Fin 2) * 1 + 1 * (y 0).val = (y 0).val; omega
  | ⟨1, _⟩ => show win2_8.index t (1 : Fin 2) * 256 + 1 * (y 1).val = (y 1).val; omega

theorem bBe2_eq (c : Dev nD) (t : Fin cfg2.N) : bBe2 V c t = aBe2 V c := by
  obtain ⟨-, -, -, -, -, -, -, -, -, -, -, -, -, -, -, -, -, -, -, -, e0, e1⟩ := index_facts t
  funext y
  show V c main_v52 (((cfg2.win 9).blk t).view.emb y) = V c main_v52 y
  congr 1
  funext a; apply Fin.ext
  match a with
  | ⟨0, _⟩ => show win2_9.index t (0 : Fin 2) * 1 + 1 * (y 0).val = (y 0).val; omega
  | ⟨1, _⟩ => show win2_9.index t (1 : Fin 2) * 256 + 1 * (y 1).val = (y 1).val; omega

/-- Entry (r, q) of the output's block t sits at row 2000 t + r, column q of the array. -/
theorem out_emb (t : Fin cfg2.N) (r : Fin 2000) (q : Fin 256) (p : Fin 40000) (hp : p.val = 2000 * t.val + r.val) :
    ((cfg2.win 10).blk t).view.emb (ix2 r q) = (ix2 p q : S40000x256.Idx) := by
  obtain ⟨-, -, -, -, e0, e1, -⟩ := index_facts t
  funext a; apply Fin.ext
  match a with
  | ⟨0, _⟩ => show win2_10.index t (0 : Fin 2) * 2000 + 1 * r.val = p.val; omega
  | ⟨1, _⟩ => show win2_10.index t (1 : Fin 2) * 256 + 1 * q.val = q.val; omega

/-- What point t writes back is block t of the whole-array function. -/
theorem flushed_eq (c : Dev nD) (t : Fin cfg2.N) :
    (dat2 (F := Ideal) V c).flushed 10 t = ((cfg2.win 10).blk t).view.read (Elt Ideal) (wholeValue V c) := by
  show (cfg2.win 10).cut (grid2.coords t) ((dat2 (F := Ideal) V c).after 10 t) = _
  rw [after2_10]
  funext y
  obtain ⟨r, q, rfl⟩ : ∃ (r : Fin 2000) (q : Fin 256), y = ix2 r q := ⟨y 0, y 1, eq_ix2 y⟩
  have ht : t.val < 20 := Nat.lt_of_lt_of_eq t.isLt N_2
  have hp : 2000 * t.val + r.val < 40000 := by have := r.isLt; omega
  refine (block_value (bX V c t) (bAgg V c t) (bW1 V c t) (bB1 V c t) (bG1 V c t) (bBe1 V c t) (bW2 V c t) (bB2 V c t)
    (bG2 V c t) (bBe2 V c t) r q).trans ?_
  show _ = wholeValue V c (((cfg2.win 10).blk t).view.emb (ix2 r q))
  rw [out_emb t r q ⟨2000 * t.val + r.val, hp⟩ rfl, bW1_eq, bB1_eq, bG1_eq, bBe1_eq, bW2_eq, bB2_eq, bG2_eq, bBe2_eq]
  show GinSpec.mlpRow _ _ _ _ _ _ _ _ _ q = GinSpec.mlpRow _ _ _ _ _ _ _ _ _ q
  congr 1
  funext j
  rw [bX_at V c t r j ⟨2000 * t.val + r.val, hp⟩ rfl, bAgg_at V c t r j ⟨2000 * t.val + r.val, hp⟩ rfl]

/-- An index of the array is in point t's block iff each coordinate is in the block's range on its axis. -/
theorem mem_block (t : Fin cfg2.N) (i : S40000x256.Idx) :
    i ∈ ((cfg2.win 10).blk t).view.set ↔ ∀ a : Fin 2, win2_10.index t a * S2000x256.size a ≤ (i a).val
      ∧ (i a).val < win2_10.index t a * S2000x256.size a + S2000x256.size a := by
  show i ∈ ((View.whole main_v53).slice (win2_10.rect t)).set ↔ _
  rw [View.set_slice_whole, Rect.mem_set_unit]
  exact Iff.rfl

/-- Every entry of the array is written back by some point: row p by point p / 2000. -/
theorem covered (i : S40000x256.Idx) :
    ∃ t : Fin cfg2.N, (cfg2.win 10).flush t = true ∧ i ∈ ((cfg2.win 10).blk t).view.set := by
  have h0 : (i 0).val < 40000 := (i 0).isLt
  have h1 : (i 1).val < 256 := (i 1).isLt
  have hN : cfg2.N = 20 := N_2
  refine ⟨⟨(i 0).val / 2000, by rw [hN]; omega⟩, flush2_10 _, ?_⟩
  rw [mem_block]
  obtain ⟨-, -, -, -, e0, e1, -⟩ := index_facts ⟨(i 0).val / 2000, by rw [hN]; omega⟩
  intro a
  match a with
  | ⟨0, _⟩ =>
    show win2_10.index _ (0 : Fin 2) * 2000 ≤ (i 0).val ∧ (i 0).val < win2_10.index _ (0 : Fin 2) * 2000 + 2000
    rw [e0]; show (i 0).val / 2000 * 2000 ≤ (i 0).val ∧ (i 0).val < (i 0).val / 2000 * 2000 + 2000; omega
  | ⟨1, _⟩ =>
    show win2_10.index _ (1 : Fin 2) * 256 ≤ (i 1).val ∧ (i 1).val < win2_10.index _ (1 : Fin 2) * 256 + 256
    rw [e1]; omega

/-- The output array when the region is left is the whole-array function. -/
theorem out_eq (c : Dev nD) : aOut V c = wholeValue V c :=
  (dat2 (F := Ideal) V c).arrAt_eq_of_cover 10 (wholeValue V c) (fun t _ => flushed_eq V c t) covered

/-- Region 2's output array when the region is left, read at node p and column q: the perceptron of that node's row. -/
theorem value (c : Dev nD) (p : Fin 40000) (q : Fin 256) :
    aOut V c (ix2 p q)
      = GinSpec.mlpRow (fun j : Fin 256 => aX V c (ix2 p j) + aAgg V c (ix2 p j))
          (fun j k => aW1 V c (ix2 j k))
          (fun k => aB1 V c (ix2 0 k)) (fun k => aG1 V c (ix2 0 k)) (fun k => aBe1 V c (ix2 0 k))
          (fun k q' => aW2 V c (ix2 k q'))
          (fun k => aB2 V c (ix2 0 k)) (fun k => aG2 V c (ix2 0 k)) (fun k => aBe2 V c (ix2 0 k)) q :=
  congrFun (out_eq V c) (ix2 p q)

end Cert.KernelIdeal.Mlp2

end
-- ==== Proof.KPool1.lean ====
/-
  THE FIRST POOLING REGION AS A WHOLE-ARRAY VALUE.

  The region runs over 10 points. Point t reads rows 4000 t … 4000 t + 3999 of the membership matrix [40000, 64] and of
  the node values [40000, 256], and adds to one [64, 256] block, kept across the points and zeroed at the first, the
  product that contracts the 4000 rows: entry (g, q) gains the sum over the block's rows r of
  membership (4000 t + r, g) * value (4000 t + r, q). The block is written to the output array once, after the last
  point, and it is the whole array. So the array's entry (g, q) ends as the ordered chain
  ((0 + s_0) + s_1) + … + s_9 of the ten block sums, which on the extended reals — a commutative additive monoid,
  infinities included — is the sum over all 40000 nodes i of membership (i, g) * value (i, q).
-/
import proofs.«420224_j87299505258672_1_alg».proof.Proof.Gen.KernelIdeal.Frame
import proofs.«420224_j87299505258672_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Pool1

open Cert.KernelIdeal Cert.KernelIdeal.Gen

variable (V : (c : Dev nD) → (b : Ref sig .tc) → Buf (Elt Ideal) ((c : Thread nD τ).loc b))

/-- The region's arrays as it finds them, each at its literal type: the membership matrix and the node values. -/
abbrev aOh (c : Dev nD) : FVec Ideal S40000x64 .bf16 := V c main_v16
abbrev aH (c : Dev nD) : FVec Ideal S40000x256 .f32 := V c main_v33
/-- The region's output array when the region is left. -/
abbrev aOut (c : Dev nD) : FVec Ideal S64x256 .f32 := (dat1 (F := Ideal) V c).arrAt 2 cfg1.N

/-! ## The body's two cases as values

At the first point the body stores the zero block, reads it back and stores the zero block plus the block product; at
every later point it reads what the point before left and stores that plus the block product. Both stores cover the
whole [64, 256] buffer, and every load reads a whole buffer. -/

theorem hz : (![0, 0] : Fin 2 → Nat) = fun _ => 0 := funext fun a => by fin_cases a <;> rfl

/-- A later point: the buffer holding xo is left at the payload of xo and the two input blocks. -/
theorem piece_B {F : FTy → Type} [FloatOps F] (c : Dev nD) (i : grid1.Coords)
    (a1 : Memref sig .tc .vmem S4000x64 .bf16) (h1 : a1.IsWhole) (a2 : Memref sig .tc .vmem S4000x256 .f32) (h2 : a2.IsWhole)
    (a3 : Memref sig .tc .vmem S64x256 .f32) (h3 : a3.IsWhole) (hc : ¬cond1_0 i)
    (x0 : Vec F S4000x64 .bf16) (x1 : Vec F S4000x256 .f32) (xo : Vec F S64x256 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  rw [View.canon_unit_zero hz]
  simp only [View.readAt_eq_ld, h1.read_unread, h2.read_unread, h3.read_unread, View.ld_unit_zero (S := S4000x64) hz,
    View.ld_unit_zero (S := S4000x256) hz, View.ld_unit_zero (S := S64x256) hz]

/-- The first point: the buffer is left at the payload of the zero block and the two input blocks. -/
theorem piece_A {F : FTy → Type} [FloatOps F] (c : Dev nD) (i : grid1.Coords)
    (a1 : Memref sig .tc .vmem S4000x64 .bf16) (h1 : a1.IsWhole) (a2 : Memref sig .tc .vmem S4000x256 .f32) (h2 : a2.IsWhole)
    (a3 : Memref sig .tc .vmem S64x256 .f32) (h3 : a3.IsWhole) (hc : cond1_0 i)
    (x0 : Vec F S4000x64 .bf16) (x1 : Vec F S4000x256 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S64x256) hz, View.readCov_unit_zero (S := S64x256) _ hz]
  simp only [View.readAt_eq_ld, h1.read_unread, h2.read_unread, View.ld_unit_zero (S := S4000x64) hz,
    View.ld_unit_zero (S := S4000x256) hz]

/-! ## The block product at an entry

The product contracts axis 0 of both blocks: entry (g, q) is the sum over the 4000 rows r of left (r, g) * right (r, q).
The four facts below say which operand coordinate an output index j and a contraction index k are sent to. -/

theorem lhs_pool_0 (j : S64x256.Idx) (k : dot_S4000x64_S4000x256_S64x256_0_0_1_1_n_n.contr.Idx) :
    (dot_S4000x64_S4000x256_S64x256_0_0_1_1_n_n.lhsIdx j k 0).val = (k ⟨0, by decide⟩).val :=
  dot_S4000x64_S4000x256_S64x256_0_0_1_1_n_n.lhsIdx_val_of_single rfl j k
theorem lhs_pool_1 (j : S64x256.Idx) (k : dot_S4000x64_S4000x256_S64x256_0_0_1_1_n_n.contr.Idx) :
    (dot_S4000x64_S4000x256_S64x256_0_0_1_1_n_n.lhsIdx j k 1).val = (j 0).val := by
  unfold DotDims.lhsIdx
  rw [dif_neg (show ¬(1 : Fin S4000x64.rank) ∈ dot_S4000x64_S4000x256_S64x256_0_0_1_1_n_n.lhsBatch by decide), dif_pos (show (1 : Fin S4000x64.rank) ∈ dot_S4000x64_S4000x256_S64x256_0_0_1_1_n_n.lhsNonContracting by decide)]
  rfl
theorem rhs_pool_0 (j : S64x256.Idx) (k : dot_S4000x64_S4000x256_S64x256_0_0_1_1_n_n.contr.Idx) :
    (dot_S4000x64_S4000x256_S64x256_0_0_1_1_n_n.rhsIdx j k 0).val = (k ⟨0, by decide⟩).val :=
  dot_S4000x64_S4000x256_S64x256_0_0_1_1_n_n.rhsIdx_val_of_single rfl j k
theorem rhs_pool_1 (j : S64x256.Idx) (k : dot_S4000x64_S4000x256_S64x256_0_0_1_1_n_n.contr.Idx) :
    (dot_S4000x64_S4000x256_S64x256_0_0_1_1_n_n.rhsIdx j k 1).val = (j 1).val := by
  unfold DotDims.rhsIdx
  rw [dif_neg (show ¬(1 : Fin S4000x256.rank) ∈ dot_S4000x64_S4000x256_S64x256_0_0_1_1_n_n.rhsBatch by decide), dif_pos (show (1 : Fin S4000x256.rank) ∈ dot_S4000x64_S4000x256_S64x256_0_0_1_1_n_n.rhsNonContracting by decide)]
  rfl

/-- The block product into the zero accumulator, at (g, q). -/
theorem product_at (l : FVec Ideal S4000x64 .bf16) (r : FVec Ideal S4000x256 .bf16) (g : Fin 64) (q : Fin 256) :
    matmul dot_S4000x64_S4000x256_S64x256_0_0_1_1_n_n none l r (constant S64x256 .f32 0x00000000#32) (ix2 g q)
      = ∑ k : Fin 4000, l (ix2 k g) * r (ix2 k q) := by
  simp only [matmul]
  rw [Ideal.matmul_constant_zero_apply, ← Equiv.sum_comp (contrEquiv1 dot_S4000x64_S4000x256_S64x256_0_0_1_1_n_n 4000 rfl rfl).symm]
  refine Finset.sum_congr rfl fun k _ => ?_
  have hk := contrEquiv1_symm_val dot_S4000x64_S4000x256_S64x256_0_0_1_1_n_n 4000 rfl rfl k
  have el : dot_S4000x64_S4000x256_S64x256_0_0_1_1_n_n.lhsIdx (ix2 g q) ((contrEquiv1 dot_S4000x64_S4000x256_S64x256_0_0_1_1_n_n 4000 rfl rfl).symm k) = ix2 k g := funext fun a => Fin.ext (by
    match a with
    | ⟨0, _⟩ => exact (lhs_pool_0 _ _).trans hk
    | ⟨1, _⟩ => exact lhs_pool_1 _ _)
  have er : dot_S4000x64_S4000x256_S64x256_0_0_1_1_n_n.rhsIdx (ix2 g q) ((contrEquiv1 dot_S4000x64_S4000x256_S64x256_0_0_1_1_n_n 4000 rfl rfl).symm k) = ix2 k q := funext fun a => Fin.ext (by
    match a with
    | ⟨0, _⟩ => exact (rhs_pool_0 _ _).trans hk
    | ⟨1, _⟩ => exact rhs_pool_1 _ _)
  rw [el, er]

/-- The update at (g, q): what the buffer held there plus the block product's entry. The narrowing of the values is the
    identity on the extended reals. -/
theorem update_at (x0 : FVec Ideal S4000x64 .bf16) (x1 : FVec Ideal S4000x256 .f32) (xo : FVec Ideal S64x256 .f32)
    (g : Fin 64) (q : Fin 256) :
    k1_pay2 (F := Ideal) x0 x1 xo (ix2 g q) = xo (ix2 g q) + ∑ r : Fin 4000, x0 (ix2 r g) * x1 (ix2 r q) := by
  have e : k1_pay2 (F := Ideal) x0 x1 xo
      = addf xo (matmul dot_S4000x64_S4000x256_S64x256_0_0_1_1_n_n none x0 (truncf .bf16 x1 bitsLt_bf16_f32) (constant S64x256 .f32 0x00000000#32)) := by
    unfold k1_pay2; simp only [shapeCast_self]
  rw [e]
  show xo (ix2 g q) + matmul dot_S4000x64_S4000x256_S64x256_0_0_1_1_n_n none x0 (truncf .bf16 x1 bitsLt_bf16_f32) (constant S64x256 .f32 0x00000000#32) (ix2 g q) = _
  rw [product_at]
  rfl

/-- The reset block is zero at every entry. -/
theorem reset_at (g : Fin 64) (q : Fin 256) : k1_pay1 (F := Ideal) (ix2 g q) = 0 := by
  unfold k1_pay1
  exact Ideal.ofBits_zero_f32

/-! ## The blocks and the running sum

Point t reads rows 4000 t … 4000 t + 3999 of the membership matrix and of the node values. Writing term j for node j's
contribution to entry (g, q) — its membership in graph g times its value in column q — the block product's entry at
point t is the sum of term over the 4000 nodes of block t, and the buffer after point n holds the sum of term over the
nodes below 4000 (n + 1): the ordered chain ((0 + s_0) + s_1) + … + s_n of block sums, which is that sum because each
step appends one block's range to the range already summed. -/

/-- Block t of the membership matrix and of the node values, and the buffer's contents after point n. -/
abbrev ohBlk (c : Dev nD) (t : Fin cfg1.N) : FVec Ideal S4000x64 .bf16 := iblk1 V c 0 t
abbrev hBlk (c : Dev nD) (t : Fin cfg1.N) : FVec Ideal S4000x256 .f32 := iblk1 V c 1 t
abbrev accAt (c : Dev nD) (n : ℕ) (h : n < cfg1.N) : FVec Ideal S64x256 .f32 := outsAt1 V c n h

/-- Both input windows step along the rows with the point and stay at column block 0. -/
theorem idx_oh : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx_h : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)

/-- Row r of block t of the membership matrix is row 4000 t + r of the matrix. -/
theorem ohBlk_at (c : Dev nD) (t : Fin cfg1.N) (r : Fin 4000) (g : Fin 64) (h : 4000 * t.val + r.val < 40000) :
    ohBlk V c t (ix2 r g) = aOh V c (ix2 ⟨4000 * t.val + r.val, h⟩ g) := by
  have hi := idx_oh t
  unfold ohBlk iblk1
  rw [View.read_apply]
  show V c main_v16 _ = V c main_v16 _
  congr 1
  funext a
  apply Fin.ext
  match a with
  | ⟨0, _⟩ => show win1_0.index t 0 * 4000 + 1 * r.val = 4000 * t.val + r.val; rw [hi.1]; omega
  | ⟨1, _⟩ => show win1_0.index t 1 * 64 + 1 * g.val = g.val; rw [hi.2]; omega

/-- Row r of block t of the node values is row 4000 t + r of the array. -/
theorem hBlk_at (c : Dev nD) (t : Fin cfg1.N) (r : Fin 4000) (q : Fin 256) (h : 4000 * t.val + r.val < 40000) :
    hBlk V c t (ix2 r q) = aH V c (ix2 ⟨4000 * t.val + r.val, h⟩ q) := by
  have hi := idx_h t
  unfold hBlk iblk1
  rw [View.read_apply]
  show V c main_v33 _ = V c main_v33 _
  congr 1
  funext a
  apply Fin.ext
  match a with
  | ⟨0, _⟩ => show win1_1.index t 0 * 4000 + 1 * r.val = 4000 * t.val + r.val; rw [hi.1]; omega
  | ⟨1, _⟩ => show win1_1.index t 1 * 256 + 1 * q.val = q.val; rw [hi.2]; omega

/-- Node j's contribution to entry (g, q): its membership in graph g times its value in column q (zero past the last
    node, so that it is a function of a natural number). -/
def term (c : Dev nD) (g : Fin 64) (q : Fin 256) (j : ℕ) : EReal :=
  if h : j < 40000 then (aOh V c (ix2 ⟨j, h⟩ g) : EReal) * (aH V c (ix2 ⟨j, h⟩ q) : EReal) else 0

/-- The block product's entry at point t is the sum of the contributions of block t's 4000 nodes. -/
theorem block_sum (c : Dev nD) (t : Fin cfg1.N) (g : Fin 64) (q : Fin 256) :
    ∑ r : Fin 4000, ohBlk V c t (ix2 r g) * hBlk V c t (ix2 r q)
      = ∑ r ∈ Finset.range 4000, term V c g q (4000 * t.val + r) := by
  have hN : t.val < 10 := lt_of_lt_of_eq t.isLt (show cfg1.N = 10 from N_1)
  rw [← Fin.sum_univ_eq_sum_range (fun r => term V c g q (4000 * t.val + r)) 4000]
  refine Finset.sum_congr rfl fun r _ => ?_
  have hr := r.isLt
  have h : 4000 * t.val + r.val < 40000 := by omega
  rw [ohBlk_at V c t r g h, hBlk_at V c t r q h]
  unfold term
  rw [dif_pos h]

/-- After point n the buffer's entry (g, q) is the sum of the contributions of the nodes below 4000 (n + 1). -/
theorem accAt_at (c : Dev nD) (g : Fin 64) (q : Fin 256) :
    ∀ (n : ℕ) (h : n < cfg1.N), accAt V c n h (ix2 g q) = ∑ j ∈ Finset.range (4000 * (n + 1)), term V c g q j
  | 0, h => by
    refine (congrFun (outsAt1_A V c ⟨0, h⟩ rfl) (ix2 g q)).trans ?_
    refine (congrFun (piece_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (ohBlk V c ⟨0, h⟩) (hBlk V c ⟨0, h⟩)) (ix2 g q)).trans ?_
    rw [update_at, reset_at, zero_add, block_sum]
    simp only [Nat.mul_zero, Nat.zero_add, Nat.mul_one]
  | n + 1, h => by
    have hN : cfg1.N = 10 := N_1
    have hB : ¬(⟨n + 1, h⟩ : Fin cfg1.N).val % 10 = 0 := by dsimp only; omega
    refine (congrFun (outsAt1_B V c ⟨n + 1, h⟩ hB) (ix2 g q)).trans ?_
    refine (congrFun (piece_B (F := Ideal) c (grid1.coords ⟨n + 1, h⟩) (ms1_0 ⟨n + 1, h⟩) (hs1_0 ⟨n + 1, h⟩) (ms1_1 ⟨n + 1, h⟩)
      (hs1_1 ⟨n + 1, h⟩) (ms1_2 ⟨n + 1, h⟩) (hs1_2 ⟨n + 1, h⟩) (fun h' => hB ((hcond1_0 ⟨n + 1, h⟩).mp h'))
      (ohBlk V c ⟨n + 1, h⟩) (hBlk V c ⟨n + 1, h⟩) (accAt V c n (Nat.lt_of_succ_lt h))) (ix2 g q)).trans ?_
    rw [update_at, accAt_at c g q n (Nat.lt_of_succ_lt h), block_sum]
    rw [show 4000 * (n + 1 + 1) = 4000 * (n + 1) + 4000 by omega, Finset.sum_range_add]

/-! ## From the buffer to the output array

The output window has one block, the whole [64, 256] array, and it is written back once, after the last point. So the
array ends holding what the buffer held after point 9. -/

/-- The buffer's contents after the last point, as contents of the output array. -/
abbrev lastAcc (c : Dev nD) : Buf (Elt Ideal) ((c : Thread nD τ).loc main_v34) :=
  outsAt1 V c t1_9.val t1_9.isLt

/-- At the last point the output block starts at row 0 and column 0 of the array … -/
theorem last_offsets : (fun a => win1_2.index t1_9 a * main_v34.ty.shape.size a) = fun _ => 0 :=
  funext fun a => by fin_cases a <;> decide
/-- … and is 64 rows by 256 columns: the array itself. -/
theorem last_rows : win1_2.index t1_9 0 * win1_2.size 0 = 0 ∧ win1_2.xsize (grid1.coords t1_9) 0 = 64 := by decide +kernel
theorem last_cols : win1_2.index t1_9 1 * win1_2.size 1 = 0 ∧ win1_2.xsize (grid1.coords t1_9) 1 = 256 := by decide +kernel

/-- Only the last point writes back, and what it writes is the buffer's contents read through the whole-array block. -/
theorem written_back (c : Dev nD) (t : Fin cfg1.N) (hf : (cfg1.win 2).flush t = true) :
    (dat1 V c).flushed 2 t = ((cfg1.win 2).blk t).view.read (Elt Ideal) (lastAcc V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2]
  exact (Memref.read_access_unit_zero (Elt Ideal) main_v34 last_offsets
    (fun a => by rw [congrFun last_offsets a]; simp) (lastAcc V c)).symm

/-- Every entry of the array lies in the block the last point writes back. -/
theorem last_covers (i : S64x256.Idx) : i ∈ ((cfg1.win 2).blk t1_9).view.set := by
  show i ∈ ((View.whole main_v34).slice (win1_2.rect t1_9)).set
  rw [View.set_slice_whole, Rect.mem_set_unit]
  intro a
  match a with
  | ⟨0, _⟩ =>
    show win1_2.index t1_9 0 * win1_2.size 0 ≤ (i 0 : Nat)
      ∧ (i 0 : Nat) < win1_2.index t1_9 0 * win1_2.size 0 + win1_2.xsize (grid1.coords t1_9) 0
    rw [last_rows.1, last_rows.2]
    exact ⟨Nat.zero_le _, by have := idx2_lt0 i; omega⟩
  | ⟨1, _⟩ =>
    show win1_2.index t1_9 1 * win1_2.size 1 ≤ (i 1 : Nat)
      ∧ (i 1 : Nat) < win1_2.index t1_9 1 * win1_2.size 1 + win1_2.xsize (grid1.coords t1_9) 1
    rw [last_cols.1, last_cols.2]
    exact ⟨Nat.zero_le _, by have := idx2_lt1 i; omega⟩

/-- The output array when the region is left is the buffer's contents after the last point. -/
theorem aOut_eq (c : Dev nD) : aOut V c = lastAcc V c :=
  (dat1 V c).arrAt_eq_of_cover 2 (lastAcc V c) (written_back V c) fun i =>
    ⟨t1_9, (flush1_2 t1_9).mpr rfl, last_covers i⟩

/-- Region 1's output array when the region is left, read at graph g and column q: the membership matrix's column g
    against the node values' column q, summed over all nodes. -/
theorem value (c : Dev nD) (g : Fin 64) (q : Fin 256) :
    aOut V c (ix2 g q) = ∑ i : Fin 40000, (aOh V c (ix2 i g) : EReal) * (aH V c (ix2 i q) : EReal) := by
  rw [aOut_eq V c]
  refine (accAt_at V c g q t1_9.val t1_9.isLt).trans ?_
  rw [show 4000 * (t1_9.val + 1) = 40000 from rfl, ← Fin.sum_univ_eq_sum_range (term V c g q) 40000]
  refine Finset.sum_congr rfl fun i _ => ?_
  unfold term
  rw [dif_pos i.isLt]

end Cert.KernelIdeal.Pool1

end
-- ==== Proof.KPool3.lean ====
/-
  THE SECOND POOLING REGION AS A WHOLE-ARRAY VALUE.

  The region runs over 10 points. Point t reads rows 4000 t … 4000 t + 3999 of the membership matrix [40000, 64] and of
  the node values [40000, 256], and adds to one [64, 256] block, kept across the points and zeroed at the first, the
  product that contracts the 4000 rows: entry (g, q) gains the sum over the block's rows r of
  membership (4000 t + r, g) * value (4000 t + r, q). The block is written to the output array once, after the last
  point, and it is the whole array. So the array's entry (g, q) ends as the ordered chain
  ((0 + s_0) + s_1) + … + s_9 of the ten block sums, which on the extended reals — a commutative additive monoid,
  infinities included — is the sum over all 40000 nodes i of membership (i, g) * value (i, q).
-/
import proofs.«420224_j87299505258672_1_alg».proof.Proof.Gen.KernelIdeal.Frame
import proofs.«420224_j87299505258672_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Pool3

open Cert.KernelIdeal Cert.KernelIdeal.Gen

variable (V : (c : Dev nD) → (b : Ref sig .tc) → Buf (Elt Ideal) ((c : Thread nD τ).loc b))

/-- The region's arrays as it finds them, each at its literal type: the membership matrix and the node values. -/
abbrev aOh (c : Dev nD) : FVec Ideal S40000x64 .bf16 := V c main_v16
abbrev aH (c : Dev nD) : FVec Ideal S40000x256 .f32 := V c main_v53
/-- The region's output array when the region is left. -/
abbrev aOut (c : Dev nD) : FVec Ideal S64x256 .f32 := (dat3 (F := Ideal) V c).arrAt 2 cfg3.N

/-! ## The body's two cases as values

At the first point the body stores the zero block, reads it back and stores the zero block plus the block product; at
every later point it reads what the point before left and stores that plus the block product. Both stores cover the
whole [64, 256] buffer, and every load reads a whole buffer. -/

theorem hz : (![0, 0] : Fin 2 → Nat) = fun _ => 0 := funext fun a => by fin_cases a <;> rfl

/-- A later point: the buffer holding xo is left at the payload of xo and the two input blocks. -/
theorem piece_B {F : FTy → Type} [FloatOps F] (c : Dev nD) (i : grid3.Coords)
    (a1 : Memref sig .tc .vmem S4000x64 .bf16) (h1 : a1.IsWhole) (a2 : Memref sig .tc .vmem S4000x256 .f32) (h2 : a2.IsWhole)
    (a3 : Memref sig .tc .vmem S64x256 .f32) (h3 : a3.IsWhole) (hc : ¬cond3_0 i)
    (x0 : Vec F S4000x64 .bf16) (x1 : Vec F S4000x256 .f32) (xo : Vec F S64x256 .f32) :
    out3_B_2 c i a1 h1 a2 h2 a3 h3 hc x0 x1 xo = k3_pay2 x0 x1 xo := by
  unfold out3_B_2
  rw [View.read_writes_eq_canon _ _ _ (cover3_B_2 c i a1 h1 a2 h2 a3 h3 hc x0 x1 xo)]
  unfold kernelRun3_B
  dsimp only
  rw [View.canon_unit_zero hz]
  simp only [View.readAt_eq_ld, h1.read_unread, h2.read_unread, h3.read_unread, View.ld_unit_zero (S := S4000x64) hz,
    View.ld_unit_zero (S := S4000x256) hz, View.ld_unit_zero (S := S64x256) hz]

/-- The first point: the buffer is left at the payload of the zero block and the two input blocks. -/
theorem piece_A {F : FTy → Type} [FloatOps F] (c : Dev nD) (i : grid3.Coords)
    (a1 : Memref sig .tc .vmem S4000x64 .bf16) (h1 : a1.IsWhole) (a2 : Memref sig .tc .vmem S4000x256 .f32) (h2 : a2.IsWhole)
    (a3 : Memref sig .tc .vmem S64x256 .f32) (h3 : a3.IsWhole) (hc : cond3_0 i)
    (x0 : Vec F S4000x64 .bf16) (x1 : Vec F S4000x256 .f32) :
    out3_A_2 c i a1 h1 a2 h2 a3 h3 hc x0 x1 = k3_pay2 x0 x1 (k3_pay1 (F := F)) := by
  unfold out3_A_2
  rw [View.read_writes_eq_canon _ _ _ (cover3_A_2 c i a1 h1 a2 h2 a3 h3 hc x0 x1)]
  unfold kernelRun3_A
  dsimp only
  sl_unfold_words
  rw [View.canon_cons_unit_zero (S := S64x256) hz, View.readCov_unit_zero (S := S64x256) _ hz]
  simp only [View.readAt_eq_ld, h1.read_unread, h2.read_unread, View.ld_unit_zero (S := S4000x64) hz,
    View.ld_unit_zero (S := S4000x256) hz]

/-! ## The block product at an entry

The product contracts axis 0 of both blocks: entry (g, q) is the sum over the 4000 rows r of left (r, g) * right (r, q).
The four facts below say which operand coordinate an output index j and a contraction index k are sent to. -/

theorem lhs_pool_0 (j : S64x256.Idx) (k : dot_S4000x64_S4000x256_S64x256_0_0_1_1_n_n.contr.Idx) :
    (dot_S4000x64_S4000x256_S64x256_0_0_1_1_n_n.lhsIdx j k 0).val = (k ⟨0, by decide⟩).val :=
  dot_S4000x64_S4000x256_S64x256_0_0_1_1_n_n.lhsIdx_val_of_single rfl j k
theorem lhs_pool_1 (j : S64x256.Idx) (k : dot_S4000x64_S4000x256_S64x256_0_0_1_1_n_n.contr.Idx) :
    (dot_S4000x64_S4000x256_S64x256_0_0_1_1_n_n.lhsIdx j k 1).val = (j 0).val := by
  unfold DotDims.lhsIdx
  rw [dif_neg (show ¬(1 : Fin S4000x64.rank) ∈ dot_S4000x64_S4000x256_S64x256_0_0_1_1_n_n.lhsBatch by decide), dif_pos (show (1 : Fin S4000x64.rank) ∈ dot_S4000x64_S4000x256_S64x256_0_0_1_1_n_n.lhsNonContracting by decide)]
  rfl
theorem rhs_pool_0 (j : S64x256.Idx) (k : dot_S4000x64_S4000x256_S64x256_0_0_1_1_n_n.contr.Idx) :
    (dot_S4000x64_S4000x256_S64x256_0_0_1_1_n_n.rhsIdx j k 0).val = (k ⟨0, by decide⟩).val :=
  dot_S4000x64_S4000x256_S64x256_0_0_1_1_n_n.rhsIdx_val_of_single rfl j k
theorem rhs_pool_1 (j : S64x256.Idx) (k : dot_S4000x64_S4000x256_S64x256_0_0_1_1_n_n.contr.Idx) :
    (dot_S4000x64_S4000x256_S64x256_0_0_1_1_n_n.rhsIdx j k 1).val = (j 1).val := by
  unfold DotDims.rhsIdx
  rw [dif_neg (show ¬(1 : Fin S4000x256.rank) ∈ dot_S4000x64_S4000x256_S64x256_0_0_1_1_n_n.rhsBatch by decide), dif_pos (show (1 : Fin S4000x256.rank) ∈ dot_S4000x64_S4000x256_S64x256_0_0_1_1_n_n.rhsNonContracting by decide)]
  rfl

/-- The block product into the zero accumulator, at (g, q). -/
theorem product_at (l : FVec Ideal S4000x64 .bf16) (r : FVec Ideal S4000x256 .bf16) (g : Fin 64) (q : Fin 256) :
    matmul dot_S4000x64_S4000x256_S64x256_0_0_1_1_n_n none l r (constant S64x256 .f32 0x00000000#32) (ix2 g q)
      = ∑ k : Fin 4000, l (ix2 k g) * r (ix2 k q) := by
  simp only [matmul]
  rw [Ideal.matmul_constant_zero_apply, ← Equiv.sum_comp (contrEquiv1 dot_S4000x64_S4000x256_S64x256_0_0_1_1_n_n 4000 rfl rfl).symm]
  refine Finset.sum_congr rfl fun k _ => ?_
  have hk := contrEquiv1_symm_val dot_S4000x64_S4000x256_S64x256_0_0_1_1_n_n 4000 rfl rfl k
  have el : dot_S4000x64_S4000x256_S64x256_0_0_1_1_n_n.lhsIdx (ix2 g q) ((contrEquiv1 dot_S4000x64_S4000x256_S64x256_0_0_1_1_n_n 4000 rfl rfl).symm k) = ix2 k g := funext fun a => Fin.ext (by
    match a with
    | ⟨0, _⟩ => exact (lhs_pool_0 _ _).trans hk
    | ⟨1, _⟩ => exact lhs_pool_1 _ _)
  have er : dot_S4000x64_S4000x256_S64x256_0_0_1_1_n_n.rhsIdx (ix2 g q) ((contrEquiv1 dot_S4000x64_S4000x256_S64x256_0_0_1_1_n_n 4000 rfl rfl).symm k) = ix2 k q := funext fun a => Fin.ext (by
    match a with
    | ⟨0, _⟩ => exact (rhs_pool_0 _ _).trans hk
    | ⟨1, _⟩ => exact rhs_pool_1 _ _)
  rw [el, er]

/-- The update at (g, q): what the buffer held there plus the block product's entry. The narrowing of the values is the
    identity on the extended reals. -/
theorem update_at (x0 : FVec Ideal S4000x64 .bf16) (x1 : FVec Ideal S4000x256 .f32) (xo : FVec Ideal S64x256 .f32)
    (g : Fin 64) (q : Fin 256) :
    k3_pay2 (F := Ideal) x0 x1 xo (ix2 g q) = xo (ix2 g q) + ∑ r : Fin 4000, x0 (ix2 r g) * x1 (ix2 r q) := by
  have e : k3_pay2 (F := Ideal) x0 x1 xo
      = addf xo (matmul dot_S4000x64_S4000x256_S64x256_0_0_1_1_n_n none x0 (truncf .bf16 x1 bitsLt_bf16_f32) (constant S64x256 .f32 0x00000000#32)) := by
    unfold k3_pay2; simp only [shapeCast_self]
  rw [e]
  show xo (ix2 g q) + matmul dot_S4000x64_S4000x256_S64x256_0_0_1_1_n_n none x0 (truncf .bf16 x1 bitsLt_bf16_f32) (constant S64x256 .f32 0x00000000#32) (ix2 g q) = _
  rw [product_at]
  rfl

/-- The reset block is zero at every entry. -/
theorem reset_at (g : Fin 64) (q : Fin 256) : k3_pay1 (F := Ideal) (ix2 g q) = 0 := by
  unfold k3_pay1
  exact Ideal.ofBits_zero_f32

/-! ## The blocks and the running sum

Point t reads rows 4000 t … 4000 t + 3999 of the membership matrix and of the node values. Writing term j for node j's
contribution to entry (g, q) — its membership in graph g times its value in column q — the block product's entry at
point t is the sum of term over the 4000 nodes of block t, and the buffer after point n holds the sum of term over the
nodes below 4000 (n + 1): the ordered chain ((0 + s_0) + s_1) + … + s_n of block sums, which is that sum because each
step appends one block's range to the range already summed. -/

/-- Block t of the membership matrix and of the node values, and the buffer's contents after point n. -/
abbrev ohBlk (c : Dev nD) (t : Fin cfg3.N) : FVec Ideal S4000x64 .bf16 := iblk3 V c 0 t
abbrev hBlk (c : Dev nD) (t : Fin cfg3.N) : FVec Ideal S4000x256 .f32 := iblk3 V c 1 t
abbrev accAt (c : Dev nD) (n : ℕ) (h : n < cfg3.N) : FVec Ideal S64x256 .f32 := outsAt3 V c n h

/-- Both input windows step along the rows with the point and stay at column block 0. -/
theorem idx_oh : ∀ t : Fin cfg3.N, win3_0.index t (0 : Fin 2) = t.val ∧ win3_0.index t (1 : Fin 2) = 0 :=
  (by decide +kernel : ∀ t : Fin grid3.N, win3_0.index t (0 : Fin 2) = t.val ∧ win3_0.index t (1 : Fin 2) = 0)
theorem idx_h : ∀ t : Fin cfg3.N, win3_1.index t (0 : Fin 2) = t.val ∧ win3_1.index t (1 : Fin 2) = 0 :=
  (by decide +kernel : ∀ t : Fin grid3.N, win3_1.index t (0 : Fin 2) = t.val ∧ win3_1.index t (1 : Fin 2) = 0)

/-- Row r of block t of the membership matrix is row 4000 t + r of the matrix. -/
theorem ohBlk_at (c : Dev nD) (t : Fin cfg3.N) (r : Fin 4000) (g : Fin 64) (h : 4000 * t.val + r.val < 40000) :
    ohBlk V c t (ix2 r g) = aOh V c (ix2 ⟨4000 * t.val + r.val, h⟩ g) := by
  have hi := idx_oh t
  unfold ohBlk iblk3
  rw [View.read_apply]
  show V c main_v16 _ = V c main_v16 _
  congr 1
  funext a
  apply Fin.ext
  match a with
  | ⟨0, _⟩ => show win3_0.index t 0 * 4000 + 1 * r.val = 4000 * t.val + r.val; rw [hi.1]; omega
  | ⟨1, _⟩ => show win3_0.index t 1 * 64 + 1 * g.val = g.val; rw [hi.2]; omega

/-- Row r of block t of the node values is row 4000 t + r of the array. -/
theorem hBlk_at (c : Dev nD) (t : Fin cfg3.N) (r : Fin 4000) (q : Fin 256) (h : 4000 * t.val + r.val < 40000) :
    hBlk V c t (ix2 r q) = aH V c (ix2 ⟨4000 * t.val + r.val, h⟩ q) := by
  have hi := idx_h t
  unfold hBlk iblk3
  rw [View.read_apply]
  show V c main_v53 _ = V c main_v53 _
  congr 1
  funext a
  apply Fin.ext
  match a with
  | ⟨0, _⟩ => show win3_1.index t 0 * 4000 + 1 * r.val = 4000 * t.val + r.val; rw [hi.1]; omega
  | ⟨1, _⟩ => show win3_1.index t 1 * 256 + 1 * q.val = q.val; rw [hi.2]; omega

/-- Node j's contribution to entry (g, q): its membership in graph g times its value in column q (zero past the last
    node, so that it is a function of a natural number). -/
def term (c : Dev nD) (g : Fin 64) (q : Fin 256) (j : ℕ) : EReal :=
  if h : j < 40000 then (aOh V c (ix2 ⟨j, h⟩ g) : EReal) * (aH V c (ix2 ⟨j, h⟩ q) : EReal) else 0

/-- The block product's entry at point t is the sum of the contributions of block t's 4000 nodes. -/
theorem block_sum (c : Dev nD) (t : Fin cfg3.N) (g : Fin 64) (q : Fin 256) :
    ∑ r : Fin 4000, ohBlk V c t (ix2 r g) * hBlk V c t (ix2 r q)
      = ∑ r ∈ Finset.range 4000, term V c g q (4000 * t.val + r) := by
  have hN : t.val < 10 := lt_of_lt_of_eq t.isLt (show cfg3.N = 10 from N_3)
  rw [← Fin.sum_univ_eq_sum_range (fun r => term V c g q (4000 * t.val + r)) 4000]
  refine Finset.sum_congr rfl fun r _ => ?_
  have hr := r.isLt
  have h : 4000 * t.val + r.val < 40000 := by omega
  rw [ohBlk_at V c t r g h, hBlk_at V c t r q h]
  unfold term
  rw [dif_pos h]

/-- After point n the buffer's entry (g, q) is the sum of the contributions of the nodes below 4000 (n + 1). -/
theorem accAt_at (c : Dev nD) (g : Fin 64) (q : Fin 256) :
    ∀ (n : ℕ) (h : n < cfg3.N), accAt V c n h (ix2 g q) = ∑ j ∈ Finset.range (4000 * (n + 1)), term V c g q j
  | 0, h => by
    refine (congrFun (outsAt3_A V c ⟨0, h⟩ rfl) (ix2 g q)).trans ?_
    refine (congrFun (piece_A (F := Ideal) c (grid3.coords ⟨0, h⟩) (ms3_0 ⟨0, h⟩) (hs3_0 ⟨0, h⟩) (ms3_1 ⟨0, h⟩) (hs3_1 ⟨0, h⟩)
      (ms3_2 ⟨0, h⟩) (hs3_2 ⟨0, h⟩) ((hcond3_0 ⟨0, h⟩).mpr rfl) (ohBlk V c ⟨0, h⟩) (hBlk V c ⟨0, h⟩)) (ix2 g q)).trans ?_
    rw [update_at, reset_at, zero_add, block_sum]
    simp only [Nat.mul_zero, Nat.zero_add, Nat.mul_one]
  | n + 1, h => by
    have hN : cfg3.N = 10 := N_3
    have hB : ¬(⟨n + 1, h⟩ : Fin cfg3.N).val % 10 = 0 := by dsimp only; omega
    refine (congrFun (outsAt3_B V c ⟨n + 1, h⟩ hB) (ix2 g q)).trans ?_
    refine (congrFun (piece_B (F := Ideal) c (grid3.coords ⟨n + 1, h⟩) (ms3_0 ⟨n + 1, h⟩) (hs3_0 ⟨n + 1, h⟩) (ms3_1 ⟨n + 1, h⟩)
      (hs3_1 ⟨n + 1, h⟩) (ms3_2 ⟨n + 1, h⟩) (hs3_2 ⟨n + 1, h⟩) (fun h' => hB ((hcond3_0 ⟨n + 1, h⟩).mp h'))
      (ohBlk V c ⟨n + 1, h⟩) (hBlk V c ⟨n + 1, h⟩) (accAt V c n (Nat.lt_of_succ_lt h))) (ix2 g q)).trans ?_
    rw [update_at, accAt_at c g q n (Nat.lt_of_succ_lt h), block_sum]
    rw [show 4000 * (n + 1 + 1) = 4000 * (n + 1) + 4000 by omega, Finset.sum_range_add]

/-! ## From the buffer to the output array

The output window has one block, the whole [64, 256] array, and it is written back once, after the last point. So the
array ends holding what the buffer held after point 9. -/

/-- The buffer's contents after the last point, as contents of the output array. -/
abbrev lastAcc (c : Dev nD) : Buf (Elt Ideal) ((c : Thread nD τ).loc main_v54) :=
  outsAt3 V c t3_9.val t3_9.isLt

/-- At the last point the output block starts at row 0 and column 0 of the array … -/
theorem last_offsets : (fun a => win3_2.index t3_9 a * main_v54.ty.shape.size a) = fun _ => 0 :=
  funext fun a => by fin_cases a <;> decide
/-- … and is 64 rows by 256 columns: the array itself. -/
theorem last_rows : win3_2.index t3_9 0 * win3_2.size 0 = 0 ∧ win3_2.xsize (grid3.coords t3_9) 0 = 64 := by decide +kernel
theorem last_cols : win3_2.index t3_9 1 * win3_2.size 1 = 0 ∧ win3_2.xsize (grid3.coords t3_9) 1 = 256 := by decide +kernel

/-- Only the last point writes back, and what it writes is the buffer's contents read through the whole-array block. -/
theorem written_back (c : Dev nD) (t : Fin cfg3.N) (hf : (cfg3.win 2).flush t = true) :
    (dat3 V c).flushed 2 t = ((cfg3.win 2).blk t).view.read (Elt Ideal) (lastAcc V c) := by
  have hN : cfg3.N = 10 := N_3
  have h9 : t.val = 9 := by have := (flush3_2 t).mp hf; have := t.isLt; omega
  obtain rfl : t = t3_9 := Fin.ext h9
  show (cfg3.win 2).cut (grid3.coords t3_9) ((dat3 V c).after 2 t3_9) = _
  rw [after3_2]
  exact (Memref.read_access_unit_zero (Elt Ideal) main_v54 last_offsets
    (fun a => by rw [congrFun last_offsets a]; simp) (lastAcc V c)).symm

/-- Every entry of the array lies in the block the last point writes back. -/
theorem last_covers (i : S64x256.Idx) : i ∈ ((cfg3.win 2).blk t3_9).view.set := by
  show i ∈ ((View.whole main_v54).slice (win3_2.rect t3_9)).set
  rw [View.set_slice_whole, Rect.mem_set_unit]
  intro a
  match a with
  | ⟨0, _⟩ =>
    show win3_2.index t3_9 0 * win3_2.size 0 ≤ (i 0 : Nat)
      ∧ (i 0 : Nat) < win3_2.index t3_9 0 * win3_2.size 0 + win3_2.xsize (grid3.coords t3_9) 0
    rw [last_rows.1, last_rows.2]
    exact ⟨Nat.zero_le _, by have := idx2_lt0 i; omega⟩
  | ⟨1, _⟩ =>
    show win3_2.index t3_9 1 * win3_2.size 1 ≤ (i 1 : Nat)
      ∧ (i 1 : Nat) < win3_2.index t3_9 1 * win3_2.size 1 + win3_2.xsize (grid3.coords t3_9) 1
    rw [last_cols.1, last_cols.2]
    exact ⟨Nat.zero_le _, by have := idx2_lt1 i; omega⟩

/-- The output array when the region is left is the buffer's contents after the last point. -/
theorem aOut_eq (c : Dev nD) : aOut V c = lastAcc V c :=
  (dat3 V c).arrAt_eq_of_cover 2 (lastAcc V c) (written_back V c) fun i =>
    ⟨t3_9, (flush3_2 t3_9).mpr rfl, last_covers i⟩

/-- Region 3's output array when the region is left, read at graph g and column q: the membership matrix's column g
    against the node values' column q, summed over all nodes. -/
theorem value (c : Dev nD) (g : Fin 64) (q : Fin 256) :
    aOut V c (ix2 g q) = ∑ i : Fin 40000, (aOh V c (ix2 i g) : EReal) * (aH V c (ix2 i q) : EReal) := by
  rw [aOut_eq V c]
  refine (accAt_at V c g q t3_9.val t3_9.isLt).trans ?_
  rw [show 4000 * (t3_9.val + 1) = 40000 from rfl, ← Fin.sum_univ_eq_sum_range (term V c g q) 40000]
  refine Finset.sum_congr rfl fun i _ => ?_
  unfold term
  rw [dif_pos i.isLt]

end Cert.KernelIdeal.Pool3

end
-- ==== Proof.LibScatterSum.lean ====
/-
  THE ACCUMULATING ROW SCATTER READ AT AN INDEX, AND THE EXTENDED-REAL ALGEBRA AROUND IT.

  What `x.at[idx].add(upd)` (a segment sum) of a rank-2 operand `x : [N, C]` at a vector of row indices lowers to: a
  `stablehlo.scatter` with an `add` body, update_window_dims `[1]`, inserted_window_dims `[0]`,
  scatter_dims_to_operand_dims `[0]`, index_vector_dim `1`, over the indices kept as an `[n, 1]` column and updates
  `[n, C]`. Update row `e` lands on operand row `idx[e, 0]`, the start index read as a SIGNED integer and NOT clamped:
  a row index that is negative or at least `N` names no row, and that update row contributes nothing. At the exact
  (extended-real) instance the result at `(j, q)` is therefore `x[j, q]` plus the sum of `upd[e, q]` over the update
  rows `e` whose index is `j`.

  • `rowScatterDims N C n wf` is the record of those dimension numbers, a literal structure so that every list lookup in
    the result index computes; `rowScatter_start0` / `_start1` / `_window0` / `_window1` read the start and the window
    coordinate of update index `(e, q')` on the operand's two axes (`idx[e, 0]` signed and `0`; `0` and `q'`);
    `rowScatter_resultIdx?_eq_some_iff` says update index `(e, q')` lands on `(j, q)` exactly when `idx[e, 0] = j` as
    integers and `q' = q`; `rowScatterAdd_apply` is the read, and `rowHostScatterAdd_apply` the same read of the host's
    `Host.scatterAdd` at the exact instance (which is that sum by definition).
  • `vecScatterDims N n wf`, `vecScatter_resultIdx?_eq_some_iff`, `vecScatterAdd_apply`, `vecHostScatterAdd_apply`: the same for a rank-1 operand
    `[N]` with updates `[n]` (update_window_dims `[]`): the result at `j` is `x[j]` plus the sum of `upd[e]` over the
    `e` with `idx[e, 0] = j`.
  • `sum_mul_coe_of_nonneg`: multiplication by a nonnegative REAL distributes over every finite sum of extended reals,
    infinities of both signs included (for `r = 0` both sides are `0`; for `r > 0` multiplication by `r` keeps `⊤` and
    `⊥` and so commutes with the convention `⊤ + ⊥ = ⊥`); `add_mul_coe_of_nonneg` is the two-term form, and
    `coe_mul_sum_of_nonneg` / `coe_mul_add_of_nonneg'` the same with the real on the left.
  • `zero_add_sum_one`: `0` plus a sum of ones over a finite set is the set's cardinality, a natural number, so neither
    infinity; `rsqrt_natCast_pos`: the reciprocal square root of a positive natural number is a nonnegative real;
    `rsqrt_natCast_or_zero`: so is "the reciprocal square root where the number is positive, else `0`".

  The lemmas are general in `N`, `C`, `n` and the index width `w`; the conditions `wf` on the dimension numbers are
  decided on a program's literal shapes.
-/
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

/-! ## The rank-2 row scatter -/

/-- The dimension numbers of an accumulating row scatter into an [N, C] operand at an [n, 1] column of row indices,
    with updates [n, C]. -/
abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Row
variable {N C n w : Nat} (wf : ScatterDims.WF ⟨2, ![N, C]⟩ ⟨2, ![n, 1]⟩ ⟨2, ![n, C]⟩ [1] [0] [0] 1)

/-- On the operand's row axis the window of update index (e, q') starts at the signed row index idx[e, 0]. -/
theorem rowScatter_start0 (idx : IVec ⟨2, ![n, 1]⟩ w) (e : Fin n) (q' : Fin C) :
    (rowScatterDims N C n wf).start (ix2 e q') idx 0 = (idx (ix2 e (0 : Fin 1))).toInt := by
  unfold ScatterDims.start
  rw [dif_pos (show (0 : Fin 2) ∈ (rowScatterDims N C n wf).scatterDimsToOperandDims from List.mem_singleton.mpr rfl)]
  -- the start index's one component is read at (e, 0): the update's scatter coordinate e on the scatter indices'
  -- axis 0, the component's number 0 on the index vector's axis 1
  have hsi : (rowScatterDims N C n wf).siIdx (ix2 e q')
      ⟨List.idxOf (0 : Fin 2) (rowScatterDims N C n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's column axis, which the scatter indices do not address, the window starts at 0. -/
theorem rowScatter_start1 (idx : IVec ⟨2, ![n, 1]⟩ w) (e : Fin n) (q' : Fin C) :
    (rowScatterDims N C n wf).start (ix2 e q') idx 1 = 0 := by
  rfl

/-- The row axis is an inserted window axis: the window coordinate on it is 0. -/
theorem rowScatter_window0 (e : Fin n) (q' : Fin C) :
    (rowScatterDims N C n wf).window (ix2 e q') 0 = 0 := by
  rfl

/-- The column axis is the one window axis: the window coordinate on it is the update's column q'. -/
theorem rowScatter_window1 (e : Fin n) (q' : Fin C) :
    (rowScatterDims N C n wf).window (ix2 e q') 1 = q'.val := by
  rfl

/-- Update index (e, q') lands on operand index (j, q) exactly when the signed row index idx[e, 0] is j and the
    columns agree. -/
theorem rowScatter_resultIdx?_eq_some_iff (idx : IVec ⟨2, ![n, 1]⟩ w) (e : Fin n) (q' : Fin C) (j : Fin N) (q : Fin C) :
    (rowScatterDims N C n wf).resultIdx? (ix2 e q') idx = some (ix2 j q)
      ↔ (idx (ix2 e (0 : Fin 1))).toInt = (j.val : ℤ) ∧ q' = q := by
  unfold ScatterDims.resultIdx?
  split
  · rename_i h
    -- the update is inside the operand: compare the landing index with (j, q) coordinate by coordinate
    rw [Option.some.injEq]
    have h0 := (h 0).1
    rw [rowScatter_start0, rowScatter_window0] at h0
    constructor
    · intro hf
      have e0 := congrArg (fun f => (f 0).val) hf
      have e1 := congrArg (fun f => (f 1).val) hf
      simp only [rowScatter_start0, rowScatter_start1, rowScatter_window0, rowScatter_window1] at e0 e1
      have e0' : ((idx (ix2 e (0 : Fin 1))).toInt + ((0 : ℕ) : ℤ)).toNat = j.val := e0
      have e1' : ((0 : ℤ) + (q'.val : ℤ)).toNat = q.val := e1
      exact ⟨by omega, Fin.ext (by omega)⟩
    · rintro ⟨hj, rfl⟩
      funext a; refine Fin.ext ?_
      match a with
      | ⟨0, _⟩ =>
        show ((rowScatterDims N C n wf).start (ix2 e q') idx 0 + ((rowScatterDims N C n wf).window (ix2 e q') 0 : ℕ)).toNat = j.val
        rw [rowScatter_start0, rowScatter_window0]; omega
      | ⟨1, _⟩ =>
        show ((rowScatterDims N C n wf).start (ix2 e q') idx 1 + ((rowScatterDims N C n wf).window (ix2 e q') 1 : ℕ)).toNat = q'.val
        rw [rowScatter_start1, rowScatter_window1]; omega
  · rename_i h
    -- the update is dropped: then its row index is not j, for j is a row of the operand and q' a column
    constructor
    · intro hf; exact absurd hf (by simp)
    · rintro ⟨hj, rfl⟩
      refine absurd (fun a => ?_) h
      match a with
      | ⟨0, _⟩ =>
        show 0 ≤ (rowScatterDims N C n wf).start (ix2 e q') idx 0 + ((rowScatterDims N C n wf).window (ix2 e q') 0 : ℕ)
          ∧ (rowScatterDims N C n wf).start (ix2 e q') idx 0 + ((rowScatterDims N C n wf).window (ix2 e q') 0 : ℕ) < (N : ℤ)
        rw [rowScatter_start0, rowScatter_window0]
        have := j.isLt; omega
      | ⟨1, _⟩ =>
        show 0 ≤ (rowScatterDims N C n wf).start (ix2 e q') idx 1 + ((rowScatterDims N C n wf).window (ix2 e q') 1 : ℕ)
          ∧ (rowScatterDims N C n wf).start (ix2 e q') idx 1 + ((rowScatterDims N C n wf).window (ix2 e q') 1 : ℕ) < (C : ℤ)
        rw [rowScatter_start1, rowScatter_window1]
        have := q'.isLt; omega

/-- The accumulating row scatter read at (j, q): the operand there plus the sum of the updates' column q over the
    update rows whose signed row index is j. -/
theorem rowScatterAdd_apply (x : (⟨2, ![N, C]⟩ : Shape).Idx → EReal) (idx : IVec ⟨2, ![n, 1]⟩ w)
    (upd : (⟨2, ![n, C]⟩ : Shape).Idx → EReal) (j : Fin N) (q : Fin C) :
    Ideal.hostScatterAdd (rowScatterDims N C n wf) x idx upd (ix2 j q)
      = x (ix2 j q) + ∑ e ∈ Finset.univ.filter (fun e : Fin n => (idx (ix2 e (0 : Fin 1))).toInt = (j.val : ℤ)),
          upd (ix2 e q) := by
  unfold Ideal.hostScatterAdd
  congr 1
  -- the update indices landing on (j, q) are the (e, q) with idx[e, 0] = j: re-index the sum by the update row e
  have key : ∀ u : (⟨2, ![n, C]⟩ : Shape).Idx,
      u ∈ Finset.univ.filter (fun u => (rowScatterDims N C n wf).resultIdx? u idx = some (ix2 j q)) →
      ∃ a : Fin n, u = ix2 a q ∧ (idx (ix2 a (0 : Fin 1))).toInt = (j.val : ℤ) := by
    intro u hu
    obtain ⟨a, b, rfl⟩ : ∃ (a : Fin n) (b : Fin C), u = ix2 a b := ⟨u 0, u 1, eq_ix2 u⟩
    have hu' := (rowScatter_resultIdx?_eq_some_iff wf idx a b j q).mp (Finset.mem_filter.mp hu).2
    exact ⟨a, by rw [hu'.2], hu'.1⟩
  refine Finset.sum_nbij' (fun u => (u 0 : Fin n)) (fun e => ix2 e q) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (rowScatter_resultIdx?_eq_some_iff wf idx e q j q).mpr ⟨(Finset.mem_filter.mp he).2, rfl⟩⟩
  · intro u hu
    obtain ⟨a, rfl, _⟩ := key u hu
    rfl
  · intro e _; rfl
  · intro u hu
    obtain ⟨a, rfl, _⟩ := key u hu
    rfl

/-- The host's accumulating row scatter at the exact instance, at any float format, read at (j, q): by definition it
    is the exact sum above. -/
theorem rowHostScatterAdd_apply {φ : FTy} (x : FVec Ideal ⟨2, ![N, C]⟩ φ) (idx : IVec ⟨2, ![n, 1]⟩ w)
    (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) :=
  rowScatterAdd_apply wf x idx upd j q
end Row

/-! ## The rank-1 scatter -/

/-- The dimension numbers of an accumulating scatter into an [N] operand at an [n, 1] column of indices, with
    updates [n]. -/
abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

/-- The window of update index e starts at the signed index idx[e, 0]. -/
theorem vecScatter_start0 (idx : IVec ⟨2, ![n, 1]⟩ w) (e : Fin n) :
    (vecScatterDims N n wf).start (ix1 e) idx 0 = (idx (ix2 e (0 : Fin 1))).toInt := by
  unfold ScatterDims.start
  rw [dif_pos (show (0 : Fin 1) ∈ (vecScatterDims N n wf).scatterDimsToOperandDims from List.mem_singleton.mpr rfl)]
  -- the start index's one component is read at (e, 0)
  have hsi : (vecScatterDims N n wf).siIdx (ix1 e)
      ⟨List.idxOf (0 : Fin 1) (vecScatterDims N n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate on it is 0. -/
theorem vecScatter_window0 (e : Fin n) : (vecScatterDims N n wf).window (ix1 e) 0 = 0 := by
  rfl

/-- Update index e lands on operand index j exactly when the signed index idx[e, 0] is j. -/
theorem vecScatter_resultIdx?_eq_some_iff (idx : IVec ⟨2, ![n, 1]⟩ w) (e : Fin n) (j : Fin N) :
    (vecScatterDims N n wf).resultIdx? (ix1 e) idx = some (ix1 j)
      ↔ (idx (ix2 e (0 : Fin 1))).toInt = (j.val : ℤ) := by
  unfold ScatterDims.resultIdx?
  split
  · rename_i h
    -- the update is inside the operand: compare the landing index with j
    rw [Option.some.injEq]
    have h0 := (h 0).1
    rw [vecScatter_start0, vecScatter_window0] at h0
    constructor
    · intro hf
      have e0 := congrArg (fun f => (f 0).val) hf
      simp only [vecScatter_start0, vecScatter_window0] at e0
      have e0' : ((idx (ix2 e (0 : Fin 1))).toInt + ((0 : ℕ) : ℤ)).toNat = j.val := e0
      omega
    · intro hj
      funext a; refine Fin.ext ?_
      match a with
      | ⟨0, _⟩ =>
        show ((vecScatterDims N n wf).start (ix1 e) idx 0 + ((vecScatterDims N n wf).window (ix1 e) 0 : ℕ)).toNat = j.val
        rw [vecScatter_start0, vecScatter_window0]; omega
  · rename_i h
    -- the update is dropped: then its index is not j, for j is inside the operand
    constructor
    · intro hf; exact absurd hf (by simp)
    · intro hj
      refine absurd (fun a => ?_) h
      match a with
      | ⟨0, _⟩ =>
        show 0 ≤ (vecScatterDims N n wf).start (ix1 e) idx 0 + ((vecScatterDims N n wf).window (ix1 e) 0 : ℕ)
          ∧ (vecScatterDims N n wf).start (ix1 e) idx 0 + ((vecScatterDims N n wf).window (ix1 e) 0 : ℕ) < (N : ℤ)
        rw [vecScatter_start0, vecScatter_window0]
        have := j.isLt; omega

/-- The accumulating scatter read at j: the operand there plus the sum of the updates whose signed index is j. -/
theorem vecScatterAdd_apply (x : (⟨1, ![N]⟩ : Shape).Idx → EReal) (idx : IVec ⟨2, ![n, 1]⟩ w)
    (upd : (⟨1, ![n]⟩ : Shape).Idx → EReal) (j : Fin N) :
    Ideal.hostScatterAdd (vecScatterDims N n wf) x idx upd (ix1 j)
      = x (ix1 j) + ∑ e ∈ Finset.univ.filter (fun e : Fin n => (idx (ix2 e (0 : Fin 1))).toInt = (j.val : ℤ)),
          upd (ix1 e) := by
  unfold Ideal.hostScatterAdd
  congr 1
  -- the update indices landing on j are the e with idx[e, 0] = j
  have key : ∀ u : (⟨1, ![n]⟩ : Shape).Idx,
      u ∈ Finset.univ.filter (fun u => (vecScatterDims N n wf).resultIdx? u idx = some (ix1 j)) →
      ∃ a : Fin n, u = ix1 a ∧ (idx (ix2 a (0 : Fin 1))).toInt = (j.val : ℤ) := by
    intro u hu
    obtain ⟨a, rfl⟩ : ∃ a : Fin n, u = ix1 a := ⟨u 0, eq_ix1 u⟩
    exact ⟨a, rfl, (vecScatter_resultIdx?_eq_some_iff wf idx a j).mp (Finset.mem_filter.mp hu).2⟩
  refine Finset.sum_nbij' (fun u => (u 0 : Fin n)) (fun e => ix1 e) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (vecScatter_resultIdx?_eq_some_iff wf idx e j).mpr (Finset.mem_filter.mp he).2⟩
  · intro u hu
    obtain ⟨a, rfl, _⟩ := key u hu
    rfl
  · intro e _; rfl
  · intro u hu
    obtain ⟨a, rfl, _⟩ := key u hu
    rfl

/-- The host's accumulating rank-1 scatter at the exact instance, at any float format, read at j. -/
theorem vecHostScatterAdd_apply {φ : FTy} (x : FVec Ideal ⟨1, ![N]⟩ φ) (idx : IVec ⟨2, ![n, 1]⟩ w)
    (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) :=
  vecScatterAdd_apply wf x idx upd j
end Vec

/-! ## Multiplication by a nonnegative real distributes over extended-real sums -/

/-- (a + b) · r = a · r + b · r for a real r ≥ 0 and any extended reals a, b. -/
theorem add_mul_coe_of_nonneg {r : ℝ} (hr : 0 ≤ r) (a b : EReal) :
    (a + b) * (r : EReal) = a * (r : EReal) + b * (r : EReal) := by
  exact EReal.right_distrib_of_nonneg_of_ne_top (EReal.coe_nonneg.mpr hr) (EReal.coe_ne_top r) a b

/-- r · (a + b) = r · a + r · b for a real r ≥ 0 and any extended reals a, b. -/
theorem coe_mul_add_of_nonneg' {r : ℝ} (hr : 0 ≤ r) (a b : EReal) :
    (r : EReal) * (a + b) = (r : EReal) * a + (r : EReal) * b := by
  exact EReal.left_distrib_of_nonneg_of_ne_top (EReal.coe_nonneg.mpr hr) (EReal.coe_ne_top r) a b

/-- (∑ f i) · r = ∑ (f i · r) for a real r ≥ 0 and any finite family of extended reals. -/
theorem sum_mul_coe_of_nonneg {ι : Type*} {r : ℝ} (hr : 0 ≤ r) (s : Finset ι) (f : ι → EReal) :
    (∑ i ∈ s, f i) * (r : EReal) = ∑ i ∈ s, f i * (r : EReal) := by
  classical
  induction s using Finset.induction_on with
  | empty => simp
  | insert a s ha ih => rw [Finset.sum_insert ha, Finset.sum_insert ha, add_mul_coe_of_nonneg hr, ih]

/-- r · (∑ f i) = ∑ (r · f i) for a real r ≥ 0 and any finite family of extended reals. -/
theorem coe_mul_sum_of_nonneg {ι : Type*} {r : ℝ} (hr : 0 ≤ r) (s : Finset ι) (f : ι → EReal) :
    (r : EReal) * (∑ i ∈ s, f i) = ∑ i ∈ s, (r : EReal) * f i := by
  classical
  induction s using Finset.induction_on with
  | empty => simp
  | insert a s ha ih => rw [Finset.sum_insert ha, Finset.sum_insert ha, coe_mul_add_of_nonneg' hr, ih]

/-! ## Counting sums and their reciprocal square roots -/

/-- 0 plus a sum of ones over a finite set is the set's cardinality. -/
theorem zero_add_sum_one {ι : Type*} (s : Finset ι) :
    (0 : EReal) + ∑ _e ∈ s, (1 : EReal) = ((s.card : ℝ) : EReal) := by
  rw [zero_add, Finset.sum_const, nsmul_one]
  rfl

/-- The reciprocal square root of a positive natural number is a nonnegative real. -/
theorem rsqrt_natCast_pos {k : ℕ} (hk : 0 < k) :
    ∃ r : ℝ, 0 ≤ r ∧ Ideal.rsqrt ((k : ℝ) : EReal) = (r : EReal) := by
  have hk' : (0 : ℝ) < (k : ℝ) := by exact_mod_cast hk
  refine ⟨(Real.sqrt (k : ℝ))⁻¹, inv_nonneg.mpr (Real.sqrt_nonneg _), ?_⟩
  rw [Ideal.rsqrt_coe, if_neg (not_lt.mpr hk'.le), if_neg hk'.ne']

/-- "The reciprocal square root where the natural number is positive, else 0" is a nonnegative real. -/
theorem rsqrt_natCast_or_zero (k : ℕ) :
    ∃ r : ℝ, 0 ≤ r ∧ (if (0 : EReal) < ((k : ℝ) : EReal) then Ideal.rsqrt ((k : ℝ) : EReal) else 0) = (r : EReal) := by
  rcases Nat.eq_zero_or_pos k with rfl | hk
  · exact ⟨0, le_rfl, by simp⟩
  · obtain ⟨r, hr, h⟩ := rsqrt_natCast_pos hk
    have hk' : (0 : ℝ) < (k : ℝ) := by exact_mod_cast hk
    exact ⟨r, hr, by rw [if_pos (by exact_mod_cast hk'), h]⟩

end Idealize.ShloMosaic.ScatterSum
end
-- ==== Proof.RefMlp.lean ====
/-
  THE REFERENCE'S TWO PERCEPTRON LAYERS, READ AT A NODE AND A COLUMN.

  Each layer of the reference is the same chain of whole-array operations: the node rows plus the aggregated
  neighbours' rows; a product with a weight matrix; a bias; the folded normalisation constant; a scale; a shift; a
  rectifier; and the same six steps once more with the second weight matrix. Every one of these operations is
  either pointwise or a product that contracts the feature axis only, so the entry at node p and column q of the
  layer's output depends on row p of the layer's input and on nothing else: it is the perceptron `GinSpec.mlpRow` of
  that row.

  The per-column vectors (bias, scale, shift) reach the [40000, 256] arrays through two broadcasts, [256] → [1, 256] →
  [40000, 256]; read at (p, q) such an array is the vector at q. The two scalar constants are broadcast from rank 0:
  the normalisation constant is the same word on both sides and is never evaluated; the rectifier's constant is the
  zero word, which is the extended real 0. A product read at (p, q) is the sum over the contracted index k of the
  left operand at (p, k) times the right at (k, q).

  The order of factors and summands is the reference's own: scale * ((product + bias) * constant) + shift.
-/
import proofs.«420224_j87299505258672_1_alg».proof.Proof.Gen.ReferenceIdeal.Read
import proofs.«420224_j87299505258672_1_alg».proof.Proof.Spec
import proofs.«420224_j87299505258672_1_alg».proof.Proof.LibDotAt
import proofs.«420224_j87299505258672_1_alg».proof.Proof.LibScatterSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.RefMlp

open Cert.ReferenceIdeal Cert.ReferenceIdeal.Read

/-! ## The first layer -/

section Layer1

variable (x0 : (⟨S40000x128, .f32⟩ : BufTy).Contents (Elt Ideal)) (x1 : (⟨S2x640000, .i32⟩ : BufTy).Contents (Elt Ideal))
  (x3 : (⟨S128x256, .f32⟩ : BufTy).Contents (Elt Ideal)) (x4 x5 x6 : (⟨S256, .f32⟩ : BufTy).Contents (Elt Ideal))
  (x7 : (⟨S256x256, .f32⟩ : BufTy).Contents (Elt Ideal)) (x8 x9 x10 : (⟨S256, .f32⟩ : BufTy).Contents (Elt Ideal))

/-- The first product's left operand index at output (p, q) and contracted index k is (p, k). -/
theorem l1_lidx1_at (p : Fin 40000) (q : Fin 256) (k : Fin 128) : lidx_main_v21 (ix2 p q) k = ix2 p k :=
  funext fun a => Fin.ext (by match a with | ⟨0, _⟩ => rfl | ⟨1, _⟩ => rfl)

/-- The first product's right operand index at output (p, q) and contracted index k is (k, q). -/
theorem l1_ridx1_at (p : Fin 40000) (q : Fin 256) (k : Fin 128) : ridx_main_v21 (ix2 p q) k = ix2 k q :=
  funext fun a => Fin.ext (by match a with | ⟨0, _⟩ => rfl | ⟨1, _⟩ => rfl)

/-- The second product's left operand index at output (p, q) and contracted index k is (p, k). -/
theorem l1_lidx2_at (p : Fin 40000) (q : Fin 256) (k : Fin 256) : lidx_main_v34 (ix2 p q) k = ix2 p k :=
  funext fun a => Fin.ext (by match a with | ⟨0, _⟩ => rfl | ⟨1, _⟩ => rfl)

/-- The second product's right operand index at output (p, q) and contracted index k is (k, q). -/
theorem l1_ridx2_at (p : Fin 40000) (q : Fin 256) (k : Fin 256) : ridx_main_v34 (ix2 p q) k = ix2 k q :=
  funext fun a => Fin.ext (by match a with | ⟨0, _⟩ => rfl | ⟨1, _⟩ => rfl)

/-- The first bias, broadcast along the nodes, at (p, q) is the bias at q. -/
theorem l1_bias1_at (p : Fin 40000) (q : Fin 256) : val_main_v23 (F := Ideal) x4 (ix2 p q) = x4 (ix1 q) := by
  rw [val_main_v23_apply, val_main_v22_apply]
  exact congrArg x4 (funext fun a => Fin.ext (by match a with | ⟨0, _⟩ => rfl))

/-- The first scale at (p, q) is the scale at q. -/
theorem l1_scale1_at (p : Fin 40000) (q : Fin 256) : val_main_v28 (F := Ideal) x5 (ix2 p q) = x5 (ix1 q) := by
  rw [val_main_v28_apply, val_main_v27_apply]
  exact congrArg x5 (funext fun a => Fin.ext (by match a with | ⟨0, _⟩ => rfl))

/-- The first shift at (p, q) is the shift at q. -/
theorem l1_shift1_at (p : Fin 40000) (q : Fin 256) : val_main_v31 (F := Ideal) x6 (ix2 p q) = x6 (ix1 q) := by
  rw [val_main_v31_apply, val_main_v30_apply]
  exact congrArg x6 (funext fun a => Fin.ext (by match a with | ⟨0, _⟩ => rfl))

/-- The second bias at (p, q) is the bias at q. -/
theorem l1_bias2_at (p : Fin 40000) (q : Fin 256) : val_main_v36 (F := Ideal) x8 (ix2 p q) = x8 (ix1 q) := by
  rw [val_main_v36_apply, val_main_v35_apply]
  exact congrArg x8 (funext fun a => Fin.ext (by match a with | ⟨0, _⟩ => rfl))

/-- The second scale at (p, q) is the scale at q. -/
theorem l1_scale2_at (p : Fin 40000) (q : Fin 256) : val_main_v41 (F := Ideal) x9 (ix2 p q) = x9 (ix1 q) := by
  rw [val_main_v41_apply, val_main_v40_apply]
  exact congrArg x9 (funext fun a => Fin.ext (by match a with | ⟨0, _⟩ => rfl))

/-- The second shift at (p, q) is the shift at q. -/
theorem l1_shift2_at (p : Fin 40000) (q : Fin 256) : val_main_v44 (F := Ideal) x10 (ix2 p q) = x10 (ix1 q) := by
  rw [val_main_v44_apply, val_main_v43_apply]
  exact congrArg x10 (funext fun a => Fin.ext (by match a with | ⟨0, _⟩ => rfl))

/-- The normalisation constant after the first product, at every (p, q). -/
theorem l1_const1_at (p : Fin 40000) (q : Fin 256) : val_main_v25 (F := Ideal) (ix2 p q) = GinSpec.cN := by
  rw [val_main_v25_apply, val_main_cst_4_apply]; rfl

/-- The normalisation constant after the second product, at every (p, q). -/
theorem l1_const2_at (p : Fin 40000) (q : Fin 256) : val_main_v38 (F := Ideal) (ix2 p q) = GinSpec.cN := by
  rw [val_main_v38_apply, val_main_cst_5_apply]; rfl

/-- The first rectifier's constant is 0 at every (p, q). -/
theorem l1_zero1_at (p : Fin 40000) (q : Fin 256) : val_main_call0_v0 (F := Ideal) (ix2 p q) = 0 := by
  rw [val_main_call0_v0_apply, val_main_call0_cst_apply, Ideal.ofBits_def, Ideal.ofBits_zero_f32]

/-- The second rectifier's constant is 0 at every (p, q). -/
theorem l1_zero2_at (p : Fin 40000) (q : Fin 256) : val_main_call1_v0 (F := Ideal) (ix2 p q) = 0 := by
  rw [val_main_call1_v0_apply, val_main_call1_cst_apply, Ideal.ofBits_def, Ideal.ofBits_zero_f32]

/-- The hidden activations of the first layer at node p and hidden column k: the rectified first dense layer of the
    node's row (its features plus the aggregated neighbours'). -/
theorem l1_hidden_at (p : Fin 40000) (k : Fin 256) :
    val_main_v33 (F := Ideal) x0 x1 x3 x4 x5 x6 (ix2 p k)
      = max (GinSpec.dense (fun j : Fin 128 => x0 (ix2 p j) + val_main_v19 (F := Ideal) x0 x1 (ix2 p j))
          (fun j k => x3 (ix2 j k)) (fun k => x4 (ix1 k)) (fun k => x5 (ix1 k)) (fun k => x6 (ix1 k)) k) 0 := by
  rw [val_main_v33_apply, val_main_v32_apply, val_main_v29_apply, val_main_v26_apply, val_main_v24_apply,
    val_main_v21_apply, l1_bias1_at, l1_scale1_at, l1_shift1_at, l1_const1_at, l1_zero1_at]
  simp only [l1_lidx1_at, l1_ridx1_at, val_main_v20_apply, Ideal.maximumf_def, Ideal.addf_def, Ideal.mulf_def]
  rfl

end Layer1

/-- The reference's first layer output (after its rectifier) at node p and column q: the perceptron of that node's row,
    the row being the node's features plus the aggregated neighbours' (the stage val_main_v19, left unopened). -/
theorem h1_at (x0 : (⟨S40000x128, .f32⟩ : BufTy).Contents (Elt Ideal)) (x1 : (⟨S2x640000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (p : Fin 40000) (q : Fin 256) :
    val_main_v46 (F := Ideal) x0 x1 x3 x4 x5 x6 x7 x8 x9 x10 (ix2 p q)
      = GinSpec.mlpRow (fun j : Fin 128 => x0 (ix2 p j) + val_main_v19 (F := Ideal) x0 x1 (ix2 p j))
          (fun j k => x3 (ix2 j k)) (fun k => x4 (ix1 k)) (fun k => x5 (ix1 k)) (fun k => x6 (ix1 k))
          (fun k q' => x7 (ix2 k q')) (fun k => x8 (ix1 k)) (fun k => x9 (ix1 k)) (fun k => x10 (ix1 k)) q := by
  rw [val_main_v46_apply, val_main_v45_apply, val_main_v42_apply, val_main_v39_apply, val_main_v37_apply,
    val_main_v34_apply, l1_bias2_at, l1_scale2_at, l1_shift2_at, l1_const2_at, l1_zero2_at]
  simp only [l1_lidx2_at, l1_ridx2_at, l1_hidden_at, Ideal.maximumf_def, Ideal.addf_def, Ideal.mulf_def]
  rfl

/-! ## The second layer: the same chain over the first layer's output, with its own weights -/

section Layer2

variable (x0 : (⟨S40000x128, .f32⟩ : BufTy).Contents (Elt Ideal)) (x1 : (⟨S2x640000, .i32⟩ : BufTy).Contents (Elt Ideal))
  (x3 : (⟨S128x256, .f32⟩ : BufTy).Contents (Elt Ideal)) (x4 x5 x6 : (⟨S256, .f32⟩ : BufTy).Contents (Elt Ideal))
  (x7 : (⟨S256x256, .f32⟩ : BufTy).Contents (Elt Ideal)) (x8 x9 x10 : (⟨S256, .f32⟩ : BufTy).Contents (Elt Ideal))
  (x11 : (⟨S256x256, .f32⟩ : BufTy).Contents (Elt Ideal)) (x12 x13 x14 : (⟨S256, .f32⟩ : BufTy).Contents (Elt Ideal))
  (x15 : (⟨S256x256, .f32⟩ : BufTy).Contents (Elt Ideal)) (x16 x17 x18 : (⟨S256, .f32⟩ : BufTy).Contents (Elt Ideal))

/-- The first product's left operand index at output (p, q) and contracted index k is (p, k). -/
theorem l2_lidx1_at (p : Fin 40000) (q : Fin 256) (k : Fin 256) : lidx_main_v63 (ix2 p q) k = ix2 p k :=
  funext fun a => Fin.ext (by match a with | ⟨0, _⟩ => rfl | ⟨1, _⟩ => rfl)

/-- The first product's right operand index at output (p, q) and contracted index k is (k, q). -/
theorem l2_ridx1_at (p : Fin 40000) (q : Fin 256) (k : Fin 256) : ridx_main_v63 (ix2 p q) k = ix2 k q :=
  funext fun a => Fin.ext (by match a with | ⟨0, _⟩ => rfl | ⟨1, _⟩ => rfl)

/-- The second product's left operand index at output (p, q) and contracted index k is (p, k). -/
theorem l2_lidx2_at (p : Fin 40000) (q : Fin 256) (k : Fin 256) : lidx_main_v76 (ix2 p q) k = ix2 p k :=
  funext fun a => Fin.ext (by match a with | ⟨0, _⟩ => rfl | ⟨1, _⟩ => rfl)

/-- The second product's right operand index at output (p, q) and contracted index k is (k, q). -/
theorem l2_ridx2_at (p : Fin 40000) (q : Fin 256) (k : Fin 256) : ridx_main_v76 (ix2 p q) k = ix2 k q :=
  funext fun a => Fin.ext (by match a with | ⟨0, _⟩ => rfl | ⟨1, _⟩ => rfl)

/-- The first bias at (p, q) is the bias at q. -/
theorem l2_bias1_at (p : Fin 40000) (q : Fin 256) : val_main_v65 (F := Ideal) x12 (ix2 p q) = x12 (ix1 q) := by
  rw [val_main_v65_apply, val_main_v64_apply]
  exact congrArg x12 (funext fun a => Fin.ext (by match a with | ⟨0, _⟩ => rfl))

/-- The first scale at (p, q) is the scale at q. -/
theorem l2_scale1_at (p : Fin 40000) (q : Fin 256) : val_main_v70 (F := Ideal) x13 (ix2 p q) = x13 (ix1 q) := by
  rw [val_main_v70_apply, val_main_v69_apply]
  exact congrArg x13 (funext fun a => Fin.ext (by match a with | ⟨0, _⟩ => rfl))

/-- The first shift at (p, q) is the shift at q. -/
theorem l2_shift1_at (p : Fin 40000) (q : Fin 256) : val_main_v73 (F := Ideal) x14 (ix2 p q) = x14 (ix1 q) := by
  rw [val_main_v73_apply, val_main_v72_apply]
  exact congrArg x14 (funext fun a => Fin.ext (by match a with | ⟨0, _⟩ => rfl))

/-- The second bias at (p, q) is the bias at q. -/
theorem l2_bias2_at (p : Fin 40000) (q : Fin 256) : val_main_v78 (F := Ideal) x16 (ix2 p q) = x16 (ix1 q) := by
  rw [val_main_v78_apply, val_main_v77_apply]
  exact congrArg x16 (funext fun a => Fin.ext (by match a with | ⟨0, _⟩ => rfl))

/-- The second scale at (p, q) is the scale at q. -/
theorem l2_scale2_at (p : Fin 40000) (q : Fin 256) : val_main_v83 (F := Ideal) x17 (ix2 p q) = x17 (ix1 q) := by
  rw [val_main_v83_apply, val_main_v82_apply]
  exact congrArg x17 (funext fun a => Fin.ext (by match a with | ⟨0, _⟩ => rfl))

/-- The second shift at (p, q) is the shift at q. -/
theorem l2_shift2_at (p : Fin 40000) (q : Fin 256) : val_main_v86 (F := Ideal) x18 (ix2 p q) = x18 (ix1 q) := by
  rw [val_main_v86_apply, val_main_v85_apply]
  exact congrArg x18 (funext fun a => Fin.ext (by match a with | ⟨0, _⟩ => rfl))

/-- The normalisation constant after the first product, at every (p, q). -/
theorem l2_const1_at (p : Fin 40000) (q : Fin 256) : val_main_v67 (F := Ideal) (ix2 p q) = GinSpec.cN := by
  rw [val_main_v67_apply, val_main_cst_10_apply]; rfl

/-- The normalisation constant after the second product, at every (p, q). -/
theorem l2_const2_at (p : Fin 40000) (q : Fin 256) : val_main_v80 (F := Ideal) (ix2 p q) = GinSpec.cN := by
  rw [val_main_v80_apply, val_main_cst_11_apply]; rfl

/-- The first rectifier's constant is 0 at every (p, q). -/
theorem l2_zero1_at (p : Fin 40000) (q : Fin 256) : val_main_call2_v0 (F := Ideal) (ix2 p q) = 0 := by
  rw [val_main_call2_v0_apply, val_main_call2_cst_apply, Ideal.ofBits_def, Ideal.ofBits_zero_f32]

/-- The second rectifier's constant is 0 at every (p, q). -/
theorem l2_zero2_at (p : Fin 40000) (q : Fin 256) : val_main_call3_v0 (F := Ideal) (ix2 p q) = 0 := by
  rw [val_main_call3_v0_apply, val_main_call3_cst_apply, Ideal.ofBits_def, Ideal.ofBits_zero_f32]

/-- The hidden activations of the second layer at node p and hidden column k: the rectified first dense layer of the
    node's row (the first layer's output plus its aggregated neighbours'). -/
theorem l2_hidden_at (p : Fin 40000) (k : Fin 256) :
    val_main_v75 (F := Ideal) x0 x1 x3 x4 x5 x6 x7 x8 x9 x10 x11 x12 x13 x14 (ix2 p k)
      = max (GinSpec.dense (fun j : Fin 256 => val_main_v46 (F := Ideal) x0 x1 x3 x4 x5 x6 x7 x8 x9 x10 (ix2 p j)
            + val_main_v61 (F := Ideal) x0 x1 x3 x4 x5 x6 x7 x8 x9 x10 (ix2 p j))
          (fun j k => x11 (ix2 j k)) (fun k => x12 (ix1 k)) (fun k => x13 (ix1 k)) (fun k => x14 (ix1 k)) k) 0 := by
  rw [val_main_v75_apply, val_main_v74_apply, val_main_v71_apply, val_main_v68_apply, val_main_v66_apply,
    val_main_v63_apply, l2_bias1_at, l2_scale1_at, l2_shift1_at, l2_const1_at, l2_zero1_at]
  simp only [l2_lidx1_at, l2_ridx1_at, val_main_v62_apply, Ideal.maximumf_def, Ideal.addf_def, Ideal.mulf_def]
  rfl

end Layer2

/-- The reference's second layer output at node p and column q: the same perceptron, with the second layer's weights, of
    the first layer's row plus its aggregated neighbours' (the stages val_main_v46 and val_main_v61, left unopened). -/
theorem h2_at (x0 : (⟨S40000x128, .f32⟩ : BufTy).Contents (Elt Ideal)) (x1 : (⟨S2x640000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x256, .f32⟩ : BufTy).Contents (Elt Ideal)) (x12 x13 x14 : (⟨S256, .f32⟩ : BufTy).Contents (Elt Ideal)) (x15 : (⟨S256x256, .f32⟩ : BufTy).Contents (Elt Ideal)) (x16 x17 x18 : (⟨S256, .f32⟩ : BufTy).Contents (Elt Ideal)) (p : Fin 40000) (q : Fin 256) :
    val_main_v88 (F := Ideal) x0 x1 x3 x4 x5 x6 x7 x8 x9 x10 x11 x12 x13 x14 x15 x16 x17 x18 (ix2 p q)
      = GinSpec.mlpRow (fun j : Fin 256 => val_main_v46 (F := Ideal) x0 x1 x3 x4 x5 x6 x7 x8 x9 x10 (ix2 p j) + val_main_v61 (F := Ideal) x0 x1 x3 x4 x5 x6 x7 x8 x9 x10 (ix2 p j))
          (fun j k => x11 (ix2 j k)) (fun k => x12 (ix1 k)) (fun k => x13 (ix1 k)) (fun k => x14 (ix1 k))
          (fun k q' => x15 (ix2 k q')) (fun k => x16 (ix1 k)) (fun k => x17 (ix1 k)) (fun k => x18 (ix1 k)) q := by
  rw [val_main_v88_apply, val_main_v87_apply, val_main_v84_apply, val_main_v81_apply, val_main_v79_apply,
    val_main_v76_apply, l2_bias2_at, l2_scale2_at, l2_shift2_at, l2_const2_at, l2_zero2_at]
  simp only [l2_lidx2_at, l2_ridx2_at, l2_hidden_at, Ideal.maximumf_def, Ideal.addf_def, Ideal.mulf_def]
  rfl

end Cert.ReferenceIdeal.RefMlp

end
-- ==== Proof.RefPool.lean ====
/-
  THE REFERENCE'S TWO SEGMENT SUMS, READ AT A GRAPH AND A COLUMN.

  Each pooling step of the reference scatters the rows of a layer's output, with addition, into a zero [64, 256] array,
  the row of node e going to the row named by that node's graph id (the ids are first laid out as a [40000, 1]
  column). An id is read as a SIGNED integer and is not clamped: an id outside 0..63 names no row and its node is
  dropped. So the entry at graph g and column q is 0 plus the sum, over the nodes e whose signed id is g, of the
  layer's output at (e, q). That filtered sum is the product with the 0/1 membership matrix
  (`GinSpec.pool_onehot_eq_filter`), which is how the specification writes pooling.

  The dimension numbers of the reference's scatter are those of the general accumulating row scatter, field by field,
  so the general read of that scatter at an index applies. The layer's output stays an opaque array throughout: the
  statement holds for whatever array is scattered.
-/
import proofs.«420224_j87299505258672_1_alg».proof.Proof.Gen.ReferenceIdeal.Read
import proofs.«420224_j87299505258672_1_alg».proof.Proof.Spec
import proofs.«420224_j87299505258672_1_alg».proof.Proof.LibDotAt
import proofs.«420224_j87299505258672_1_alg».proof.Proof.LibScatterSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open scoped BigOperators

namespace Cert.ReferenceIdeal.RefPool

open Cert.ReferenceIdeal Cert.ReferenceIdeal.Read

/-- The scatter's dimension numbers are those of an accumulating row scatter of 40000 rows of width 256 into 64 rows. -/
theorem pool_dims_eq : scatter_S64x256_S40000x1_S40000x256_1_0_0_1
    = ScatterSum.rowScatterDims 64 256 40000 Facts₀.scatter_S64x256_S40000x1_S40000x256_1_0_0_1_wf := rfl

/-- The first pooling's column of graph ids at (e, 0) is node e's id. -/
theorem pool0_ids_at (x2 : (⟨S40000, .i32⟩ : BufTy).Contents (Elt Ideal)) (e : Fin 40000) :
    val_main_v48 (F := Ideal) x2 (ix2 e (0 : Fin 1)) = x2 (ix1 e) := by
  rw [val_main_v48_apply]
  exact congrArg x2 (funext fun a => Fin.ext (by match a with | ⟨0, _⟩ => rfl))

/-- The array the first pooling accumulates into is 0 at every (g, q). -/
theorem pool0_zero_at (g : Fin 64) (q : Fin 256) : val_main_v47 (F := Ideal) (ix2 g q) = 0 := by
  rw [val_main_v47_apply, val_main_cst_6_apply, Ideal.ofBits_def, Ideal.ofBits_zero_f32]

/-- The second pooling's column of graph ids at (e, 0) is node e's id. -/
theorem pool1_ids_at (x2 : (⟨S40000, .i32⟩ : BufTy).Contents (Elt Ideal)) (e : Fin 40000) :
    val_main_v90 (F := Ideal) x2 (ix2 e (0 : Fin 1)) = x2 (ix1 e) := by
  rw [val_main_v90_apply]
  exact congrArg x2 (funext fun a => Fin.ext (by match a with | ⟨0, _⟩ => rfl))

/-- The array the second pooling accumulates into is 0 at every (g, q). -/
theorem pool1_zero_at (g : Fin 64) (q : Fin 256) : val_main_v89 (F := Ideal) (ix2 g q) = 0 := by
  rw [val_main_v89_apply, val_main_cst_12_apply, Ideal.ofBits_def, Ideal.ofBits_zero_f32]

/-- The reference's first segment sum at graph g and column q: the one-hot pooling of the first layer's column q. -/
theorem pool0_at (x0 : (⟨S40000x128, .f32⟩ : BufTy).Contents (Elt Ideal)) (x1 : (⟨S2x640000, .i32⟩ : BufTy).Contents (Elt Ideal)) (x2 : (⟨S40000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (g : Fin 64) (q : Fin 256) :
    val_main_v49 (F := Ideal) x0 x1 x2 x3 x4 x5 x6 x7 x8 x9 x10 (ix2 g q)
      = GinSpec.poolOnehot (fun i => x2 (ix1 i)) (fun i => val_main_v46 (F := Ideal) x0 x1 x3 x4 x5 x6 x7 x8 x9 x10 (ix2 i q)) g := by
  unfold val_main_v49
  -- the scattered array is named, not opened: the read below holds for any array of updates
  generalize val_main_v46 (F := Ideal) x0 x1 x3 x4 x5 x6 x7 x8 x9 x10 = h
  rw [pool_dims_eq, ScatterSum.rowHostScatterAdd_apply, pool0_zero_at, GinSpec.pool_onehot_eq_filter]
  simp only [pool0_ids_at]

/-- The reference's second segment sum at graph g and column q: the one-hot pooling of the second layer's column q. -/
theorem pool1_at (x0 : (⟨S40000x128, .f32⟩ : BufTy).Contents (Elt Ideal)) (x1 : (⟨S2x640000, .i32⟩ : BufTy).Contents (Elt Ideal)) (x2 : (⟨S40000, .i32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x256, .f32⟩ : BufTy).Contents (Elt Ideal)) (x12 x13 x14 : (⟨S256, .f32⟩ : BufTy).Contents (Elt Ideal)) (x15 : (⟨S256x256, .f32⟩ : BufTy).Contents (Elt Ideal)) (x16 x17 x18 : (⟨S256, .f32⟩ : BufTy).Contents (Elt Ideal)) (g : Fin 64) (q : Fin 256) :
    val_main_v91 (F := Ideal) x0 x1 x2 x3 x4 x5 x6 x7 x8 x9 x10 x11 x12 x13 x14 x15 x16 x17 x18 (ix2 g q)
      = GinSpec.poolOnehot (fun i => x2 (ix1 i)) (fun i => val_main_v88 (F := Ideal) x0 x1 x3 x4 x5 x6 x7 x8 x9 x10 x11 x12 x13 x14 x15 x16 x17 x18 (ix2 i q)) g := by
  unfold val_main_v91
  -- the scattered array is named, not opened: the read below holds for any array of updates
  generalize val_main_v88 (F := Ideal) x0 x1 x3 x4 x5 x6 x7 x8 x9 x10 x11 x12 x13 x14 x15 x16 x17 x18 = h
  rw [pool_dims_eq, ScatterSum.rowHostScatterAdd_apply, pool1_zero_at, GinSpec.pool_onehot_eq_filter]
  simp only [pool1_ids_at]

end Cert.ReferenceIdeal.RefPool

end
-- ==== Proof.KLayers.lean ====
/-
  THE IDEALIZED KERNEL, BOUNDARY BY BOUNDARY. @main is: a host stretch, the first perceptron region, the first pooling
  region, a host stretch (the first quotient by the graph sizes; the second aggregation), the second perceptron region,
  the second pooling region, a host stretch (the second quotient, the concatenation, the readout). At each boundary the
  buffer a later step reads holds the reference program's stage of the launch arrays:
    after the first perceptron region, its output is the reference's first layer (the region's value at a node is the
      perceptron of that node's row, and so is the reference's: the same function of the same row);
    after the first pooling region, its output is the reference's first segment sum (the region sums membership times
      value over all nodes; the reference's segment sum is the same number on the extended reals);
    the host stretch in between applies to them the operations the reference applies, so its results are the
      reference's stages by the same term;
    and likewise for the second layer. The last stretch's result is the reference's result; the two programs ask for
  different precisions of the last product, which changes nothing about an exact product.
-/
import proofs.«420224_j87299505258672_1_alg».proof.Proof.Gen.KernelIdeal.Frame
import proofs.«420224_j87299505258672_1_alg».proof.Proof.Gen.ReferenceIdeal.Read
import proofs.«420224_j87299505258672_1_alg».proof.Proof.Spec
import proofs.«420224_j87299505258672_1_alg».proof.Proof.KEntry
import proofs.«420224_j87299505258672_1_alg».proof.Proof.KMlp0
import proofs.«420224_j87299505258672_1_alg».proof.Proof.KMlp2
import proofs.«420224_j87299505258672_1_alg».proof.Proof.KPool1
import proofs.«420224_j87299505258672_1_alg».proof.Proof.KPool3
import proofs.«420224_j87299505258672_1_alg».proof.Proof.RefMlp
import proofs.«420224_j87299505258672_1_alg».proof.Proof.RefPool
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Layers

open Cert.KernelIdeal Cert.KernelIdeal.Gen
open Cert.ReferenceIdeal.Read (val_main_v1 val_main_v3 val_main_v9 val_main_v19 val_main_v46 val_main_v49 val_main_v51
  val_main_v61 val_main_v88 val_main_v91 val_main_v93 val_main_v98)
open Cert.ReferenceIdeal (RefMlp.h1_at RefMlp.h2_at RefPool.pool0_at RefPool.pool1_at)

variable (m : (ℓ : Loc nD τ sig) → Buf (Elt Ideal) ℓ) (ρ : Dev nD → PrngReg)

/-! ## The launch arrays, by name -/

abbrev x0 (c : Dev nD) := m ((c.tc : Thread nD τ).loc main_arg0)
abbrev x1 (c : Dev nD) := m ((c.tc : Thread nD τ).loc main_arg1)
abbrev x2 (c : Dev nD) := m ((c.tc : Thread nD τ).loc main_arg2)
abbrev x3 (c : Dev nD) := m ((c.tc : Thread nD τ).loc main_arg3)
abbrev x4 (c : Dev nD) := m ((c.tc : Thread nD τ).loc main_arg4)
abbrev x5 (c : Dev nD) := m ((c.tc : Thread nD τ).loc main_arg5)
abbrev x6 (c : Dev nD) := m ((c.tc : Thread nD τ).loc main_arg6)
abbrev x7 (c : Dev nD) := m ((c.tc : Thread nD τ).loc main_arg7)
abbrev x8 (c : Dev nD) := m ((c.tc : Thread nD τ).loc main_arg8)
abbrev x9 (c : Dev nD) := m ((c.tc : Thread nD τ).loc main_arg9)
abbrev x10 (c : Dev nD) := m ((c.tc : Thread nD τ).loc main_arg10)
abbrev x11 (c : Dev nD) := m ((c.tc : Thread nD τ).loc main_arg11)
abbrev x12 (c : Dev nD) := m ((c.tc : Thread nD τ).loc main_arg12)
abbrev x13 (c : Dev nD) := m ((c.tc : Thread nD τ).loc main_arg13)
abbrev x14 (c : Dev nD) := m ((c.tc : Thread nD τ).loc main_arg14)
abbrev x15 (c : Dev nD) := m ((c.tc : Thread nD τ).loc main_arg15)
abbrev x16 (c : Dev nD) := m ((c.tc : Thread nD τ).loc main_arg16)
abbrev x17 (c : Dev nD) := m ((c.tc : Thread nD τ).loc main_arg17)
abbrev x18 (c : Dev nD) := m ((c.tc : Thread nD τ).loc main_arg18)
abbrev x19 (c : Dev nD) := m ((c.tc : Thread nD τ).loc main_arg19)
abbrev x20 (c : Dev nD) := m ((c.tc : Thread nD τ).loc main_arg20)

/-- A vector kept as a [1, 256] row, read along the row, is the vector. -/
theorem rows (v : S256.Idx → EReal) :
    (fun k : Fin 256 => shapeCast S1x256 v shapeCasts_S256_S1x256 (ix2 (0 : Fin 1) k)) = fun k => v (ix1 k) :=
  funext fun k => Entry.row_apply v k

/-! ## The first layer -/

/-- After the first perceptron region its output array is the reference's first layer. -/
theorem h1 (c : Dev nD) : V2 m ρ c main_v33 = val_main_v46 (F := Ideal) (x0 m c) (x1 m c) (x3 m c) (x4 m c) (x5 m c) (x6 m c) (x7 m c) (x8 m c) (x9 m c) (x10 m c) := by
  refine (W2_arr m ρ c 10).trans ?_
  show Mlp0.aOut (V1 m ρ) c = _
  funext i
  obtain ⟨p, q, rfl⟩ : ∃ (p : Fin 40000) (q : Fin 256), i = ix2 p q := ⟨i 0, i 1, eq_ix2 i⟩
  rw [Mlp0.value (V1 m ρ) c p q, Cert.ReferenceIdeal.RefMlp.h1_at]
  have e0 : Mlp0.aX (V1 m ρ) c = x0 m c := Entry.x_at_entry m ρ c
  have e1 : Mlp0.aAgg (V1 m ρ) c = val_main_v19 (F := Ideal) (x0 m c) (x1 m c) := Entry.agg_at_entry m ρ c
  have e2 : Mlp0.aW1 (V1 m ρ) c = x3 m c := Entry.w1_at_entry m ρ c
  have e3 : Mlp0.aB1 (V1 m ρ) c = shapeCast S1x256 (x4 m c) shapeCasts_S256_S1x256 := Entry.b1_at_entry m ρ c
  have e4 : Mlp0.aG1 (V1 m ρ) c = shapeCast S1x256 (x5 m c) shapeCasts_S256_S1x256 := Entry.g1_at_entry m ρ c
  have e5 : Mlp0.aBe1 (V1 m ρ) c = shapeCast S1x256 (x6 m c) shapeCasts_S256_S1x256 := Entry.be1_at_entry m ρ c
  have e6 : Mlp0.aW2 (V1 m ρ) c = x7 m c := Entry.w2_at_entry m ρ c
  have e7 : Mlp0.aB2 (V1 m ρ) c = shapeCast S1x256 (x8 m c) shapeCasts_S256_S1x256 := Entry.b2_at_entry m ρ c
  have e8 : Mlp0.aG2 (V1 m ρ) c = shapeCast S1x256 (x9 m c) shapeCasts_S256_S1x256 := Entry.g2_at_entry m ρ c
  have e9 : Mlp0.aBe2 (V1 m ρ) c = shapeCast S1x256 (x10 m c) shapeCasts_S256_S1x256 := Entry.be2_at_entry m ρ c
  rw [e0, e1, e2, e3, e4, e5, e6, e7, e8, e9]
  rw [rows (x4 m c), rows (x5 m c), rows (x6 m c), rows (x8 m c), rows (x9 m c), rows (x10 m c)]

/-- The membership matrix passes the first perceptron region unchanged. -/
theorem onehot2 (c : Dev nD) (i : Fin 40000) (g : Fin 64) :
    (V2 m ρ c main_v16 : S40000x64.Idx → EReal) (ix2 i g) = GinSpec.member (x2 m c (ix1 i)) g := by
  rw [show V2 m ρ c main_v16 = V1 m ρ c main_v16 from W2_of_ne m ρ c main_v16 (by decide)]
  exact Entry.onehot_apply m ρ c i g

/-- After the first pooling region its output array is the reference's first segment sum. -/
theorem pool0 (c : Dev nD) : V3 m ρ c main_v34 = val_main_v49 (F := Ideal) (x0 m c) (x1 m c) (x2 m c) (x3 m c) (x4 m c) (x5 m c) (x6 m c) (x7 m c) (x8 m c) (x9 m c) (x10 m c) := by
  refine (W3_arr m ρ c 2).trans ?_
  show Pool1.aOut (V2 m ρ) c = _
  funext i
  obtain ⟨g, q, rfl⟩ : ∃ (g : Fin 64) (q : Fin 256), i = ix2 g q := ⟨i 0, i 1, eq_ix2 i⟩
  rw [Pool1.value (V2 m ρ) c g q, Cert.ReferenceIdeal.RefPool.pool0_at]
  unfold GinSpec.poolOnehot
  refine Finset.sum_congr rfl fun i _ => ?_
  have eH : Pool1.aH (V2 m ρ) c = val_main_v46 (F := Ideal) (x0 m c) (x1 m c) (x3 m c) (x4 m c) (x5 m c) (x6 m c) (x7 m c) (x8 m c) (x9 m c) (x10 m c) := h1 m ρ c
  have eO : (Pool1.aOh (V2 m ρ) c (ix2 i g) : EReal) = GinSpec.member (x2 m c (ix1 i)) g := onehot2 m ρ c i g
  rw [eH, eO]

/-! ## Between the layers -/

/-- The graph sizes pass the first two regions unchanged. -/
theorem cnt3 (c : Dev nD) : W3 m ρ c (Proc.devRef .tc main_v9) = val_main_v9 (F := Ideal) (x2 m c) :=
  (W3_of_ne m ρ c main_v9 (by decide)).trans ((W2_of_ne m ρ c main_v9 (by decide)).trans (Entry.cnt_at_entry m ρ c))

/-- The source ids pass the first two regions unchanged. -/
theorem src3 (c : Dev nD) : W3 m ρ c (Proc.devRef .tc main_v1) = val_main_v1 (F := Ideal) (x1 m c) :=
  (W3_of_ne m ρ c main_v1 (by decide)).trans ((W2_of_ne m ρ c main_v1 (by decide)).trans (Entry.src_at_entry m ρ c))

/-- The destination ids pass the first two regions unchanged. -/
theorem dst3 (c : Dev nD) : W3 m ρ c (Proc.devRef .tc main_v3) = val_main_v3 (F := Ideal) (x1 m c) :=
  (W3_of_ne m ρ c main_v3 (by decide)).trans ((W2_of_ne m ρ c main_v3 (by decide)).trans (Entry.dst_at_entry m ρ c))

/-- The first layer's output, an input of the pooling region, passes it unchanged. -/
theorem h1_3 (c : Dev nD) : W3 m ρ c (Proc.devRef .tc main_v33) = val_main_v46 (F := Ideal) (x0 m c) (x1 m c) (x3 m c) (x4 m c) (x5 m c) (x6 m c) (x7 m c) (x8 m c) (x9 m c) (x10 m c) :=
  (W3_arr m ρ c 1).trans (((dat1 (V2 m ρ) c).arrAt_in 1 rfl _).trans ((A_eq1 (V2 m ρ) c 1).trans (h1 m ρ c)))

/-- The membership matrix, an input of the pooling region, passes it unchanged. -/
theorem onehot3 (c : Dev nD) : W3 m ρ c (Proc.devRef .tc main_v16) = V2 m ρ c main_v16 :=
  (W3_arr m ρ c 0).trans (((dat1 (V2 m ρ) c).arrAt_in 0 rfl _).trans (A_eq1 (V2 m ρ) c 0))

/-- The first pooled mean: the segment sum over the graph sizes, the reference's stage. -/
theorem pooled0 (c : Dev nD) : W4 m ρ c (Proc.devRef .tc main_v36) = val_main_v51 (F := Ideal) (x0 m c) (x1 m c) (x2 m c) (x3 m c) (x4 m c) (x5 m c) (x6 m c) (x7 m c) (x8 m c) (x9 m c) (x10 m c) := by
  show StableHlo.after hostOps2 (W3 m ρ c) (Proc.devRef .tc main_v36) = _
  after_results_simp
  rw [show W3 m ρ c (Proc.devRef .tc main_v34) = val_main_v49 (F := Ideal) (x0 m c) (x1 m c) (x2 m c) (x3 m c) (x4 m c) (x5 m c) (x6 m c) (x7 m c) (x8 m c) (x9 m c) (x10 m c) from pool0 m ρ c, cnt3]
  rfl

/-- The second aggregation: the reference's stage. -/
theorem agg1 (c : Dev nD) : V4 m ρ c main_v46 = val_main_v61 (F := Ideal) (x0 m c) (x1 m c) (x3 m c) (x4 m c) (x5 m c) (x6 m c) (x7 m c) (x8 m c) (x9 m c) (x10 m c) := by
  show StableHlo.after hostOps2 (W3 m ρ c) (Proc.devRef .tc main_v46) = _
  after_results_simp
  rw [dst3, h1_3, src3]
  rfl

/-- The first layer's output at the second perceptron region's entry. -/
theorem h1_4 (c : Dev nD) : V4 m ρ c main_v33 = val_main_v46 (F := Ideal) (x0 m c) (x1 m c) (x3 m c) (x4 m c) (x5 m c) (x6 m c) (x7 m c) (x8 m c) (x9 m c) (x10 m c) := by
  show StableHlo.after hostOps2 (W3 m ρ c) (Proc.devRef .tc main_v33) = _
  after_results_simp
  exact h1_3 m ρ c

/-! ## The second layer -/

/-- A launch array that no region before the second host stretch has as an array passes them unchanged. -/
theorem w3_3 (c : Dev nD) : W3 m ρ c (Proc.devRef .tc main_arg11) = x11 m c :=
  (W3_of_ne m ρ c main_arg11 (by decide)).trans ((W2_of_ne m ρ c main_arg11 (by decide)).trans (Entry.w3_at_entry m ρ c))
theorem b3_3 (c : Dev nD) : W3 m ρ c (Proc.devRef .tc main_arg12) = x12 m c :=
  (W3_of_ne m ρ c main_arg12 (by decide)).trans ((W2_of_ne m ρ c main_arg12 (by decide)).trans (Entry.b3_at_entry m ρ c))
theorem g3_3 (c : Dev nD) : W3 m ρ c (Proc.devRef .tc main_arg13) = x13 m c :=
  (W3_of_ne m ρ c main_arg13 (by decide)).trans ((W2_of_ne m ρ c main_arg13 (by decide)).trans (Entry.g3_at_entry m ρ c))
theorem be3_3 (c : Dev nD) : W3 m ρ c (Proc.devRef .tc main_arg14) = x14 m c :=
  (W3_of_ne m ρ c main_arg14 (by decide)).trans ((W2_of_ne m ρ c main_arg14 (by decide)).trans (Entry.be3_at_entry m ρ c))
theorem w4_3 (c : Dev nD) : W3 m ρ c (Proc.devRef .tc main_arg15) = x15 m c :=
  (W3_of_ne m ρ c main_arg15 (by decide)).trans ((W2_of_ne m ρ c main_arg15 (by decide)).trans (Entry.w4_at_entry m ρ c))
theorem b4_3 (c : Dev nD) : W3 m ρ c (Proc.devRef .tc main_arg16) = x16 m c :=
  (W3_of_ne m ρ c main_arg16 (by decide)).trans ((W2_of_ne m ρ c main_arg16 (by decide)).trans (Entry.b4_at_entry m ρ c))
theorem g4_3 (c : Dev nD) : W3 m ρ c (Proc.devRef .tc main_arg17) = x17 m c :=
  (W3_of_ne m ρ c main_arg17 (by decide)).trans ((W2_of_ne m ρ c main_arg17 (by decide)).trans (Entry.g4_at_entry m ρ c))
theorem be4_3 (c : Dev nD) : W3 m ρ c (Proc.devRef .tc main_arg18) = x18 m c :=
  (W3_of_ne m ρ c main_arg18 (by decide)).trans ((W2_of_ne m ρ c main_arg18 (by decide)).trans (Entry.be4_at_entry m ρ c))
theorem wout_3 (c : Dev nD) : W3 m ρ c (Proc.devRef .tc main_arg19) = x19 m c :=
  (W3_of_ne m ρ c main_arg19 (by decide)).trans ((W2_of_ne m ρ c main_arg19 (by decide)).trans (Entry.wout_at_entry m ρ c))
theorem bout_3 (c : Dev nD) : W3 m ρ c (Proc.devRef .tc main_arg20) = x20 m c :=
  (W3_of_ne m ρ c main_arg20 (by decide)).trans ((W2_of_ne m ρ c main_arg20 (by decide)).trans (Entry.bout_at_entry m ρ c))

/-- The second perceptron region's entry contents: the weights as launched, the vectors kept as rows. -/
theorem w3_4 (c : Dev nD) : V4 m ρ c main_arg11 = x11 m c := by
  show StableHlo.after hostOps2 (W3 m ρ c) (Proc.devRef .tc main_arg11) = _
  after_results_simp
  exact w3_3 m ρ c
theorem w4_4 (c : Dev nD) : V4 m ρ c main_arg15 = x15 m c := by
  show StableHlo.after hostOps2 (W3 m ρ c) (Proc.devRef .tc main_arg15) = _
  after_results_simp
  exact w4_3 m ρ c
theorem b3_4 (c : Dev nD) : V4 m ρ c main_v47 = shapeCast S1x256 (x12 m c) shapeCasts_S256_S1x256 := by
  show StableHlo.after hostOps2 (W3 m ρ c) (Proc.devRef .tc main_v47) = _
  after_results_simp
  rw [b3_3]
  rfl
theorem g3_4 (c : Dev nD) : V4 m ρ c main_v48 = shapeCast S1x256 (x13 m c) shapeCasts_S256_S1x256 := by
  show StableHlo.after hostOps2 (W3 m ρ c) (Proc.devRef .tc main_v48) = _
  after_results_simp
  rw [g3_3]
  rfl
theorem be3_4 (c : Dev nD) : V4 m ρ c main_v49 = shapeCast S1x256 (x14 m c) shapeCasts_S256_S1x256 := by
  show StableHlo.after hostOps2 (W3 m ρ c) (Proc.devRef .tc main_v49) = _
  after_results_simp
  rw [be3_3]
  rfl
theorem b4_4 (c : Dev nD) : V4 m ρ c main_v50 = shapeCast S1x256 (x16 m c) shapeCasts_S256_S1x256 := by
  show StableHlo.after hostOps2 (W3 m ρ c) (Proc.devRef .tc main_v50) = _
  after_results_simp
  rw [b4_3]
  rfl
theorem g4_4 (c : Dev nD) : V4 m ρ c main_v51 = shapeCast S1x256 (x17 m c) shapeCasts_S256_S1x256 := by
  show StableHlo.after hostOps2 (W3 m ρ c) (Proc.devRef .tc main_v51) = _
  after_results_simp
  rw [g4_3]
  rfl
theorem be4_4 (c : Dev nD) : V4 m ρ c main_v52 = shapeCast S1x256 (x18 m c) shapeCasts_S256_S1x256 := by
  show StableHlo.after hostOps2 (W3 m ρ c) (Proc.devRef .tc main_v52) = _
  after_results_simp
  rw [be4_3]
  rfl

/-- After the second perceptron region its output array is the reference's second layer. -/
theorem h2 (c : Dev nD) : V5 m ρ c main_v53 = val_main_v88 (F := Ideal) (x0 m c) (x1 m c) (x3 m c) (x4 m c) (x5 m c) (x6 m c) (x7 m c) (x8 m c) (x9 m c) (x10 m c) (x11 m c) (x12 m c) (x13 m c) (x14 m c) (x15 m c) (x16 m c) (x17 m c) (x18 m c) := by
  refine (W5_arr m ρ c 10).trans ?_
  show Mlp2.aOut (V4 m ρ) c = _
  funext i
  obtain ⟨p, q, rfl⟩ : ∃ (p : Fin 40000) (q : Fin 256), i = ix2 p q := ⟨i 0, i 1, eq_ix2 i⟩
  rw [Mlp2.value (V4 m ρ) c p q, Cert.ReferenceIdeal.RefMlp.h2_at]
  have e0 : Mlp2.aX (V4 m ρ) c = val_main_v46 (F := Ideal) (x0 m c) (x1 m c) (x3 m c) (x4 m c) (x5 m c) (x6 m c) (x7 m c) (x8 m c) (x9 m c) (x10 m c) := h1_4 m ρ c
  have e1 : Mlp2.aAgg (V4 m ρ) c = val_main_v61 (F := Ideal) (x0 m c) (x1 m c) (x3 m c) (x4 m c) (x5 m c) (x6 m c) (x7 m c) (x8 m c) (x9 m c) (x10 m c) := agg1 m ρ c
  have e2 : Mlp2.aW1 (V4 m ρ) c = x11 m c := w3_4 m ρ c
  have e3 : Mlp2.aB1 (V4 m ρ) c = shapeCast S1x256 (x12 m c) shapeCasts_S256_S1x256 := b3_4 m ρ c
  have e4 : Mlp2.aG1 (V4 m ρ) c = shapeCast S1x256 (x13 m c) shapeCasts_S256_S1x256 := g3_4 m ρ c
  have e5 : Mlp2.aBe1 (V4 m ρ) c = shapeCast S1x256 (x14 m c) shapeCasts_S256_S1x256 := be3_4 m ρ c
  have e6 : Mlp2.aW2 (V4 m ρ) c = x15 m c := w4_4 m ρ c
  have e7 : Mlp2.aB2 (V4 m ρ) c = shapeCast S1x256 (x16 m c) shapeCasts_S256_S1x256 := b4_4 m ρ c
  have e8 : Mlp2.aG2 (V4 m ρ) c = shapeCast S1x256 (x17 m c) shapeCasts_S256_S1x256 := g4_4 m ρ c
  have e9 : Mlp2.aBe2 (V4 m ρ) c = shapeCast S1x256 (x18 m c) shapeCasts_S256_S1x256 := be4_4 m ρ c
  rw [e0, e1, e2, e3, e4, e5, e6, e7, e8, e9]
  rw [rows (x12 m c), rows (x13 m c), rows (x14 m c), rows (x16 m c), rows (x17 m c), rows (x18 m c)]

/-- The membership matrix at the second pooling region's entry: it has passed every step unchanged. -/
theorem onehot5 (c : Dev nD) (i : Fin 40000) (g : Fin 64) :
    (V5 m ρ c main_v16 : S40000x64.Idx → EReal) (ix2 i g) = GinSpec.member (x2 m c (ix1 i)) g := by
  have e4 : W4 m ρ c (Proc.devRef .tc main_v16) = W3 m ρ c (Proc.devRef .tc main_v16) := by
    show StableHlo.after hostOps2 (W3 m ρ c) (Proc.devRef .tc main_v16) = _
    after_results_simp
  rw [show V5 m ρ c main_v16 = V2 m ρ c main_v16 from
    (W5_of_ne m ρ c main_v16 (by decide)).trans (e4.trans (onehot3 m ρ c))]
  exact onehot2 m ρ c i g

/-- After the second pooling region its output array is the reference's second segment sum. -/
theorem pool1 (c : Dev nD) : V6 m ρ c main_v54 = val_main_v91 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) := by
  refine (W6_arr m ρ c 2).trans ?_
  show Pool3.aOut (V5 m ρ) c = _
  funext i
  obtain ⟨g, q, rfl⟩ : ∃ (g : Fin 64) (q : Fin 256), i = ix2 g q := ⟨i 0, i 1, eq_ix2 i⟩
  rw [Pool3.value (V5 m ρ) c g q, Cert.ReferenceIdeal.RefPool.pool1_at]
  unfold GinSpec.poolOnehot
  refine Finset.sum_congr rfl fun i _ => ?_
  have eH : Pool3.aH (V5 m ρ) c = val_main_v88 (F := Ideal) (x0 m c) (x1 m c) (x3 m c) (x4 m c) (x5 m c) (x6 m c) (x7 m c) (x8 m c) (x9 m c) (x10 m c) (x11 m c) (x12 m c) (x13 m c) (x14 m c) (x15 m c) (x16 m c) (x17 m c) (x18 m c) := h2 m ρ c
  have eO : (Pool3.aOh (V5 m ρ) c (ix2 i g) : EReal) = GinSpec.member (x2 m c (ix1 i)) g := onehot5 m ρ c i g
  rw [eH, eO]

/-! ## The readout -/

/-- A buffer the second host stretch does not write passes it, and the two regions after it that do not have it as an
    array, unchanged. -/
theorem pooled0_6 (c : Dev nD) : W6 m ρ c (Proc.devRef .tc main_v36) = val_main_v51 (F := Ideal) (x0 m c) (x1 m c) (x2 m c) (x3 m c) (x4 m c) (x5 m c) (x6 m c) (x7 m c) (x8 m c) (x9 m c) (x10 m c) :=
  (W6_of_ne m ρ c main_v36 (by decide)).trans ((W5_of_ne m ρ c main_v36 (by decide)).trans (pooled0 m ρ c))

theorem cnt6 (c : Dev nD) : W6 m ρ c (Proc.devRef .tc main_v9) = val_main_v9 (F := Ideal) (x2 m c) := by
  have e4 : W4 m ρ c (Proc.devRef .tc main_v9) = W3 m ρ c (Proc.devRef .tc main_v9) := by
    show StableHlo.after hostOps2 (W3 m ρ c) (Proc.devRef .tc main_v9) = _
    after_results_simp
  exact (W6_of_ne m ρ c main_v9 (by decide)).trans ((W5_of_ne m ρ c main_v9 (by decide)).trans (e4.trans (cnt3 m ρ c)))

theorem wout_6 (c : Dev nD) : W6 m ρ c (Proc.devRef .tc main_arg19) = x19 m c := by
  have e4 : W4 m ρ c (Proc.devRef .tc main_arg19) = W3 m ρ c (Proc.devRef .tc main_arg19) := by
    show StableHlo.after hostOps2 (W3 m ρ c) (Proc.devRef .tc main_arg19) = _
    after_results_simp
  exact (W6_of_ne m ρ c main_arg19 (by decide)).trans ((W5_of_ne m ρ c main_arg19 (by decide)).trans (e4.trans (wout_3 m ρ c)))

theorem bout_6 (c : Dev nD) : W6 m ρ c (Proc.devRef .tc main_arg20) = x20 m c := by
  have e4 : W4 m ρ c (Proc.devRef .tc main_arg20) = W3 m ρ c (Proc.devRef .tc main_arg20) := by
    show StableHlo.after hostOps2 (W3 m ρ c) (Proc.devRef .tc main_arg20) = _
    after_results_simp
  exact (W6_of_ne m ρ c main_arg20 (by decide)).trans ((W5_of_ne m ρ c main_arg20 (by decide)).trans (e4.trans (bout_3 m ρ c)))

/-- The second segment sum at the last region's exit. -/
theorem pool1_6 (c : Dev nD) : W6 m ρ c (Proc.devRef .tc main_v54) = val_main_v91 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) :=
  pool1 m ρ c

/-- An exact product does not depend on the precision it is asked at. -/
theorem readout_precision (l : FVec Ideal S64x512 .f32) (r : FVec Ideal S512x10 .f32) :
    Host.dotGeneral dot_S64x512_S512x10_S64x10_1_0_0_1_n_n (some .fp32) l r
      = Host.dotGeneral dot_S64x512_S512x10_S64x10_1_0_0_1_n_n none l r := rfl

/-- The last host stretch as one function of what it reads: the two pooled sums (the first already divided), the graph
    sizes, and the readout's weights and bias. -/
def readout (a b : FVec Ideal S64x256 .f32) (n : FVec Ideal S64x1 .f32) (w : FVec Ideal S512x10 .f32)
    (d : FVec Ideal S10 .f32) : FVec Ideal S64x10 .f32 :=
  addf
    (Host.dotGeneral dot_S64x512_S512x10_S64x10_1_0_0_1_n_n (some .fp32)
      (concatenate S64x512 1
        [⟨S64x256, a⟩, ⟨S64x256, Host.divf b (broadcastInDim S64x256 ![0, 1] bcast_S64x1_S64x256_0_1 n)⟩]
        concatenates_S64x256_S64x256_S64x512_d1) w)
    (broadcastInDim S64x10 ![0, 1] bcast_S1x10_S64x10_0_1 (broadcastInDim S1x10 ![1] bcast_S10_S1x10_1 d))

/-- The last boundary's result buffer is the last stretch's function of the last region's exit contents. -/
theorem result_readout (c : Dev nD) :
    W7 m ρ c (Proc.devRef .tc main_v61)
      = readout (W6 m ρ c (Proc.devRef .tc main_v36)) (W6 m ρ c (Proc.devRef .tc main_v54))
          (W6 m ρ c (Proc.devRef .tc main_v9)) (W6 m ρ c (Proc.devRef .tc main_arg19)) (W6 m ρ c (Proc.devRef .tc main_arg20)) := by
  show StableHlo.after hostOps4 (W6 m ρ c) (Proc.devRef .tc main_v61) = _
  after_results
  rfl

/-- THE RESULT: what the last boundary holds at the result buffer is the reference's result, as a function of the
    launch arrays. -/
theorem result (c : Dev nD) :
    W7 m ρ c (Proc.devRef .tc main_v61) = val_main_v98 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) (x19 m c) (x20 m c) := by
  rw [result_readout, pooled0_6, pool1_6, cnt6, wout_6, bout_6]
  unfold readout
  rw [readout_precision]
  unfold val_main_v98 Cert.ReferenceIdeal.Read.val_main_v95 Cert.ReferenceIdeal.Read.val_main_v94 Cert.ReferenceIdeal.Read.val_main_v97
    Cert.ReferenceIdeal.Read.val_main_v96 val_main_v93 Cert.ReferenceIdeal.Read.val_main_v92
  rfl

end Cert.KernelIdeal.Layers

end
-- ==== Proof.lean ====
/-
  THE CERTIFICATE'S CLAIM, ASSEMBLED.

  The kernel is a two-layer graph isomorphism network with mean pooling and a linear readout. Its host side gathers the
  neighbours' features and scatter-adds them per destination node, exactly as the reference does; its four regions
  compute the two node-wise perceptrons (on blocks of 2000 nodes, the products in bfloat16 with float32 accumulation)
  and the two poolings (a product with the 0/1 membership matrix, accumulated over blocks of 4000 nodes). Read on the
  extended reals, where a change of float format is the identity and sums may be taken in any order and grouping:
    a block's row of the perceptron is the whole array's row of it (only node p's row enters node p's output);
    the product with the membership matrix is the segment sum (1 * x = x, 0 * x = 0, infinities included; an id outside
      0..63 belongs to no graph on either side);
    every other step is the same host operation applied to equal arrays.
  So from memories that agree on the arguments both programs end with the same result array, element by element: the
  reference's result as a function of the arguments. No finiteness of the inputs is used.

  The three frames: the two kernels' are the generated frame certificates; the reference has no kernel, and its frame
  is its run with the result dropped. The idealization rewrote nothing, so its ledger is empty.
-/
import proofs.«420224_j87299505258672_1_alg».proof.Defs
import proofs.«420224_j87299505258672_1_alg».proof.Proof.Gen.Kernel
import proofs.«420224_j87299505258672_1_alg».proof.Proof.Gen.Kernel.Skeleton
import proofs.«420224_j87299505258672_1_alg».proof.Proof.Gen.Kernel.Launch
import proofs.«420224_j87299505258672_1_alg».proof.Proof.Gen.Kernel.Points
import proofs.«420224_j87299505258672_1_alg».proof.Proof.Gen.Kernel.Frame
import proofs.«420224_j87299505258672_1_alg».proof.Proof.Gen.KernelIdeal
import proofs.«420224_j87299505258672_1_alg».proof.Proof.Gen.KernelIdeal.Skeleton
import proofs.«420224_j87299505258672_1_alg».proof.Proof.Gen.KernelIdeal.Launch
import proofs.«420224_j87299505258672_1_alg».proof.Proof.Gen.KernelIdeal.Points
import proofs.«420224_j87299505258672_1_alg».proof.Proof.Gen.KernelIdeal.Frame
import proofs.«420224_j87299505258672_1_alg».proof.Proof.Gen.ReferenceIdeal
import proofs.«420224_j87299505258672_1_alg».proof.Proof.Gen.Pre_finite_inputs
import proofs.«420224_j87299505258672_1_alg».proof.Proof.Gen.ReferenceIdeal.Run
import proofs.«420224_j87299505258672_1_alg».proof.Proof.Gen.ReferenceIdeal.Read
import proofs.«420224_j87299505258672_1_alg».proof.Proof.KRun
import proofs.«420224_j87299505258672_1_alg».proof.Proof.KLayers
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel [Cert.Kernel.Facts] [Cert.Pre_finite_inputs.Facts] : Cert.frame_Kernel :=
  fun m ρ _ => Cert.Kernel.Gen.frame m ρ

/-- So does its idealization. -/
theorem frame_kernel_ideal [Cert.KernelIdeal.Facts] [Cert.Pre_finite_inputs.Facts] : Cert.frame_KernelIdeal :=
  fun m ρ _ => Cert.KernelIdeal.Gen.frame m ρ

/-- The reference is a straight line of host operations: its run, the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs, from memories that agree on the arguments, end with the reference's result term of the arguments:
    the kernel's last boundary holds it (the layers, boundary by boundary), and the reference's run states it. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Gen.W7 m ρ c (Proc.devRef .tc Cert.KernelIdeal.main_v61),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20⟩ := hagree c
  refine (Cert.ReferenceIdeal.Read.val_main_v98_eq m' c).trans ?_
  rw [h0, h1, h2, h3, h4, h5, h6, h7, h8, h9, h10, h11, h12, h13, h14, h15, h16, h17, h18, h19, h20]
  exact (Cert.KernelIdeal.Layers.result m ρ c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
